-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x6144 : Shape := ⟨2, ![64, 6144]⟩
abbrev S2x64x32768 : Shape := ⟨3, ![2, 64, 32768]⟩
abbrev S512x512 : Shape := ⟨2, ![512, 512]⟩
abbrev S228x128 : Shape := ⟨2, ![228, 128]⟩
abbrev S128 : Shape := ⟨1, ![128]⟩
abbrev S228x64 : Shape := ⟨2, ![228, 64]⟩
abbrev S64 : Shape := ⟨1, ![64]⟩
abbrev S384x128 : Shape := ⟨2, ![384, 128]⟩
abbrev S384x64 : Shape := ⟨2, ![384, 64]⟩
abbrev S_ : Shape := ⟨0, ![]⟩

class Facts : Prop where
  bcast_S_S64x6144 : S_.BroadcastsInDim S64x6144 (![] : Fin 0 → Fin S64x6144.rank)
  reducesTo_S64x6144_S_d0_1 : S64x6144.ReducesTo [0, 1] S_
  h_S_ : 0 < S_.numel
  bcast_S_S2x64x32768 : S_.BroadcastsInDim S2x64x32768 (![] : Fin 0 → Fin S2x64x32768.rank)
  reducesTo_S2x64x32768_S_d0_1_2 : S2x64x32768.ReducesTo [0, 1, 2] S_
  bcast_S_S512x512 : S_.BroadcastsInDim S512x512 (![] : Fin 0 → Fin S512x512.rank)
  reducesTo_S512x512_S_d0_1 : S512x512.ReducesTo [0, 1] S_
  bcast_S_S228x128 : S_.BroadcastsInDim S228x128 (![] : Fin 0 → Fin S228x128.rank)
  reducesTo_S228x128_S_d0_1 : S228x128.ReducesTo [0, 1] S_
  bcast_S_S128 : S_.BroadcastsInDim S128 (![] : Fin 0 → Fin S128.rank)
  reducesTo_S128_S_d0 : S128.ReducesTo [0] S_
  bcast_S_S228x64 : S_.BroadcastsInDim S228x64 (![] : Fin 0 → Fin S228x64.rank)
  reducesTo_S228x64_S_d0_1 : S228x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S384x128 .f32) (main_arg8 : FVec F S128 .f32) (main_arg9 : FVec F S384x64 .f32) (main_arg10 : FVec F S64 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S228x64 .f32) (main_arg6 : FVec F S64 .f32) (main_arg7 : FVec F S384x128 .f32) (main_arg8 : FVec F S128 .f32) (main_arg9 : FVec F S384x64 .f32) (main_arg10 : FVec F S64 .f32) (main_v13 : IVec S_ 1) (main_v16 : IVec S228x128 1) : IVec S_ 1 :=
  let main_c_5 : IVec S_ 1 := constantI S_ 1 1#1
  let main_v17 : IVec S_ 1 := (fun x v => Host.reduce IntOp.andi x v reducesTo_S228x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S228x64 .f32 := Host.absf main_arg5
  let main_cst_8 : FVec F S_ .f32 := constant S_ .f32 0x7F800000#32
  let main_v25 : FVec F S228x64 .f32 := broadcastInDim S228x64 ![] bcast_S_S228x64 main_cst_8
  let main_v26 : IVec S228x64 1 := cmpf .olt main_v24 main_v25
  let main_c_9 : IVec S_ 1 := constantI S_ 1 1#1
  let main_v27 : IVec S_ 1 := (fun x v => Host.reduce IntOp.andi x v reducesTo_S228x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x6144 .f32) (main_arg1 : FVec F S2x64x32768 .f32) (main_arg2 : FVec F S512x512 .f32) (main_arg3 : FVec F S228x128 .f32) (main_arg4 : FVec F S128 .f32) (main_arg5 : FVec F S228x64 .f32) (main_arg6 : FVec F S64 .f32) (main_arg7 : FVec F S384x128 .f32) (main_arg8 : FVec F S128 .f32) (main_arg9 : FVec F S384x64 .f32) (main_arg10 : FVec F S64 .f32) : IVec S_ 1 :=
  let main_v0 : FVec F S64x6144 .f32 := Host.absf main_arg0
  let main_cst : FVec F S_ .f32 := constant S_ .f32 0x7F800000#32
  let main_v1 : FVec F S64x6144 .f32 := broadcastInDim S64x6144 ![] bcast_S_S64x6144 main_cst
  let main_v2 : IVec S64x6144 1 := cmpf .olt main_v0 main_v1
  let main_c : IVec S_ 1 := constantI S_ 1 1#1
  let main_v3 : IVec S_ 1 := (fun x v => Host.reduce IntOp.andi x v reducesTo_S64x6144_S_d0_1 h_S_) main_v2 main_c
  let main_v4 : FVec F S2x64x32768 .f32 := Host.absf main_arg1
  let main_cst_0 : FVec F S_ .f32 := constant S_ .f32 0x7F800000#32
  let main_v5 : FVec F S2x64x32768 .f32 := broadcastInDim S2x64x32768 ![] bcast_S_S2x64x32768 main_cst_0
  let main_v6 : IVec S2x64x32768 1 := cmpf .olt main_v4 main_v5
  let main_c_1 : IVec S_ 1 := constantI S_ 1 1#1
  let main_v7 : IVec S_ 1 := (fun x v => Host.reduce IntOp.andi x v reducesTo_S2x64x32768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S228x128 .f32 := Host.absf main_arg3
  let main_cst_4 : FVec F S_ .f32 := constant S_ .f32 0x7F800000#32
  let main_v15 : FVec F S228x128 .f32 := broadcastInDim S228x128 ![] bcast_S_S228x128 main_cst_4
  let main_v16 : IVec S228x128 1 := cmpf .olt main_v14 main_v15
  fn_part1 (F := F) main_arg4 main_arg5 main_arg6 main_arg7 main_arg8 main_arg9 main_arg10 main_v13 main_v16
-- ==== Kernel.lean ====
abbrev S64x6144 : Shape := ⟨2, ![64, 6144]⟩
abbrev S2x64x32768 : Shape := ⟨3, ![2, 64, 32768]⟩
abbrev S512x512 : Shape := ⟨2, ![512, 512]⟩
abbrev S228x128 : Shape := ⟨2, ![228, 128]⟩
abbrev S128 : Shape := ⟨1, ![128]⟩
abbrev S228x64 : Shape := ⟨2, ![228, 64]⟩
abbrev S64 : Shape := ⟨1, ![64]⟩
abbrev S384x128 : Shape := ⟨2, ![384, 128]⟩
abbrev S384x64 : Shape := ⟨2, ![384, 64]⟩
abbrev S64x512x12 : Shape := ⟨3, ![64, 512, 12]⟩
abbrev S1x64x32768 : Shape := ⟨3, ![1, 64, 32768]⟩
abbrev S64x32768 : Shape := ⟨2, ![64, 32768]⟩
abbrev S64x512x64 : Shape := ⟨3, ![64, 512, 64]⟩
abbrev S76x3x128 : Shape := ⟨3, ![76, 3, 128]⟩
abbrev S3x76x128 : Shape := ⟨3, ![3, 76, 128]⟩
abbrev S76x3x64 : Shape := ⟨3, ![76, 3, 64]⟩
abbrev S3x76x64 : Shape := ⟨3, ![3, 76, 64]⟩
abbrev S1x128 : Shape := ⟨2, ![1, 128]⟩
abbrev S1x64 : Shape := ⟨2, ![1, 64]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S1x512x12 : Shape := ⟨3, ![1, 512, 12]⟩
abbrev S1x512x64 : Shape := ⟨3, ![1, 512, 64]⟩
abbrev S512x12 : Shape := ⟨2, ![512, 12]⟩
abbrev S512x64 : Shape := ⟨2, ![512, 64]⟩
abbrev S512x76 : Shape := ⟨2, ![512, 76]⟩
abbrev S1x76x128 : Shape := ⟨3, ![1, 76, 128]⟩
abbrev S76x128 : Shape := ⟨2, ![76, 128]⟩
abbrev S512x128 : Shape := ⟨2, ![512, 128]⟩
abbrev S1x76x64 : Shape := ⟨3, ![1, 76, 64]⟩
abbrev S76x64 : Shape := ⟨2, ![76, 64]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩

abbrev nBuf : Space → Nat
  | .hbm => 37
  | .vmem => 22
  | .smem => 0
  | _ => 0

abbrev bufTy : (tb : Table) → Fin (tcTables nBuf tb) → BufTy
  | .hbm, ⟨0, _⟩ => ⟨S64x6144, .f32⟩
  | .hbm, ⟨1, _⟩ => ⟨S2x64x32768, .f32⟩
  | .hbm, ⟨2, _⟩ => ⟨S512x512, .f32⟩
  | .hbm, ⟨3, _⟩ => ⟨S228x128, .f32⟩
  | .hbm, ⟨4, _⟩ => ⟨S128, .f32⟩
  | .hbm, ⟨5, _⟩ => ⟨S228x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x512x12, .f32⟩
  | .hbm, ⟨12, _⟩ => ⟨S1x64x32768, .f32⟩
  | .hbm, ⟨13, _⟩ => ⟨S64x32768, .f32⟩
  | .hbm, ⟨14, _⟩ => ⟨S64x512x64, .f32⟩
  | .hbm, ⟨15, _⟩ => ⟨S1x64x32768, .f32⟩
  | .hbm, ⟨16, _⟩ => ⟨S64x32768, .f32⟩
  | .hbm, ⟨17, _⟩ => ⟨S64x512x64, .f32⟩
  | .hbm, ⟨18, _⟩ => ⟨S76x3x128, .f32⟩
  | .hbm, ⟨19, _⟩ => ⟨S3x76x128, .f32⟩
  | .hbm, ⟨20, _⟩ => ⟨S76x3x64, .f32⟩
  | .hbm, ⟨21, _⟩ => ⟨S3x76x64, .f32⟩
  | .hbm, ⟨22, _⟩ => ⟨S1x128, .f32⟩
  | .hbm, ⟨23, _⟩ => ⟨S1x64, .f32⟩
  | .hbm, ⟨24, _⟩ => ⟨S64x512x64, .f32⟩
  | .hbm, ⟨25, _⟩ => ⟨S128x3x128, .f32⟩
  | .hbm, ⟨26, _⟩ => ⟨S3x128x128, .f32⟩
  | .hbm, ⟨27, _⟩ => ⟨S128x3x64, .f32⟩
  | .hbm, ⟨28, _⟩ => ⟨S3x128x64, .f32⟩
  | .hbm, ⟨29, _⟩ => ⟨S1x128, .f32⟩
  | .hbm, ⟨30, _⟩ => ⟨S1x64, .f32⟩
  | .hbm, ⟨31, _⟩ => ⟨S64x512x64, .f32⟩
  | .hbm, ⟨32, _⟩ => ⟨S64x32768, .f32⟩
  | .hbm, ⟨33, _⟩ => ⟨S64x32768, .f32⟩
  | .hbm, ⟨34, _⟩ => ⟨S1x64x32768, .f32⟩
  | .hbm, ⟨35, _⟩ => ⟨S1x64x32768, .f32⟩
  | .hbm, ⟨36, _⟩ => ⟨S2x64x32768, .f32⟩
  | .local _ .vmem, ⟨0, _⟩ => ⟨S1x512x12, .f32⟩
  | .local _ .vmem, ⟨1, _⟩ => ⟨S1x512x12, .f32⟩
  | .local _ .vmem, ⟨2, _⟩ => ⟨S1x512x64, .f32⟩
  | .local _ .vmem, ⟨3, _⟩ => ⟨S1x512x64, .f32⟩
  | .local _ .vmem, ⟨4, _⟩ => ⟨S512x512, .f32⟩
  | .local _ .vmem, ⟨5, _⟩ => ⟨S3x76x128, .f32⟩
  | .local _ .vmem, ⟨6, _⟩ => ⟨S1x128, .f32⟩
  | .local _ .vmem, ⟨7, _⟩ => ⟨S3x76x64, .f32⟩
  | .local _ .vmem, ⟨8, _⟩ => ⟨S1x64, .f32⟩
  | .local _ .vmem, ⟨9, _⟩ => ⟨S1x512x64, .f32⟩
  | .local _ .vmem, ⟨10, _⟩ => ⟨S1x512x64, .f32⟩
  | .local _ .vmem, ⟨11, _⟩ => ⟨S1x512x64, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S512x512, .f32⟩
  | .local _ .vmem, ⟨16, _⟩ => ⟨S3x128x128, .f32⟩
  | .local _ .vmem, ⟨17, _⟩ => ⟨S1x128, .f32⟩
  | .local _ .vmem, ⟨18, _⟩ => ⟨S3x128x64, .f32⟩
  | .local _ .vmem, ⟨19, _⟩ => ⟨S1x64, .f32⟩
  | .local _ .vmem, ⟨20, _⟩ => ⟨S1x512x64, .f32⟩
  | .local _ .vmem, ⟨21, _⟩ => ⟨S1x512x64, .f32⟩
  | _, _ => ⟨S64x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v0_0 : Ref sig .tc := ⟨.hbm, 33, rfl⟩
abbrev main_call0_v23 : Ref sig .tc := ⟨.hbm, 34, rfl⟩
abbrev main_call0_v24 : Ref sig .tc := ⟨.hbm, 35, rfl⟩
abbrev main_v0_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x76x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x76x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S64x6144_S64x512x12 : S64x6144.ShapeCasts S64x512x12
  slices_S2x64x32768_S1x64x32768_0_0_0 : S2x64x32768.Slices ![0, 0, 0] S1x64x32768
  shapeCasts_S1x64x32768_S64x32768 : S1x64x32768.ShapeCasts S64x32768
  shapeCasts_S64x32768_S64x512x64 : S64x32768.ShapeCasts S64x512x64
  slices_S2x64x32768_S1x64x32768_1_0_0 : S2x64x32768.Slices ![1, 0, 0] S1x64x32768
  shapeCasts_S228x128_S76x3x128 : S228x128.ShapeCasts S76x3x128
  transposes_S76x3x128_S3x76x128_1_0_2 : S76x3x128.Transposes [1, 0, 2] S3x76x128
  shapeCasts_S228x64_S76x3x64 : S228x64.ShapeCasts S76x3x64
  transposes_S76x3x64_S3x76x64_1_0_2 : S76x3x64.Transposes [1, 0, 2] S3x76x64
  shapeCasts_S128_S1x128 : S128.ShapeCasts S1x128
  shapeCasts_S64_S1x64 : S64.ShapeCasts S1x64
  shapeCasts_S384x128_S128x3x128 : S384x128.ShapeCasts S128x3x128
  transposes_S128x3x128_S3x128x128_1_0_2 : S128x3x128.Transposes [1, 0, 2] S3x128x128
  shapeCasts_S384x64_S128x3x64 : S384x64.ShapeCasts S128x3x64
  transposes_S128x3x64_S3x128x64_1_0_2 : S128x3x64.Transposes [1, 0, 2] S3x128x64
  shapeCasts_S64x512x64_S64x32768 : S64x512x64.ShapeCasts S64x32768
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  inb_S512x512_S512x512_0_0 : ∀ a, (![0, 0] : Fin 2 → Nat) a + S512x512.size a ≤ S512x512.size a
  h_S512x512 : 0 < S512x512.numel
  inb_S1x512x12_S1x512x12_0_0_0 : ∀ a, (![0, 0, 0] : Fin 3 → Nat) a + S1x512x12.size a ≤ S1x512x12.size a
  h_S1x512x12 : 0 < S1x512x12.numel
  shapeCasts_S1x512x12_S512x12 : S1x512x12.ShapeCasts S512x12
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S3x76x128_S3x76x128_0_0_0 : ∀ a, (![0, 0, 0] : Fin 3 → Nat) a + S3x76x128.size a ≤ S3x76x128.size a
  h_S3x76x128 : 0 < S3x76x128.numel
  shapeCasts_S3x76x128_S3x76x128 : S3x76x128.ShapeCasts S3x76x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S3x76x64_S3x76x64_0_0_0 : ∀ a, (![0, 0, 0] : Fin 3 → Nat) a + S3x76x64.size a ≤ S3x76x64.size a
  h_S3x76x64 : 0 < S3x76x64.numel
  shapeCasts_S3x76x64_S3x76x64 : S3x76x64.ShapeCasts S3x76x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  concatenates_S512x12_S512x64_S512x76_d1 : Shape.Concatenates [S512x12, S512x64] S512x76 1
  slices_S3x76x128_o0_0_0_S1x76x128 : S3x76x128.Slices ![0, 0, 0] S1x76x128
  shapeCasts_S1x76x128_S76x128 : S1x76x128.ShapeCasts S76x128
  slices_S3x76x128_o1_0_0_S1x76x128 : S3x76x128.Slices ![1, 0, 0] S1x76x128
  slices_S3x76x128_o2_0_0_S1x76x128 : S3x76x128.Slices ![2, 0, 0] S1x76x128
  broadcasts_S1x128_S512x128 : S1x128.Broadcasts S512x128
  slices_S512x128_o0_0_S512x64 : S512x128.Slices ![0, 0] S512x64
  slices_S512x128_o0_64_S512x64 : S512x128.Slices ![0, 64] S512x64
  slices_S3x76x64_o0_0_0_S1x76x64 : S3x76x64.Slices ![0, 0, 0] S1x76x64
  shapeCasts_S1x76x64_S76x64 : S1x76x64.ShapeCasts S76x64
  slices_S3x76x64_o1_0_0_S1x76x64 : S3x76x64.Slices ![1, 0, 0] S1x76x64
  slices_S3x76x64_o2_0_0_S1x76x64 : S3x76x64.Slices ![2, 0, 0] S1x76x64
  broadcasts_S1x64_S512x64 : S1x64.Broadcasts S512x64
  shapeCasts_S512x64_S1x512x64 : S512x64.ShapeCasts S1x512x64
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  inb_S3x128x64_S3x128x64_0_0_0 : ∀ a, (![0, 0, 0] : Fin 3 → Nat) a + S3x128x64.size a ≤ S3x128x64.size a
  h_S3x128x64 : 0 < S3x128x64.numel
  shapeCasts_S3x128x64_S3x128x64 : S3x128x64.ShapeCasts S3x128x64
  concatenates_S512x64_S512x64_S512x128_d1 : Shape.Concatenates [S512x64, S512x64] S512x128 1
  slices_S3x128x128_o0_0_0_S1x128x128 : S3x128x128.Slices ![0, 0, 0] S1x128x128
  shapeCasts_S1x128x128_S128x128 : S1x128x128.ShapeCasts S128x128
  slices_S3x128x128_o1_0_0_S1x128x128 : S3x128x128.Slices ![1, 0, 0] S1x128x128
  slices_S3x128x128_o2_0_0_S1x128x128 : S3x128x128.Slices ![2, 0, 0] S1x128x128
  slices_S3x128x64_o0_0_0_S1x128x64 : S3x128x64.Slices ![0, 0, 0] S1x128x64
  shapeCasts_S1x128x64_S128x64 : S1x128x64.ShapeCasts S128x64
  slices_S3x128x64_o1_0_0_S1x128x64 : S3x128x64.Slices ![1, 0, 0] S1x128x64
  slices_S3x128x64_o2_0_0_S1x128x64 : S3x128x64.Slices ![2, 0, 0] S1x128x64
  dot_S512x512_S512x76_S512x76_1_0_0_1_n_n_wf : DotDims.WF S512x512 S512x76 S512x76 [1] [0] [0] [1] [] []
  dot_S512x76_S76x128_S512x128_1_0_0_1_n_n_wf : DotDims.WF S512x76 S76x128 S512x128 [1] [0] [0] [1] [] []
  dot_S512x76_S76x64_S512x64_1_0_0_1_n_n_wf : DotDims.WF S512x76 S76x64 S512x64 [1] [0] [0] [1] [] []
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x12.size a ≤ S64x512x12.size a
  hwx0_0 : ∀ i : grid0.Coords, EltTy.bits .f32 = 32 ∨ (Rect.block (s := S64x512x12) S1x512x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S64x512x64.size a
  hwx0_1 : ∀ i : grid0.Coords, EltTy.bits .f32 = 32 ∨ (Rect.block (s := S64x512x64) S1x512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x76x128.size a ≤ S3x76x128.size a
  hwx0_3 : ∀ i : grid0.Coords, EltTy.bits .f32 = 32 ∨ (Rect.block (s := S3x76x128) S3x76x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x76x64.size a ≤ S3x76x64.size a
  hwx0_5 : ∀ i : grid0.Coords, EltTy.bits .f32 = 32 ∨ (Rect.block (s := S3x76x64) S3x76x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S64x512x64.size a
  hwx0_7 : ∀ i : grid0.Coords, EltTy.bits .f32 = 32 ∨ (Rect.block (s := S64x512x64) S1x512x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S64x512x64.size a
  hwx1_0 : ∀ i : grid1.Coords, EltTy.bits .f32 = 32 ∨ (Rect.block (s := S64x512x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S64x512x64.size a
  hwx1_1 : ∀ i : grid1.Coords, EltTy.bits .f32 = 32 ∨ (Rect.block (s := S64x512x64) S1x512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x128.size a ≤ S3x128x128.size a
  hwx1_3 : ∀ i : grid1.Coords, EltTy.bits .f32 = 32 ∨ (Rect.block (s := S3x128x128) S3x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128x64.size a ≤ S3x128x64.size a
  hwx1_5 : ∀ i : grid1.Coords, EltTy.bits .f32 = 32 ∨ (Rect.block (s := S3x128x64) S3x128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x64.size a ≤ S64x512x64.size a
  hwx1_7 : ∀ i : grid1.Coords, EltTy.bits .f32 = 32 ∨ (Rect.block (s := S64x512x64) S1x512x64.size (cc1_transform_7 i) (hinb1_7 i)).WholeWords (EltTy.packing .f32)

variable [Facts₀]

def dot_S512x512_S512x76_S512x76_1_0_0_1_n_n : DotDims S512x512 S512x76 S512x76 where
  lhsContracting := [1]
  rhsContracting := [0]
  lhsNonContracting := [0]
  rhsNonContracting := [1]
  lhsBatch := []
  rhsBatch := []
  wf := dot_S512x512_S512x76_S512x76_1_0_0_1_n_n_wf
def dot_S512x76_S76x128_S512x128_1_0_0_1_n_n : DotDims S512x76 S76x128 S512x128 where
  lhsContracting := [1]
  rhsContracting := [0]
  lhsNonContracting := [0]
  rhsNonContracting := [1]
  lhsBatch := []
  rhsBatch := []
  wf := dot_S512x76_S76x128_S512x128_1_0_0_1_n_n_wf
def dot_S512x76_S76x64_S512x64_1_0_0_1_n_n : DotDims S512x76 S76x64 S512x64 where
  lhsContracting := [1]
  rhsContracting := [0]
  lhsNonContracting := [0]
  rhsNonContracting := [1]
  lhsBatch := []
  rhsBatch := []
  wf := dot_S512x76_S76x64_S512x64_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_call0_v0) S1x512x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S3x76x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10) S3x76x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v13) S1x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_call0_v13) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v15) S3x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v17) S3x128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v19) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v20) S1x512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x6144 : Shape := ⟨2, ![64, 6144]⟩
abbrev S2x64x32768 : Shape := ⟨3, ![2, 64, 32768]⟩
abbrev S512x512 : Shape := ⟨2, ![512, 512]⟩
abbrev S228x128 : Shape := ⟨2, ![228, 128]⟩
abbrev S128 : Shape := ⟨1, ![128]⟩
abbrev S228x64 : Shape := ⟨2, ![228, 64]⟩
abbrev S64 : Shape := ⟨1, ![64]⟩
abbrev S384x128 : Shape := ⟨2, ![384, 128]⟩
abbrev S384x64 : Shape := ⟨2, ![384, 64]⟩
abbrev S1x64x32768 : Shape := ⟨3, ![1, 64, 32768]⟩
abbrev S64x32768 : Shape := ⟨2, ![64, 32768]⟩
abbrev S64x512x12 : Shape := ⟨3, ![64, 512, 12]⟩
abbrev S64x512x64 : Shape := ⟨3, ![64, 512, 64]⟩
abbrev S64x512x76 : Shape := ⟨3, ![64, 512, 76]⟩
abbrev S512x76x64 : Shape := ⟨3, ![512, 76, 64]⟩
abbrev S512x4864 : Shape := ⟨2, ![512, 4864]⟩
abbrev S_ : Shape := ⟨0, ![]⟩
abbrev S1x512x4864 : Shape := ⟨3, ![1, 512, 4864]⟩
abbrev S3x512x4864 : Shape := ⟨3, ![3, 512, 4864]⟩
abbrev S3x512x76x64 : Shape := ⟨4, ![3, 512, 76, 64]⟩
abbrev S64x512x76x3 : Shape := ⟨4, ![64, 512, 76, 3]⟩
abbrev S32768x228 : Shape := ⟨2, ![32768, 228]⟩
abbrev S32768x128 : Shape := ⟨2, ![32768, 128]⟩
abbrev S1x128 : Shape := ⟨2, ![1, 128]⟩
abbrev S64x512x128 : Shape := ⟨3, ![64, 512, 128]⟩
abbrev S32768x64 : Shape := ⟨2, ![32768, 64]⟩
abbrev S1x64 : Shape := ⟨2, ![1, 64]⟩
abbrev S512x128x64 : Shape := ⟨3, ![512, 128, 64]⟩
abbrev S512x8192 : Shape := ⟨2, ![512, 8192]⟩
abbrev S1x512x8192 : Shape := ⟨3, ![1, 512, 8192]⟩
abbrev S3x512x8192 : Shape := ⟨3, ![3, 512, 8192]⟩
abbrev S3x512x128x64 : Shape := ⟨4, ![3, 512, 128, 64]⟩
abbrev S64x512x128x3 : Shape := ⟨4, ![64, 512, 128, 3]⟩
abbrev S32768x384 : Shape := ⟨2, ![32768, 384]⟩

abbrev nBuf : Space → Nat
  | .hbm => 150
  | .vmem => 0
  | .smem => 0
  | _ => 0

abbrev hbmTy0_0 (i : Nat) : BufTy := match i % 128 with
  | 0 => ⟨S64x6144, .f32⟩
  | 1 => ⟨S2x64x32768, .f32⟩
  | 2 => ⟨S512x512, .f32⟩
  | 3 => ⟨S228x128, .f32⟩
  | 4 => ⟨S128, .f32⟩
  | 5 => ⟨S228x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S1x64x32768, .f32⟩
  | 12 => ⟨S64x32768, .f32⟩
  | 13 => ⟨S64x512x12, .f32⟩
  | 14 => ⟨S64x512x64, .f32⟩
  | 15 => ⟨S64x512x76, .f32⟩
  | 16 => ⟨S512x76x64, .f32⟩
  | 17 => ⟨S512x4864, .f32⟩
  | 18 => ⟨S512x4864, .f32⟩
  | 19 => ⟨S512x4864, .f32⟩
  | 20 => ⟨S_, .f32⟩
  | 21 => ⟨S512x4864, .f32⟩
  | 22 => ⟨S512x4864, .f32⟩
  | 23 => ⟨S512x4864, .f32⟩
  | 24 => ⟨S1x512x4864, .f32⟩
  | 25 => ⟨S1x512x4864, .f32⟩
  | 26 => ⟨S1x512x4864, .f32⟩
  | 27 => ⟨S3x512x4864, .f32⟩
  | 28 => ⟨S3x512x76x64, .f32⟩
  | 29 => ⟨S64x512x76x3, .f32⟩
  | 30 => ⟨S32768x228, .f32⟩
  | 31 => ⟨S32768x128, .f32⟩
  | 32 => ⟨S1x128, .f32⟩
  | 33 => ⟨S32768x128, .f32⟩
  | 34 => ⟨S32768x128, .f32⟩
  | 35 => ⟨S32768x128, .f32⟩
  | 36 => ⟨S32768x128, .f32⟩
  | 37 => ⟨S_, .f32⟩
  | 38 => ⟨S32768x128, .f32⟩
  | 39 => ⟨S32768x128, .f32⟩
  | 40 => ⟨S_, .f32⟩
  | 41 => ⟨S32768x128, .f32⟩
  | 42 => ⟨S32768x128, .f32⟩
  | 43 => ⟨S64x512x128, .f32⟩
  | 44 => ⟨S64x512x64, .f32⟩
  | 45 => ⟨S64x32768, .f32⟩
  | 46 => ⟨S64x512x64, .f32⟩
  | 47 => ⟨S64x32768, .f32⟩
  | 48 => ⟨S64x32768, .f32⟩
  | 49 => ⟨S64x512x12, .f32⟩
  | 50 => ⟨S64x512x64, .f32⟩
  | 51 => ⟨S64x512x76, .f32⟩
  | 52 => ⟨S512x76x64, .f32⟩
  | 53 => ⟨S512x4864, .f32⟩
  | 54 => ⟨S512x4864, .f32⟩
  | 55 => ⟨S512x4864, .f32⟩
  | 56 => ⟨S_, .f32⟩
  | 57 => ⟨S512x4864, .f32⟩
  | 58 => ⟨S512x4864, .f32⟩
  | 59 => ⟨S512x4864, .f32⟩
  | 60 => ⟨S1x512x4864, .f32⟩
  | 61 => ⟨S1x512x4864, .f32⟩
  | 62 => ⟨S1x512x4864, .f32⟩
  | 63 => ⟨S3x512x4864, .f32⟩
  | 64 => ⟨S3x512x76x64, .f32⟩
  | 65 => ⟨S64x512x76x3, .f32⟩
  | 66 => ⟨S32768x228, .f32⟩
  | 67 => ⟨S32768x64, .f32⟩
  | 68 => ⟨S1x64, .f32⟩
  | 69 => ⟨S32768x64, .f32⟩
  | 70 => ⟨S32768x64, .f32⟩
  | 71 => ⟨S32768x64, .f32⟩
  | 72 => ⟨S64x32768, .f32⟩
  | 73 => ⟨S64x32768, .f32⟩
  | 74 => ⟨S_, .f32⟩
  | 75 => ⟨S64x32768, .f32⟩
  | 76 => ⟨S64x32768, .f32⟩
  | 77 => ⟨S64x32768, .f32⟩
  | 78 => ⟨S64x32768, .f32⟩
  | 79 => ⟨S1x64x32768, .f32⟩
  | 80 => ⟨S64x32768, .f32⟩
  | 81 => ⟨S64x512x64, .f32⟩
  | 82 => ⟨S64x512x64, .f32⟩
  | 83 => ⟨S64x512x128, .f32⟩
  | 84 => ⟨S512x128x64, .f32⟩
  | 85 => ⟨S512x8192, .f32⟩
  | 86 => ⟨S512x8192, .f32⟩
  | 87 => ⟨S512x8192, .f32⟩
  | 88 => ⟨S_, .f32⟩
  | 89 => ⟨S512x8192, .f32⟩
  | 90 => ⟨S512x8192, .f32⟩
  | 91 => ⟨S512x8192, .f32⟩
  | 92 => ⟨S1x512x8192, .f32⟩
  | 93 => ⟨S1x512x8192, .f32⟩
  | 94 => ⟨S1x512x8192, .f32⟩
  | 95 => ⟨S3x512x8192, .f32⟩
  | 96 => ⟨S3x512x128x64, .f32⟩
  | 97 => ⟨S64x512x128x3, .f32⟩
  | 98 => ⟨S32768x384, .f32⟩
  | 99 => ⟨S32768x128, .f32⟩
  | 100 => ⟨S1x128, .f32⟩
  | 101 => ⟨S32768x128, .f32⟩
  | 102 => ⟨S32768x128, .f32⟩
  | 103 => ⟨S32768x128, .f32⟩
  | 104 => ⟨S32768x128, .f32⟩
  | 105 => ⟨S_, .f32⟩
  | 106 => ⟨S32768x128, .f32⟩
  | 107 => ⟨S32768x128, .f32⟩
  | 108 => ⟨S_, .f32⟩
  | 109 => ⟨S32768x128, .f32⟩
  | 110 => ⟨S32768x128, .f32⟩
  | 111 => ⟨S64x512x128, .f32⟩
  | 112 => ⟨S64x512x64, .f32⟩
  | 113 => ⟨S64x32768, .f32⟩
  | 114 => ⟨S64x512x64, .f32⟩
  | 115 => ⟨S64x32768, .f32⟩
  | 116 => ⟨S64x32768, .f32⟩
  | 117 => ⟨S64x512x64, .f32⟩
  | 118 => ⟨S64x512x64, .f32⟩
  | 119 => ⟨S64x512x128, .f32⟩
  | 120 => ⟨S512x128x64, .f32⟩
  | 121 => ⟨S512x8192, .f32⟩
  | 122 => ⟨S512x8192, .f32⟩
  | 123 => ⟨S512x8192, .f32⟩
  | 124 => ⟨S_, .f32⟩
  | 125 => ⟨S512x8192, .f32⟩
  | 126 => ⟨S512x8192, .f32⟩
  | 127 => ⟨S512x8192, .f32⟩
  | _ => ⟨S64x6144, .f32⟩

abbrev hbmTy0_1 (i : Nat) : BufTy := match i % 128 with
  | 0 => ⟨S1x512x8192, .f32⟩
  | 1 => ⟨S1x512x8192, .f32⟩
  | 2 => ⟨S1x512x8192, .f32⟩
  | 3 => ⟨S3x512x8192, .f32⟩
  | 4 => ⟨S3x512x128x64, .f32⟩
  | 5 => ⟨S64x512x128x3, .f32⟩
  | 6 => ⟨S32768x384, .f32⟩
  | 7 => ⟨S32768x64, .f32⟩
  | 8 => ⟨S1x64, .f32⟩
  | 9 => ⟨S32768x64, .f32⟩
  | 10 => ⟨S32768x64, .f32⟩
  | 11 => ⟨S32768x64, .f32⟩
  | 12 => ⟨S64x32768, .f32⟩
  | 13 => ⟨S64x32768, .f32⟩
  | 14 => ⟨S_, .f32⟩
  | 15 => ⟨S64x32768, .f32⟩
  | 16 => ⟨S64x32768, .f32⟩
  | 17 => ⟨S64x32768, .f32⟩
  | 18 => ⟨S64x32768, .f32⟩
  | 19 => ⟨S1x64x32768, .f32⟩
  | 20 => ⟨S1x64x32768, .f32⟩
  | 21 => ⟨S2x64x32768, .f32⟩
  | _ => ⟨S64x6144, .f32⟩

abbrev hbmTy (i : Nat) : BufTy := match i / 128 with
  | 0 => hbmTy0_0 i
  | 1 => hbmTy0_1 i
  | _ => ⟨S64x6144, .f32⟩

abbrev bufTy : (tb : Table) → Fin (tcTables nBuf tb) → BufTy
  | .hbm, ⟨i, _⟩ => hbmTy i
  | _, _ => ⟨S64x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_4 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_5 : Ref sig .tc := ⟨.hbm, 105, rfl⟩
abbrev main_v88 : Ref sig .tc := ⟨.hbm, 106, rfl⟩
abbrev main_v89 : Ref sig .tc := ⟨.hbm, 107, rfl⟩
abbrev main_cst_6 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_7 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_8 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩

abbrev nD : Nat := 1
abbrev τ : Topo := Topo.v7x

variable {F : FTy → Type} [FloatOps F]

class Facts₀ : Prop where
  slices_S2x64x32768_S1x64x32768_0_0_0 : S2x64x32768.Slices ![0, 0, 0] S1x64x32768
  shapeCasts_S1x64x32768_S64x32768 : S1x64x32768.ShapeCasts S64x32768
  shapeCasts_S64x6144_S64x512x12 : S64x6144.ShapeCasts S64x512x12
  shapeCasts_S64x32768_S64x512x64 : S64x32768.ShapeCasts S64x512x64
  concatenates_S64x512x12_S64x512x64_S64x512x76_d2 : Shape.Concatenates [S64x512x12, S64x512x64] S64x512x76 2
  transposes_S64x512x76_S512x76x64_1_2_0 : S64x512x76.Transposes [1, 2, 0] S512x76x64
  shapeCasts_S512x76x64_S512x4864 : S512x76x64.ShapeCasts S512x4864
  bcast_S_S512x4864 : S_.BroadcastsInDim S512x4864 (![] : Fin 0 → Fin S512x4864.rank)
  bcast_S512x4864_S1x512x4864_1_2 : S512x4864.BroadcastsInDim S1x512x4864 (![1, 2] : Fin 2 → Fin S1x512x4864.rank)
  concatenates_S1x512x4864_S1x512x4864_S1x512x4864_S3x512x4864_d0 : Shape.Concatenates [S1x512x4864, S1x512x4864, S1x512x4864] S3x512x4864 0
  shapeCasts_S3x512x4864_S3x512x76x64 : S3x512x4864.ShapeCasts S3x512x76x64
  transposes_S3x512x76x64_S64x512x76x3_3_1_2_0 : S3x512x76x64.Transposes [3, 1, 2, 0] S64x512x76x3
  shapeCasts_S64x512x76x3_S32768x228 : S64x512x76x3.ShapeCasts S32768x228
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  shapeCasts_S32768x128_S64x512x128 : S32768x128.ShapeCasts S64x512x128
  slices_S64x512x128_S64x512x64_0_0_0 : S64x512x128.Slices ![0, 0, 0] S64x512x64
  shapeCasts_S64x512x64_S64x32768 : S64x512x64.ShapeCasts S64x32768
  slices_S64x512x128_S64x512x64_0_0_64 : S64x512x128.Slices ![0, 0, 64] S64x512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S64x32768 : S32768x64.ShapeCasts S64x32768
  bcast_S_S64x32768 : S_.BroadcastsInDim S64x32768 (![] : Fin 0 → Fin S64x32768.rank)
  slices_S2x64x32768_S1x64x32768_1_0_0 : S2x64x32768.Slices ![1, 0, 0] S1x64x32768
  concatenates_S64x512x64_S64x512x64_S64x512x128_d2 : Shape.Concatenates [S64x512x64, S64x512x64] S64x512x128 2
  transposes_S64x512x128_S512x128x64_1_2_0 : S64x512x128.Transposes [1, 2, 0] S512x128x64
  shapeCasts_S512x128x64_S512x8192 : S512x128x64.ShapeCasts S512x8192
  bcast_S_S512x8192 : S_.BroadcastsInDim S512x8192 (![] : Fin 0 → Fin S512x8192.rank)
  bcast_S512x8192_S1x512x8192_1_2 : S512x8192.BroadcastsInDim S1x512x8192 (![1, 2] : Fin 2 → Fin S1x512x8192.rank)
  concatenates_S1x512x8192_S1x512x8192_S1x512x8192_S3x512x8192_d0 : Shape.Concatenates [S1x512x8192, S1x512x8192, S1x512x8192] S3x512x8192 0
  shapeCasts_S3x512x8192_S3x512x128x64 : S3x512x8192.ShapeCasts S3x512x128x64
  transposes_S3x512x128x64_S64x512x128x3_3_1_2_0 : S3x512x128x64.Transposes [3, 1, 2, 0] S64x512x128x3
  shapeCasts_S64x512x128x3_S32768x384 : S64x512x128x3.ShapeCasts S32768x384
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x4864_S512x4864_1_0_0_1_n_n_wf : DotDims.WF S512x512 S512x4864 S512x4864 [1] [0] [0] [1] [] []
  dot_S32768x228_S228x128_S32768x128_1_0_0_1_n_n_wf : DotDims.WF S32768x228 S228x128 S32768x128 [1] [0] [0] [1] [] []
  dot_S32768x228_S228x64_S32768x64_1_0_0_1_n_n_wf : DotDims.WF S32768x228 S228x64 S32768x64 [1] [0] [0] [1] [] []
  dot_S512x512_S512x8192_S512x8192_1_0_0_1_n_n_wf : DotDims.WF S512x512 S512x8192 S512x8192 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []

variable [Facts₀]

def dot_S512x512_S512x4864_S512x4864_1_0_0_1_n_n : DotDims S512x512 S512x4864 S512x4864 where
  lhsContracting := [1]
  rhsContracting := [0]
  lhsNonContracting := [0]
  rhsNonContracting := [1]
  lhsBatch := []
  rhsBatch := []
  wf := dot_S512x512_S512x4864_S512x4864_1_0_0_1_n_n_wf
def dot_S32768x228_S228x128_S32768x128_1_0_0_1_n_n : DotDims S32768x228 S228x128 S32768x128 where
  lhsContracting := [1]
  rhsContracting := [0]
  lhsNonContracting := [0]
  rhsNonContracting := [1]
  lhsBatch := []
  rhsBatch := []
  wf := dot_S32768x228_S228x128_S32768x128_1_0_0_1_n_n_wf
def dot_S32768x228_S228x64_S32768x64_1_0_0_1_n_n : DotDims S32768x228 S228x64 S32768x64 where
  lhsContracting := [1]
  rhsContracting := [0]
  lhsNonContracting := [0]
  rhsNonContracting := [1]
  lhsBatch := []
  rhsBatch := []
  wf := dot_S32768x228_S228x64_S32768x64_1_0_0_1_n_n_wf
def dot_S512x512_S512x8192_S512x8192_1_0_0_1_n_n : DotDims S512x512 S512x8192 S512x8192 where
  lhsContracting := [1]
  rhsContracting := [0]
  lhsNonContracting := [0]
  rhsNonContracting := [1]
  lhsBatch := []
  rhsBatch := []
  wf := dot_S512x512_S512x8192_S512x8192_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf

class Facts : Prop extends Facts₀ where

variable [Facts]
-- ==== Proof.RunInv.lean ====
/-
  The reference's operation list cut into seventeen stretches, one per buffer that is read more than once (and the two
  results), and what the buffers hold at each cut.

  Every buffer of @main is written once.  Cutting the list right after the operation that writes a named intermediate
  makes every value inside a stretch a value used once, so a stretch's composed term stays small; across a cut only the
  argument arrays, the named intermediates and two reset-gate buffers are read.  `I k V W` says that a valuation `W`
  (the buffers after stretch `k`, started from `V`) holds, at each buffer still read after the cut, the argument as
  launched or the intermediate's term of the arguments.  `term_v125`, `term_v128` name the two results' terms.
-/
import proofs.«127843_g48979807044056_cont_8to1c4_176_1_alg».proof.Proof.RunDefs

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The first result's term of the arguments: the second layer's new state. -/
def term_v125 (V : Valuation τ sig (Elt F)) : (Proc.devRef .tc main_v125 : DevRef τ sig).ty.Contents (Elt F) :=
  addf (mulf (res_main_v96 V) (res_main_v64 V)) (mulf (subf (broadcastInDim S64x32768 ![] bcast_S_S64x32768 (constant S_ .f32 0x3F800000#32)) (res_main_v96 V)) (shapeCast _ (Host.tanh (addf (Host.dotGeneral dot_S32768x384_S384x64_S32768x64_1_0_0_1_n_n none (shapeCast _ (transpose S64x512x128x3 [3, 1, 2, 0] (shapeCast _ (concatenate S3x512x8192 0 [⟨S1x512x8192, (broadcastInDim S1x512x8192 ![1, 2] bcast_S512x8192_S1x512x8192_1_2 (res_main_v102 V))⟩, ⟨S1x512x8192, (broadcastInDim S1x512x8192 ![1, 2] bcast_S512x8192_S1x512x8192_1_2 (res_main_v103 V))⟩, ⟨S1x512x8192, (broadcastInDim S1x512x8192 ![1, 2] bcast_S512x8192_S1x512x8192_1_2 (subf (mulf (broadcastInDim S512x8192 ![] bcast_S_S512x8192 (constant S_ .f32 0x40000000#32)) (Host.dotGeneral dot_S512x512_S512x8192_S512x8192_1_0_0_1_n_n none (V (Proc.devRef .tc main_arg2)) (res_main_v103 V))) (res_main_v102 V)))⟩] concatenates_S1x512x8192_S1x512x8192_S1x512x8192_S3x512x8192_d0) shapeCasts_S3x512x8192_S3x512x128x64) transposes_S3x512x128x64_S64x512x128x3_3_1_2_0) shapeCasts_S64x512x128x3_S32768x384) (V (Proc.devRef .tc main_arg9))) (broadcastInDim S32768x64 ![0, 1] bcast_S1x64_S32768x64_0_1 (broadcastInDim S1x64 ![1] bcast_S64_S1x64_1 (V (Proc.devRef .tc main_arg10)))))) shapeCasts_S32768x64_S64x32768))

set_option maxRecDepth 8192 in
/-- The second result's term of the arguments: the two layers' new states, stacked. -/
def term_v128 (V : Valuation τ sig (Elt F)) : (Proc.devRef .tc main_v128 : DevRef τ sig).ty.Contents (Elt F) :=
  concatenate S2x64x32768 0 [⟨S1x64x32768, (broadcastInDim S1x64x32768 ![1, 2] bcast_S64x32768_S1x64x32768_1_2 (res_main_v62 V))⟩, ⟨S1x64x32768, (broadcastInDim S1x64x32768 ![1, 2] bcast_S64x32768_S1x64x32768_1_2 ((term_v125 V)))⟩] concatenates_S1x64x32768_S1x64x32768_S2x64x32768_d0

/-- Stretch 1: up to the operation that writes `main_v1`. -/
abbrev c01 : List (HloOp τ sig (Elt F)) :=
  [ unary main_arg1 main_v0 ((extractStridedSlice S1x64x32768 ![0, 0, 0] · slices_S2x64x32768_S1x64x32768_0_0_0) : (⟨S2x64x32768, .f32⟩ : BufTy).Contents (Elt F) → (⟨S1x64x32768, .f32⟩ : BufTy).Contents (Elt F)),
    reshape main_v0 main_v1 rfl shapeCasts_S1x64x32768_S64x32768 ]

/-- Stretch 2: up to the operation that writes `main_v6`. -/
abbrev c02 : List (HloOp τ sig (Elt F)) :=
  [ reshape main_arg0 main_v2 rfl shapeCasts_S64x6144_S64x512x12,
    reshape main_v1 main_v3 rfl shapeCasts_S64x32768_S64x512x64,
    binary main_v2 main_v3 main_v4 ((fun a b => concatenate S64x512x76 2 [⟨S64x512x12, a⟩, ⟨S64x512x64, b⟩] concatenates_S64x512x12_S64x512x64_S64x512x76_d2) : (⟨S64x512x12, .f32⟩ : BufTy).Contents (Elt F) → (⟨S64x512x64, .f32⟩ : BufTy).Contents (Elt F) → (⟨S64x512x76, .f32⟩ : BufTy).Contents (Elt F)),
    unary main_v4 main_v5 ((transpose S512x76x64 [1, 2, 0] · transposes_S64x512x76_S512x76x64_1_2_0) : (⟨S64x512x76, .f32⟩ : BufTy).Contents (Elt F) → (⟨S512x76x64, .f32⟩ : BufTy).Contents (Elt F)),
    reshape main_v5 main_v6 rfl shapeCasts_S512x76x64_S512x4864 ]

/-- Stretch 3: up to the operation that writes `main_v7`. -/
abbrev c03 : List (HloOp τ sig (Elt F)) :=
  [ binary main_arg2 main_v6 main_v7 ((fun l r => Host.dotGeneral dot_S512x512_S512x4864_S512x4864_1_0_0_1_n_n none l r) : (⟨S512x512, .f32⟩ : BufTy).Contents (Elt F) → (⟨S512x4864, .f32⟩ : BufTy).Contents (Elt F) → (⟨S512x4864, .f32⟩ : BufTy).Contents (Elt F)) ]

/-- Stretch 4: up to the operation that writes `main_v29`. -/
abbrev c04 : List (HloOp τ sig (Elt F)) :=
  [ binary main_arg2 main_v7 main_v8 ((fun l r => Host.dotGeneral dot_S512x512_S512x4864_S512x4864_1_0_0_1_n_n none l r) : (⟨S512x512, .f32⟩ : BufTy).Contents (Elt F) → (⟨S512x4864, .f32⟩ : BufTy).Contents (Elt F) → (⟨S512x4864, .f32⟩ : BufTy).Contents (Elt F)),
    nullary main_cst (constant S_ .f32 0x40000000#32),
    unary main_cst main_v9 (broadcastInDim S512x4864 ![] bcast_S_S512x4864 : (⟨S_, .f32⟩ : BufTy).Contents (Elt F) → (⟨S512x4864, .f32⟩ : BufTy).Contents (Elt F)),
    binary main_v9 main_v8 main_v10 (mulf : (⟨S512x4864, .f32⟩ : BufTy).Contents (Elt F) → (⟨S512x4864, .f32⟩ : BufTy).Contents (Elt F) → (⟨S512x4864, .f32⟩ : BufTy).Contents (Elt F)),
    binary main_v10 main_v6 main_v11 (subf : (⟨S512x4864, .f32⟩ : BufTy).Contents (Elt F) → (⟨S512x4864, .f32⟩ : BufTy).Contents (Elt F) → (⟨S512x4864, .f32⟩ : BufTy).Contents (Elt F)),
    unary main_v6 main_v12 (broadcastInDim S1x512x4864 ![1, 2] bcast_S512x4864_S1x512x4864_1_2 : (⟨S512x4864, .f32⟩ : BufTy).Contents (Elt F) → (⟨S1x512x4864, .f32⟩ : BufTy).Contents (Elt F)),
    unary main_v7 main_v13 (broadcastInDim S1x512x4864 ![1, 2] bcast_S512x4864_S1x512x4864_1_2 : (⟨S512x4864, .f32⟩ : BufTy).Contents (Elt F) → (⟨S1x512x4864, .f32⟩ : BufTy).Contents (Elt F)),
    unary main_v11 main_v14 (broadcastInDim S1x512x4864 ![1, 2] bcast_S512x4864_S1x512x4864_1_2 : (⟨S512x4864, .f32⟩ : BufTy).Contents (Elt F) → (⟨S1x512x4864, .f32⟩ : BufTy).Contents (Elt F)),
    nary ![main_v12, main_v13, main_v14] main_v15 (fun u => concatenate S3x512x4864 0 [⟨S1x512x4864, u 0⟩, ⟨S1x512x4864, u 1⟩, ⟨S1x512x4864, u 2⟩] concatenates_S1x512x4864_S1x512x4864_S1x512x4864_S3x512x4864_d0),
    reshape main_v15 main_v16 rfl shapeCasts_S3x512x4864_S3x512x76x64,
    unary main_v16 main_v17 ((transpose S64x512x76x3 [3, 1, 2, 0] · transposes_S3x512x76x64_S64x512x76x3_3_1_2_0) : (⟨S3x512x76x64, .f32⟩ : BufTy).Contents (Elt F) → (⟨S64x512x76x3, .f32⟩ : BufTy).Contents (Elt F)),
    reshape main_v17 main_v18 rfl shapeCasts_S64x512x76x3_S32768x228,
    binary main_v18 main_arg3 main_v19 ((fun l r => Host.dotGeneral dot_S32768x228_S228x128_S32768x128_1_0_0_1_n_n none l r) : (⟨S32768x228, .f32⟩ : BufTy).Contents (Elt F) → (⟨S228x128, .f32⟩ : BufTy).Contents (Elt F) → (⟨S32768x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S32768x128 ![0, 1] bcast_S1x128_S32768x128_0_1 : (⟨S1x128, .f32⟩ : BufTy).Contents (Elt F) → (⟨S32768x128, .f32⟩ : BufTy).Contents (Elt F)),
    binary main_v19 main_v21 main_v22 (addf : (⟨S32768x128, .f32⟩ : BufTy).Contents (Elt F) → (⟨S32768x128, .f32⟩ : BufTy).Contents (Elt F) → (⟨S32768x128, .f32⟩ : BufTy).Contents (Elt F)),
    unary main_v22 main_v23 (Host.negf : (⟨S32768x128, .f32⟩ : BufTy).Contents (Elt F) → (⟨S32768x128, .f32⟩ : BufTy).Contents (Elt F)),
    unary main_v23 main_v24 (Host.exp : (⟨S32768x128, .f32⟩ : BufTy).Contents (Elt F) → (⟨S32768x128, .f32⟩ : BufTy).Contents (Elt F)),
    nullary main_cst_0 (constant S_ .f32 0x3F800000#32),
    unary main_cst_0 main_v25 (broadcastInDim S32768x128 ![] bcast_S_S32768x128 : (⟨S_, .f32⟩ : BufTy).Contents (Elt F) → (⟨S32768x128, .f32⟩ : BufTy).Contents (Elt F)),
    binary main_v25 main_v24 main_v26 (addf : (⟨S32768x128, .f32⟩ : BufTy).Contents (Elt F) → (⟨S32768x128, .f32⟩ : BufTy).Contents (Elt F) → (⟨S32768x128, .f32⟩ : BufTy).Contents (Elt F)),
    nullary main_cst_1 (constant S_ .f32 0x3F800000#32),
    unary main_cst_1 main_v27 (broadcastInDim S32768x128 ![] bcast_S_S32768x128 : (⟨S_, .f32⟩ : BufTy).Contents (Elt F) → (⟨S32768x128, .f32⟩ : BufTy).Contents (Elt F)),
    binary main_v27 main_v26 main_v28 (Host.divf : (⟨S32768x128, .f32⟩ : BufTy).Contents (Elt F) → (⟨S32768x128, .f32⟩ : BufTy).Contents (Elt F) → (⟨S32768x128, .f32⟩ : BufTy).Contents (Elt F)),
    reshape main_v28 main_v29 rfl shapeCasts_S32768x128_S64x512x128 ]

/-- Stretch 5: up to the operation that writes `main_v33`. -/
abbrev c05 : List (HloOp τ sig (Elt F)) :=
  [ unary main_v29 main_v30 ((extractStridedSlice S64x512x64 ![0, 0, 0] · slices_S64x512x128_S64x512x64_0_0_0) : (⟨S64x512x128, .f32⟩ : BufTy).Contents (Elt F) → (⟨S64x512x64, .f32⟩ : BufTy).Contents (Elt F)),
    reshape main_v30 main_v31 rfl shapeCasts_S64x512x64_S64x32768,
    unary main_v29 main_v32 ((extractStridedSlice S64x512x64 ![0, 0, 64] · slices_S64x512x128_S64x512x64_0_0_64) : (⟨S64x512x128, .f32⟩ : BufTy).Contents (Elt F) → (⟨S64x512x64, .f32⟩ : BufTy).Contents (Elt F)),
    reshape main_v32 main_v33 rfl shapeCasts_S64x512x64_S64x32768 ]

/-- Stretch 6: up to the operation that writes `main_v39`. -/
abbrev c06 : List (HloOp τ sig (Elt F)) :=
  [ binary main_v31 main_v1 main_v34 (mulf : (⟨S64x32768, .f32⟩ : BufTy).Contents (Elt F) → (⟨S64x32768, .f32⟩ : BufTy).Contents (Elt F) → (⟨S64x32768, .f32⟩ : BufTy).Contents (Elt F)),
    reshape main_arg0 main_v35 rfl shapeCasts_S64x6144_S64x512x12,
    reshape main_v34 main_v36 rfl shapeCasts_S64x32768_S64x512x64,
    binary main_v35 main_v36 main_v37 ((fun a b => concatenate S64x512x76 2 [⟨S64x512x12, a⟩, ⟨S64x512x64, b⟩] concatenates_S64x512x12_S64x512x64_S64x512x76_d2) : (⟨S64x512x12, .f32⟩ : BufTy).Contents (Elt F) → (⟨S64x512x64, .f32⟩ : BufTy).Contents (Elt F) → (⟨S64x512x76, .f32⟩ : BufTy).Contents (Elt F)),
    unary main_v37 main_v38 ((transpose S512x76x64 [1, 2, 0] · transposes_S64x512x76_S512x76x64_1_2_0) : (⟨S64x512x76, .f32⟩ : BufTy).Contents (Elt F) → (⟨S512x76x64, .f32⟩ : BufTy).Contents (Elt F)),
    reshape main_v38 main_v39 rfl shapeCasts_S512x76x64_S512x4864 ]

/-- Stretch 7: up to the operation that writes `main_v40`. -/
abbrev c07 : List (HloOp τ sig (Elt F)) :=
  [ binary main_arg2 main_v39 main_v40 ((fun l r => Host.dotGeneral dot_S512x512_S512x4864_S512x4864_1_0_0_1_n_n none l r) : (⟨S512x512, .f32⟩ : BufTy).Contents (Elt F) → (⟨S512x4864, .f32⟩ : BufTy).Contents (Elt F) → (⟨S512x4864, .f32⟩ : BufTy).Contents (Elt F)) ]

/-- Stretch 8: up to the operation that writes `main_v62`. -/
abbrev c08 : List (HloOp τ sig (Elt F)) :=
  [ binary main_arg2 main_v40 main_v41 ((fun l r => Host.dotGeneral dot_S512x512_S512x4864_S512x4864_1_0_0_1_n_n none l r) : (⟨S512x512, .f32⟩ : BufTy).Contents (Elt F) → (⟨S512x4864, .f32⟩ : BufTy).Contents (Elt F) → (⟨S512x4864, .f32⟩ : BufTy).Contents (Elt F)),
    nullary main_cst_2 (constant S_ .f32 0x40000000#32),
    unary main_cst_2 main_v42 (broadcastInDim S512x4864 ![] bcast_S_S512x4864 : (⟨S_, .f32⟩ : BufTy).Contents (Elt F) → (⟨S512x4864, .f32⟩ : BufTy).Contents (Elt F)),
    binary main_v42 main_v41 main_v43 (mulf : (⟨S512x4864, .f32⟩ : BufTy).Contents (Elt F) → (⟨S512x4864, .f32⟩ : BufTy).Contents (Elt F) → (⟨S512x4864, .f32⟩ : BufTy).Contents (Elt F)),
    binary main_v43 main_v39 main_v44 (subf : (⟨S512x4864, .f32⟩ : BufTy).Contents (Elt F) → (⟨S512x4864, .f32⟩ : BufTy).Contents (Elt F) → (⟨S512x4864, .f32⟩ : BufTy).Contents (Elt F)),
    unary main_v39 main_v45 (broadcastInDim S1x512x4864 ![1, 2] bcast_S512x4864_S1x512x4864_1_2 : (⟨S512x4864, .f32⟩ : BufTy).Contents (Elt F) → (⟨S1x512x4864, .f32⟩ : BufTy).Contents (Elt F)),
    unary main_v40 main_v46 (broadcastInDim S1x512x4864 ![1, 2] bcast_S512x4864_S1x512x4864_1_2 : (⟨S512x4864, .f32⟩ : BufTy).Contents (Elt F) → (⟨S1x512x4864, .f32⟩ : BufTy).Contents (Elt F)),
    unary main_v44 main_v47 (broadcastInDim S1x512x4864 ![1, 2] bcast_S512x4864_S1x512x4864_1_2 : (⟨S512x4864, .f32⟩ : BufTy).Contents (Elt F) → (⟨S1x512x4864, .f32⟩ : BufTy).Contents (Elt F)),
    nary ![main_v45, main_v46, main_v47] main_v48 (fun u => concatenate S3x512x4864 0 [⟨S1x512x4864, u 0⟩, ⟨S1x512x4864, u 1⟩, ⟨S1x512x4864, u 2⟩] concatenates_S1x512x4864_S1x512x4864_S1x512x4864_S3x512x4864_d0),
    reshape main_v48 main_v49 rfl shapeCasts_S3x512x4864_S3x512x76x64,
    unary main_v49 main_v50 ((transpose S64x512x76x3 [3, 1, 2, 0] · transposes_S3x512x76x64_S64x512x76x3_3_1_2_0) : (⟨S3x512x76x64, .f32⟩ : BufTy).Contents (Elt F) → (⟨S64x512x76x3, .f32⟩ : BufTy).Contents (Elt F)),
    reshape main_v50 main_v51 rfl shapeCasts_S64x512x76x3_S32768x228,
    binary main_v51 main_arg5 main_v52 ((fun l r => Host.dotGeneral dot_S32768x228_S228x64_S32768x64_1_0_0_1_n_n none l r) : (⟨S32768x228, .f32⟩ : BufTy).Contents (Elt F) → (⟨S228x64, .f32⟩ : BufTy).Contents (Elt F) → (⟨S32768x64, .f32⟩ : BufTy).Contents (Elt F)),
    unary main_arg6 main_v53 (broadcastInDim S1x64 ![1] bcast_S64_S1x64_1 : (⟨S64, .f32⟩ : BufTy).Contents (Elt F) → (⟨S1x64, .f32⟩ : BufTy).Contents (Elt F)),
    unary main_v53 main_v54 (broadcastInDim S32768x64 ![0, 1] bcast_S1x64_S32768x64_0_1 : (⟨S1x64, .f32⟩ : BufTy).Contents (Elt F) → (⟨S32768x64, .f32⟩ : BufTy).Contents (Elt F)),
    binary main_v52 main_v54 main_v55 (addf : (⟨S32768x64, .f32⟩ : BufTy).Contents (Elt F) → (⟨S32768x64, .f32⟩ : BufTy).Contents (Elt F) → (⟨S32768x64, .f32⟩ : BufTy).Contents (Elt F)),
    unary main_v55 main_v56 (Host.tanh : (⟨S32768x64, .f32⟩ : BufTy).Contents (Elt F) → (⟨S32768x64, .f32⟩ : BufTy).Contents (Elt F)),
    reshape main_v56 main_v57 rfl shapeCasts_S32768x64_S64x32768,
    binary main_v33 main_v1 main_v58 (mulf : (⟨S64x32768, .f32⟩ : BufTy).Contents (Elt F) → (⟨S64x32768, .f32⟩ : BufTy).Contents (Elt F) → (⟨S64x32768, .f32⟩ : BufTy).Contents (Elt F)),
    nullary main_cst_3 (constant S_ .f32 0x3F800000#32),
    unary main_cst_3 main_v59 (broadcastInDim S64x32768 ![] bcast_S_S64x32768 : (⟨S_, .f32⟩ : BufTy).Contents (Elt F) → (⟨S64x32768, .f32⟩ : BufTy).Contents (Elt F)),
    binary main_v59 main_v33 main_v60 (subf : (⟨S64x32768, .f32⟩ : BufTy).Contents (Elt F) → (⟨S64x32768, .f32⟩ : BufTy).Contents (Elt F) → (⟨S64x32768, .f32⟩ : BufTy).Contents (Elt F)),
    binary main_v60 main_v57 main_v61 (mulf : (⟨S64x32768, .f32⟩ : BufTy).Contents (Elt F) → (⟨S64x32768, .f32⟩ : BufTy).Contents (Elt F) → (⟨S64x32768, .f32⟩ : BufTy).Contents (Elt F)),
    binary main_v58 main_v61 main_v62 (addf : (⟨S64x32768, .f32⟩ : BufTy).Contents (Elt F) → (⟨S64x32768, .f32⟩ : BufTy).Contents (Elt F) → (⟨S64x32768, .f32⟩ : BufTy).Contents (Elt F)) ]

/-- Stretch 9: up to the operation that writes `main_v64`. -/
abbrev c09 : List (HloOp τ sig (Elt F)) :=
  [ unary main_arg1 main_v63 ((extractStridedSlice S1x64x32768 ![1, 0, 0] · slices_S2x64x32768_S1x64x32768_1_0_0) : (⟨S2x64x32768, .f32⟩ : BufTy).Contents (Elt F) → (⟨S1x64x32768, .f32⟩ : BufTy).Contents (Elt F)),
    reshape main_v63 main_v64 rfl shapeCasts_S1x64x32768_S64x32768 ]

/-- Stretch 10: up to the operation that writes `main_v69`. -/
abbrev c10 : List (HloOp τ sig (Elt F)) :=
  [ reshape main_v62 main_v65 rfl shapeCasts_S64x32768_S64x512x64,
    reshape main_v64 main_v66 rfl shapeCasts_S64x32768_S64x512x64,
    binary main_v65 main_v66 main_v67 ((fun a b => concatenate S64x512x128 2 [⟨S64x512x64, a⟩, ⟨S64x512x64, b⟩] concatenates_S64x512x64_S64x512x64_S64x512x128_d2) : (⟨S64x512x64, .f32⟩ : BufTy).Contents (Elt F) → (⟨S64x512x64, .f32⟩ : BufTy).Contents (Elt F) → (⟨S64x512x128, .f32⟩ : BufTy).Contents (Elt F)),
    unary main_v67 main_v68 ((transpose S512x128x64 [1, 2, 0] · transposes_S64x512x128_S512x128x64_1_2_0) : (⟨S64x512x128, .f32⟩ : BufTy).Contents (Elt F) → (⟨S512x128x64, .f32⟩ : BufTy).Contents (Elt F)),
    reshape main_v68 main_v69 rfl shapeCasts_S512x128x64_S512x8192 ]

/-- Stretch 11: up to the operation that writes `main_v70`. -/
abbrev c11 : List (HloOp τ sig (Elt F)) :=
  [ binary main_arg2 main_v69 main_v70 ((fun l r => Host.dotGeneral dot_S512x512_S512x8192_S512x8192_1_0_0_1_n_n none l r) : (⟨S512x512, .f32⟩ : BufTy).Contents (Elt F) → (⟨S512x8192, .f32⟩ : BufTy).Contents (Elt F) → (⟨S512x8192, .f32⟩ : BufTy).Contents (Elt F)) ]

/-- Stretch 12: up to the operation that writes `main_v92`. -/
abbrev c12 : List (HloOp τ sig (Elt F)) :=
  [ binary main_arg2 main_v70 main_v71 ((fun l r => Host.dotGeneral dot_S512x512_S512x8192_S512x8192_1_0_0_1_n_n none l r) : (⟨S512x512, .f32⟩ : BufTy).Contents (Elt F) → (⟨S512x8192, .f32⟩ : BufTy).Contents (Elt F) → (⟨S512x8192, .f32⟩ : BufTy).Contents (Elt F)),
    nullary main_cst_4 (constant S_ .f32 0x40000000#32),
    unary main_cst_4 main_v72 (broadcastInDim S512x8192 ![] bcast_S_S512x8192 : (⟨S_, .f32⟩ : BufTy).Contents (Elt F) → (⟨S512x8192, .f32⟩ : BufTy).Contents (Elt F)),
    binary main_v72 main_v71 main_v73 (mulf : (⟨S512x8192, .f32⟩ : BufTy).Contents (Elt F) → (⟨S512x8192, .f32⟩ : BufTy).Contents (Elt F) → (⟨S512x8192, .f32⟩ : BufTy).Contents (Elt F)),
    binary main_v73 main_v69 main_v74 (subf : (⟨S512x8192, .f32⟩ : BufTy).Contents (Elt F) → (⟨S512x8192, .f32⟩ : BufTy).Contents (Elt F) → (⟨S512x8192, .f32⟩ : BufTy).Contents (Elt F)),
    unary main_v69 main_v75 (broadcastInDim S1x512x8192 ![1, 2] bcast_S512x8192_S1x512x8192_1_2 : (⟨S512x8192, .f32⟩ : BufTy).Contents (Elt F) → (⟨S1x512x8192, .f32⟩ : BufTy).Contents (Elt F)),
    unary main_v70 main_v76 (broadcastInDim S1x512x8192 ![1, 2] bcast_S512x8192_S1x512x8192_1_2 : (⟨S512x8192, .f32⟩ : BufTy).Contents (Elt F) → (⟨S1x512x8192, .f32⟩ : BufTy).Contents (Elt F)),
    unary main_v74 main_v77 (broadcastInDim S1x512x8192 ![1, 2] bcast_S512x8192_S1x512x8192_1_2 : (⟨S512x8192, .f32⟩ : BufTy).Contents (Elt F) → (⟨S1x512x8192, .f32⟩ : BufTy).Contents (Elt F)),
    nary ![main_v75, main_v76, main_v77] main_v78 (fun u => concatenate S3x512x8192 0 [⟨S1x512x8192, u 0⟩, ⟨S1x512x8192, u 1⟩, ⟨S1x512x8192, u 2⟩] concatenates_S1x512x8192_S1x512x8192_S1x512x8192_S3x512x8192_d0),
    reshape main_v78 main_v79 rfl shapeCasts_S3x512x8192_S3x512x128x64,
    unary main_v79 main_v80 ((transpose S64x512x128x3 [3, 1, 2, 0] · transposes_S3x512x128x64_S64x512x128x3_3_1_2_0) : (⟨S3x512x128x64, .f32⟩ : BufTy).Contents (Elt F) → (⟨S64x512x128x3, .f32⟩ : BufTy).Contents (Elt F)),
    reshape main_v80 main_v81 rfl shapeCasts_S64x512x128x3_S32768x384,
    binary main_v81 main_arg7 main_v82 ((fun l r => Host.dotGeneral dot_S32768x384_S384x128_S32768x128_1_0_0_1_n_n none l r) : (⟨S32768x384, .f32⟩ : BufTy).Contents (Elt F) → (⟨S384x128, .f32⟩ : BufTy).Contents (Elt F) → (⟨S32768x128, .f32⟩ : BufTy).Contents (Elt F)),
    unary main_arg8 main_v83 (broadcastInDim S1x128 ![1] bcast_S128_S1x128_1 : (⟨S128, .f32⟩ : BufTy).Contents (Elt F) → (⟨S1x128, .f32⟩ : BufTy).Contents (Elt F)),
    unary main_v83 main_v84 (broadcastInDim S32768x128 ![0, 1] bcast_S1x128_S32768x128_0_1 : (⟨S1x128, .f32⟩ : BufTy).Contents (Elt F) → (⟨S32768x128, .f32⟩ : BufTy).Contents (Elt F)),
    binary main_v82 main_v84 main_v85 (addf : (⟨S32768x128, .f32⟩ : BufTy).Contents (Elt F) → (⟨S32768x128, .f32⟩ : BufTy).Contents (Elt F) → (⟨S32768x128, .f32⟩ : BufTy).Contents (Elt F)),
    unary main_v85 main_v86 (Host.negf : (⟨S32768x128, .f32⟩ : BufTy).Contents (Elt F) → (⟨S32768x128, .f32⟩ : BufTy).Contents (Elt F)),
    unary main_v86 main_v87 (Host.exp : (⟨S32768x128, .f32⟩ : BufTy).Contents (Elt F) → (⟨S32768x128, .f32⟩ : BufTy).Contents (Elt F)),
    nullary main_cst_5 (constant S_ .f32 0x3F800000#32),
    unary main_cst_5 main_v88 (broadcastInDim S32768x128 ![] bcast_S_S32768x128 : (⟨S_, .f32⟩ : BufTy).Contents (Elt F) → (⟨S32768x128, .f32⟩ : BufTy).Contents (Elt F)),
    binary main_v88 main_v87 main_v89 (addf : (⟨S32768x128, .f32⟩ : BufTy).Contents (Elt F) → (⟨S32768x128, .f32⟩ : BufTy).Contents (Elt F) → (⟨S32768x128, .f32⟩ : BufTy).Contents (Elt F)),
    nullary main_cst_6 (constant S_ .f32 0x3F800000#32),
    unary main_cst_6 main_v90 (broadcastInDim S32768x128 ![] bcast_S_S32768x128 : (⟨S_, .f32⟩ : BufTy).Contents (Elt F) → (⟨S32768x128, .f32⟩ : BufTy).Contents (Elt F)),
    binary main_v90 main_v89 main_v91 (Host.divf : (⟨S32768x128, .f32⟩ : BufTy).Contents (Elt F) → (⟨S32768x128, .f32⟩ : BufTy).Contents (Elt F) → (⟨S32768x128, .f32⟩ : BufTy).Contents (Elt F)),
    reshape main_v91 main_v92 rfl shapeCasts_S32768x128_S64x512x128 ]

/-- Stretch 13: up to the operation that writes `main_v96`. -/
abbrev c13 : List (HloOp τ sig (Elt F)) :=
  [ unary main_v92 main_v93 ((extractStridedSlice S64x512x64 ![0, 0, 0] · slices_S64x512x128_S64x512x64_0_0_0) : (⟨S64x512x128, .f32⟩ : BufTy).Contents (Elt F) → (⟨S64x512x64, .f32⟩ : BufTy).Contents (Elt F)),
    reshape main_v93 main_v94 rfl shapeCasts_S64x512x64_S64x32768,
    unary main_v92 main_v95 ((extractStridedSlice S64x512x64 ![0, 0, 64] · slices_S64x512x128_S64x512x64_0_0_64) : (⟨S64x512x128, .f32⟩ : BufTy).Contents (Elt F) → (⟨S64x512x64, .f32⟩ : BufTy).Contents (Elt F)),
    reshape main_v95 main_v96 rfl shapeCasts_S64x512x64_S64x32768 ]

/-- Stretch 14: up to the operation that writes `main_v102`. -/
abbrev c14 : List (HloOp τ sig (Elt F)) :=
  [ binary main_v94 main_v64 main_v97 (mulf : (⟨S64x32768, .f32⟩ : BufTy).Contents (Elt F) → (⟨S64x32768, .f32⟩ : BufTy).Contents (Elt F) → (⟨S64x32768, .f32⟩ : BufTy).Contents (Elt F)),
    reshape main_v62 main_v98 rfl shapeCasts_S64x32768_S64x512x64,
    reshape main_v97 main_v99 rfl shapeCasts_S64x32768_S64x512x64,
    binary main_v98 main_v99 main_v100 ((fun a b => concatenate S64x512x128 2 [⟨S64x512x64, a⟩, ⟨S64x512x64, b⟩] concatenates_S64x512x64_S64x512x64_S64x512x128_d2) : (⟨S64x512x64, .f32⟩ : BufTy).Contents (Elt F) → (⟨S64x512x64, .f32⟩ : BufTy).Contents (Elt F) → (⟨S64x512x128, .f32⟩ : BufTy).Contents (Elt F)),
    unary main_v100 main_v101 ((transpose S512x128x64 [1, 2, 0] · transposes_S64x512x128_S512x128x64_1_2_0) : (⟨S64x512x128, .f32⟩ : BufTy).Contents (Elt F) → (⟨S512x128x64, .f32⟩ : BufTy).Contents (Elt F)),
    reshape main_v101 main_v102 rfl shapeCasts_S512x128x64_S512x8192 ]

/-- Stretch 15: up to the operation that writes `main_v103`. -/
abbrev c15 : List (HloOp τ sig (Elt F)) :=
  [ binary main_arg2 main_v102 main_v103 ((fun l r => Host.dotGeneral dot_S512x512_S512x8192_S512x8192_1_0_0_1_n_n none l r) : (⟨S512x512, .f32⟩ : BufTy).Contents (Elt F) → (⟨S512x8192, .f32⟩ : BufTy).Contents (Elt F) → (⟨S512x8192, .f32⟩ : BufTy).Contents (Elt F)) ]

/-- Stretch 16: up to the operation that writes `main_v125`. -/
abbrev c16 : List (HloOp τ sig (Elt F)) :=
  [ binary main_arg2 main_v103 main_v104 ((fun l r => Host.dotGeneral dot_S512x512_S512x8192_S512x8192_1_0_0_1_n_n none l r) : (⟨S512x512, .f32⟩ : BufTy).Contents (Elt F) → (⟨S512x8192, .f32⟩ : BufTy).Contents (Elt F) → (⟨S512x8192, .f32⟩ : BufTy).Contents (Elt F)),
    nullary main_cst_7 (constant S_ .f32 0x40000000#32),
    unary main_cst_7 main_v105 (broadcastInDim S512x8192 ![] bcast_S_S512x8192 : (⟨S_, .f32⟩ : BufTy).Contents (Elt F) → (⟨S512x8192, .f32⟩ : BufTy).Contents (Elt F)),
    binary main_v105 main_v104 main_v106 (mulf : (⟨S512x8192, .f32⟩ : BufTy).Contents (Elt F) → (⟨S512x8192, .f32⟩ : BufTy).Contents (Elt F) → (⟨S512x8192, .f32⟩ : BufTy).Contents (Elt F)),
    binary main_v106 main_v102 main_v107 (subf : (⟨S512x8192, .f32⟩ : BufTy).Contents (Elt F) → (⟨S512x8192, .f32⟩ : BufTy).Contents (Elt F) → (⟨S512x8192, .f32⟩ : BufTy).Contents (Elt F)),
    unary main_v102 main_v108 (broadcastInDim S1x512x8192 ![1, 2] bcast_S512x8192_S1x512x8192_1_2 : (⟨S512x8192, .f32⟩ : BufTy).Contents (Elt F) → (⟨S1x512x8192, .f32⟩ : BufTy).Contents (Elt F)),
    unary main_v103 main_v109 (broadcastInDim S1x512x8192 ![1, 2] bcast_S512x8192_S1x512x8192_1_2 : (⟨S512x8192, .f32⟩ : BufTy).Contents (Elt F) → (⟨S1x512x8192, .f32⟩ : BufTy).Contents (Elt F)),
    unary main_v107 main_v110 (broadcastInDim S1x512x8192 ![1, 2] bcast_S512x8192_S1x512x8192_1_2 : (⟨S512x8192, .f32⟩ : BufTy).Contents (Elt F) → (⟨S1x512x8192, .f32⟩ : BufTy).Contents (Elt F)),
    nary ![main_v108, main_v109, main_v110] main_v111 (fun u => concatenate S3x512x8192 0 [⟨S1x512x8192, u 0⟩, ⟨S1x512x8192, u 1⟩, ⟨S1x512x8192, u 2⟩] concatenates_S1x512x8192_S1x512x8192_S1x512x8192_S3x512x8192_d0),
    reshape main_v111 main_v112 rfl shapeCasts_S3x512x8192_S3x512x128x64,
    unary main_v112 main_v113 ((transpose S64x512x128x3 [3, 1, 2, 0] · transposes_S3x512x128x64_S64x512x128x3_3_1_2_0) : (⟨S3x512x128x64, .f32⟩ : BufTy).Contents (Elt F) → (⟨S64x512x128x3, .f32⟩ : BufTy).Contents (Elt F)),
    reshape main_v113 main_v114 rfl shapeCasts_S64x512x128x3_S32768x384,
    binary main_v114 main_arg9 main_v115 ((fun l r => Host.dotGeneral dot_S32768x384_S384x64_S32768x64_1_0_0_1_n_n none l r) : (⟨S32768x384, .f32⟩ : BufTy).Contents (Elt F) → (⟨S384x64, .f32⟩ : BufTy).Contents (Elt F) → (⟨S32768x64, .f32⟩ : BufTy).Contents (Elt F)),
    unary main_arg10 main_v116 (broadcastInDim S1x64 ![1] bcast_S64_S1x64_1 : (⟨S64, .f32⟩ : BufTy).Contents (Elt F) → (⟨S1x64, .f32⟩ : BufTy).Contents (Elt F)),
    unary main_v116 main_v117 (broadcastInDim S32768x64 ![0, 1] bcast_S1x64_S32768x64_0_1 : (⟨S1x64, .f32⟩ : BufTy).Contents (Elt F) → (⟨S32768x64, .f32⟩ : BufTy).Contents (Elt F)),
    binary main_v115 main_v117 main_v118 (addf : (⟨S32768x64, .f32⟩ : BufTy).Contents (Elt F) → (⟨S32768x64, .f32⟩ : BufTy).Contents (Elt F) → (⟨S32768x64, .f32⟩ : BufTy).Contents (Elt F)),
    unary main_v118 main_v119 (Host.tanh : (⟨S32768x64, .f32⟩ : BufTy).Contents (Elt F) → (⟨S32768x64, .f32⟩ : BufTy).Contents (Elt F)),
    reshape main_v119 main_v120 rfl shapeCasts_S32768x64_S64x32768,
    binary main_v96 main_v64 main_v121 (mulf : (⟨S64x32768, .f32⟩ : BufTy).Contents (Elt F) → (⟨S64x32768, .f32⟩ : BufTy).Contents (Elt F) → (⟨S64x32768, .f32⟩ : BufTy).Contents (Elt F)),
    nullary main_cst_8 (constant S_ .f32 0x3F800000#32),
    unary main_cst_8 main_v122 (broadcastInDim S64x32768 ![] bcast_S_S64x32768 : (⟨S_, .f32⟩ : BufTy).Contents (Elt F) → (⟨S64x32768, .f32⟩ : BufTy).Contents (Elt F)),
    binary main_v122 main_v96 main_v123 (subf : (⟨S64x32768, .f32⟩ : BufTy).Contents (Elt F) → (⟨S64x32768, .f32⟩ : BufTy).Contents (Elt F) → (⟨S64x32768, .f32⟩ : BufTy).Contents (Elt F)),
    binary main_v123 main_v120 main_v124 (mulf : (⟨S64x32768, .f32⟩ : BufTy).Contents (Elt F) → (⟨S64x32768, .f32⟩ : BufTy).Contents (Elt F) → (⟨S64x32768, .f32⟩ : BufTy).Contents (Elt F)),
    binary main_v121 main_v124 main_v125 (addf : (⟨S64x32768, .f32⟩ : BufTy).Contents (Elt F) → (⟨S64x32768, .f32⟩ : BufTy).Contents (Elt F) → (⟨S64x32768, .f32⟩ : BufTy).Contents (Elt F)) ]

/-- Stretch 17: up to the operation that writes `main_v128`. -/
abbrev c17 : List (HloOp τ sig (Elt F)) :=
  [ unary main_v62 main_v126 (broadcastInDim S1x64x32768 ![1, 2] bcast_S64x32768_S1x64x32768_1_2 : (⟨S64x32768, .f32⟩ : BufTy).Contents (Elt F) → (⟨S1x64x32768, .f32⟩ : BufTy).Contents (Elt F)),
    unary main_v125 main_v127 (broadcastInDim S1x64x32768 ![1, 2] bcast_S64x32768_S1x64x32768_1_2 : (⟨S64x32768, .f32⟩ : BufTy).Contents (Elt F) → (⟨S1x64x32768, .f32⟩ : BufTy).Contents (Elt F)),
    binary main_v126 main_v127 main_v128 ((fun a b => concatenate S2x64x32768 0 [⟨S1x64x32768, a⟩, ⟨S1x64x32768, b⟩] concatenates_S1x64x32768_S1x64x32768_S2x64x32768_d0) : (⟨S1x64x32768, .f32⟩ : BufTy).Contents (Elt F) → (⟨S1x64x32768, .f32⟩ : BufTy).Contents (Elt F) → (⟨S2x64x32768, .f32⟩ : BufTy).Contents (Elt F)) ]

theorem ops_eq : (ops : List (HloOp τ sig (Elt F))) = c01 ++ (c02 ++ (c03 ++ (c04 ++ (c05 ++ (c06 ++ (c07 ++ (c08 ++ (c09 ++ (c10 ++ (c11 ++ (c12 ++ (c13 ++ (c14 ++ (c15 ++ (c16 ++ (c17)))))))))))))))) := rfl

/-- What the valuation after stretch 0 holds at the buffers read later: the arguments as launched, each named intermediate at its term. -/
def I00 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)

/-- What the valuation after stretch 1 holds at the buffers read later: the arguments as launched, each named intermediate at its term. -/
def I01 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v1) = res_main_v1 V

/-- What the valuation after stretch 2 holds at the buffers read later: the arguments as launched, each named intermediate at its term. -/
def I02 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v1) = res_main_v1 V
  ∧ W (Proc.devRef .tc main_v6) = res_main_v6 V

/-- What the valuation after stretch 3 holds at the buffers read later: the arguments as launched, each named intermediate at its term. -/
def I03 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg3) = V (Proc.devRef .tc main_arg3)
  ∧ W (Proc.devRef .tc main_arg4) = V (Proc.devRef .tc main_arg4)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v1) = res_main_v1 V
  ∧ W (Proc.devRef .tc main_v6) = res_main_v6 V
  ∧ W (Proc.devRef .tc main_v7) = res_main_v7 V

/-- What the valuation after stretch 4 holds at the buffers read later: the arguments as launched, each named intermediate at its term. -/
def I04 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v1) = res_main_v1 V
  ∧ W (Proc.devRef .tc main_v29) = res_main_v29 V

/-- What the valuation after stretch 5 holds at the buffers read later: the arguments as launched, each named intermediate at its term. -/
def I05 (V W : Valuation τ sig (Elt F)) : Prop :=
  W (Proc.devRef .tc main_arg0) = V (Proc.devRef .tc main_arg0)
  ∧ W (Proc.devRef .tc main_arg1) = V (Proc.devRef .tc main_arg1)
  ∧ W (Proc.devRef .tc main_arg2) = V (Proc.devRef .tc main_arg2)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v1) = res_main_v1 V
  ∧ W (Proc.devRef .tc main_v33) = res_main_v33 V
  ∧ W (Proc.devRef .tc main_v31) = shapeCast _ (extractStridedSlice S64x512x64 ![0, 0, 0] (res_main_v29 V) slices_S64x512x128_S64x512x64_0_0_0) shapeCasts_S64x512x64_S64x32768

/-- What the valuation after stretch 6 holds at the buffers read later: the arguments as launched, each named intermediate at its term. -/
def I06 (V W : Valuation τ sig (Elt F)) : Prop :=
  W (Proc.devRef .tc main_arg1) = V (Proc.devRef .tc main_arg1)
  ∧ W (Proc.devRef .tc main_arg2) = V (Proc.devRef .tc main_arg2)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v1) = res_main_v1 V
  ∧ W (Proc.devRef .tc main_v33) = res_main_v33 V
  ∧ W (Proc.devRef .tc main_v39) = res_main_v39 V

/-- What the valuation after stretch 7 holds at the buffers read later: the arguments as launched, each named intermediate at its term. -/
def I07 (V W : Valuation τ sig (Elt F)) : Prop :=
  W (Proc.devRef .tc main_arg1) = V (Proc.devRef .tc main_arg1)
  ∧ W (Proc.devRef .tc main_arg2) = V (Proc.devRef .tc main_arg2)
  ∧ W (Proc.devRef .tc main_arg5) = V (Proc.devRef .tc main_arg5)
  ∧ W (Proc.devRef .tc main_arg6) = V (Proc.devRef .tc main_arg6)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v1) = res_main_v1 V
  ∧ W (Proc.devRef .tc main_v33) = res_main_v33 V
  ∧ W (Proc.devRef .tc main_v39) = res_main_v39 V
  ∧ W (Proc.devRef .tc main_v40) = res_main_v40 V

/-- What the valuation after stretch 8 holds at the buffers read later: the arguments as launched, each named intermediate at its term. -/
def I08 (V W : Valuation τ sig (Elt F)) : Prop :=
  W (Proc.devRef .tc main_arg1) = V (Proc.devRef .tc main_arg1)
  ∧ W (Proc.devRef .tc main_arg2) = V (Proc.devRef .tc main_arg2)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v62) = res_main_v62 V

/-- What the valuation after stretch 9 holds at the buffers read later: the arguments as launched, each named intermediate at its term. -/
def I09 (V W : Valuation τ sig (Elt F)) : Prop :=
  W (Proc.devRef .tc main_arg2) = V (Proc.devRef .tc main_arg2)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v62) = res_main_v62 V
  ∧ W (Proc.devRef .tc main_v64) = res_main_v64 V

/-- What the valuation after stretch 10 holds at the buffers read later: the arguments as launched, each named intermediate at its term. -/
def I10 (V W : Valuation τ sig (Elt F)) : Prop :=
  W (Proc.devRef .tc main_arg2) = V (Proc.devRef .tc main_arg2)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v62) = res_main_v62 V
  ∧ W (Proc.devRef .tc main_v64) = res_main_v64 V
  ∧ W (Proc.devRef .tc main_v69) = res_main_v69 V

/-- What the valuation after stretch 11 holds at the buffers read later: the arguments as launched, each named intermediate at its term. -/
def I11 (V W : Valuation τ sig (Elt F)) : Prop :=
  W (Proc.devRef .tc main_arg2) = V (Proc.devRef .tc main_arg2)
  ∧ W (Proc.devRef .tc main_arg7) = V (Proc.devRef .tc main_arg7)
  ∧ W (Proc.devRef .tc main_arg8) = V (Proc.devRef .tc main_arg8)
  ∧ W (Proc.devRef .tc main_arg9) = V (Proc.devRef .tc main_arg9)
  ∧ W (Proc.devRef .tc main_arg10) = V (Proc.devRef .tc main_arg10)
  ∧ W (Proc.devRef .tc main_v62) = res_main_v62 V
  ∧ W (Proc.devRef .tc main_v64) = res_main_v64 V
  ∧ W (Proc.devRef .tc main_v69) = res_main_v69 V
  ∧ W (Proc.devRef .tc main_v70) = res_main_v70 V

/-- What the valuation after stretch 12 holds at the buffers read later: the arguments as launched, each named intermediate at its term. -/
def I12 (V W : Valuation τ sig (Elt F)) : Prop :=
  W (Proc.devRef .tc main_arg2) = V (Proc.devRef .tc main_arg2)
  ∧ W (Proc.devRef .tc main_arg9) = V (Proc.devRef .tc main_arg9)
  ∧ W (Proc.devRef .tc main_arg10) = V (Proc.devRef .tc main_arg10)
  ∧ W (Proc.devRef .tc main_v62) = res_main_v62 V
  ∧ W (Proc.devRef .tc main_v64) = res_main_v64 V
  ∧ W (Proc.devRef .tc main_v92) = res_main_v92 V

/-- What the valuation after stretch 13 holds at the buffers read later: the arguments as launched, each named intermediate at its term. -/
def I13 (V W : Valuation τ sig (Elt F)) : Prop :=
  W (Proc.devRef .tc main_arg2) = V (Proc.devRef .tc main_arg2)
  ∧ W (Proc.devRef .tc main_arg9) = V (Proc.devRef .tc main_arg9)
  ∧ W (Proc.devRef .tc main_arg10) = V (Proc.devRef .tc main_arg10)
  ∧ W (Proc.devRef .tc main_v62) = res_main_v62 V
  ∧ W (Proc.devRef .tc main_v64) = res_main_v64 V
  ∧ W (Proc.devRef .tc main_v96) = res_main_v96 V
  ∧ W (Proc.devRef .tc main_v94) = shapeCast _ (extractStridedSlice S64x512x64 ![0, 0, 0] (res_main_v92 V) slices_S64x512x128_S64x512x64_0_0_0) shapeCasts_S64x512x64_S64x32768

/-- What the valuation after stretch 14 holds at the buffers read later: the arguments as launched, each named intermediate at its term. -/
def I14 (V W : Valuation τ sig (Elt F)) : Prop :=
  W (Proc.devRef .tc main_arg2) = V (Proc.devRef .tc main_arg2)
  ∧ W (Proc.devRef .tc main_arg9) = V (Proc.devRef .tc main_arg9)
  ∧ W (Proc.devRef .tc main_arg10) = V (Proc.devRef .tc main_arg10)
  ∧ W (Proc.devRef .tc main_v62) = res_main_v62 V
  ∧ W (Proc.devRef .tc main_v64) = res_main_v64 V
  ∧ W (Proc.devRef .tc main_v96) = res_main_v96 V
  ∧ W (Proc.devRef .tc main_v102) = res_main_v102 V

/-- What the valuation after stretch 15 holds at the buffers read later: the arguments as launched, each named intermediate at its term. -/
def I15 (V W : Valuation τ sig (Elt F)) : Prop :=
  W (Proc.devRef .tc main_arg2) = V (Proc.devRef .tc main_arg2)
  ∧ W (Proc.devRef .tc main_arg9) = V (Proc.devRef .tc main_arg9)
  ∧ W (Proc.devRef .tc main_arg10) = V (Proc.devRef .tc main_arg10)
  ∧ W (Proc.devRef .tc main_v62) = res_main_v62 V
  ∧ W (Proc.devRef .tc main_v64) = res_main_v64 V
  ∧ W (Proc.devRef .tc main_v96) = res_main_v96 V
  ∧ W (Proc.devRef .tc main_v102) = res_main_v102 V
  ∧ W (Proc.devRef .tc main_v103) = res_main_v103 V

/-- What the valuation after stretch 16 holds at the buffers read later: the arguments as launched, each named intermediate at its term. -/
def I16 (V W : Valuation τ sig (Elt F)) : Prop :=
  W (Proc.devRef .tc main_v62) = res_main_v62 V
  ∧ W (Proc.devRef .tc main_v125) = term_v125 V

/-- What the valuation after stretch 17 holds at the buffers read later: the arguments as launched, each named intermediate at its term. -/
def I17 (V W : Valuation τ sig (Elt F)) : Prop :=
  W (Proc.devRef .tc main_v125) = term_v125 V
  ∧ W (Proc.devRef .tc main_v128) = term_v128 V

end Cert.ReferenceIdeal.Value

end
-- ==== Proof.LibNary3.lean ====
/-
  A host operation over a LITERAL family of three references (a concatenation of three operands): its result, with each
  operand's contents read at its own reference.

  The general result of an operation over a family xs of references is  f (fun k => F (xs k)) : under the binder the
  reference  ![a, b, c] k  is not a literal, so nothing further can be said about the contents there. For a literal
  family the function  fun k => F (![a, b, c] k)  is the tuple of the three contents, Fin.cons (F a) (Fin.cons (F b)
  (Fin.cons (F c) nil)); with the result in that form the contents of a, b and c can be read in turn. The library states
  this for four references; this file states it for three, in the same shape, and gives the two ways of reading a
  buffer after a list of operations (rewriting outermost first, or one simplification pass) with the three-reference
  form ahead of the general one.
-/
import Idealize.ShloMosaic.Lib.StableHlo.Run

noncomputable section

namespace Idealize.ShloMosaic.StableHlo

variable {nD : Nat} {τ : Topo} {sig : RefSig} {Val : EltTy → Type}
variable {x a b y : Ref sig .tc}

/-- The result of an operation over the literal family ![x, a, b], at its result buffer: its function of the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, for the simplifier (the buffer argument outside the discrimination tree's keys). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

namespace Idealize.ShloMosaic

/-- Reads a buffer after a literal list of operations, rewriting each operation's result outermost first; a
    three-reference operation is read operand by operand. -/
macro "after_results3" : tactic =>
  `(tactic| (simp only [StableHlo.after_cons, StableHlo.after_nil]
             repeat (first
               | rw [StableHlo.nullary_result] | rw [StableHlo.unary_result] | rw [StableHlo.binary_result] | rw [StableHlo.ternary_result] | rw [StableHlo.quaternary_result]
               | rw [StableHlo.reshape_result] | rw [StableHlo.binaryIndexed_result] | rw [StableHlo.nary4_result] | rw [StableHlo.nary3_result] | rw [StableHlo.nary_result] | rw [StableHlo.unaryIndexed_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide)
               | (rw [StableHlo.binaryIndexed_result_ne]; rotate_left; decide)
               | (rw [StableHlo.nary_result_ne]; rotate_left; decide)
               | (rw [StableHlo.unaryIndexed_result_ne]; rotate_left; decide))))

/-- The same reading as one simplification pass, for long lists. -/
macro "after_results3_simp" : tactic =>
  `(tactic| (simp (disch := decide) only [StableHlo.after_cons, StableHlo.after_nil,
      StableHlo.nullary_result', StableHlo.unary_result', StableHlo.binary_result', StableHlo.ternary_result', StableHlo.quaternary_result', StableHlo.reshape_result',
      StableHlo.nary4_result', StableHlo.nary3_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']))

end Idealize.ShloMosaic

end
-- ==== Proof.RunSteps1.lean ====
/- The first six stretches of the reference's operation list, each carried from one cut to the next: if the buffers
  before a stretch hold, at every buffer still to be read, that buffer's term of the launch contents (the argument as
  launched, or a named intermediate's term), then so do the buffers after it.

  A buffer the stretch does not write is read through the stretch unchanged. The one buffer it writes that is read
  later is, operation by operation, a small term over the buffers the stretch reads (inside a stretch every value is
  used once); with those replaced by their terms it is the named intermediate's term by definition.
-/
import proofs.«127843_g48979807044056_cont_8to1c4_176_1_alg».proof.Proof.RunInv
import proofs.«127843_g48979807044056_cont_8to1c4_176_1_alg».proof.Proof.LibNary3

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Stretch 1, the operations up to the one that writes `main_v1`: the cut before it to the cut after it. -/
theorem step01 (V W : Valuation τ sig (Elt F)) (h : I00 V W) : I01 V (after c01 W) := by
  unfold I00 at h
  obtain ⟨h_main_arg0, h_main_arg1, h_main_arg2, h_main_arg3, h_main_arg4, h_main_arg5, h_main_arg6, h_main_arg7, h_main_arg8, h_main_arg9, h_main_arg10⟩ := h
  unfold I01
  refine ⟨?_, ?_, ?_, ?_, ?_, ?_, ?_, ?_, ?_, ?_, ?_, ?_⟩
  · after_results3_simp
    exact h_main_arg0
  · after_results3_simp
    exact h_main_arg1
  · after_results3_simp
    exact h_main_arg2
  · after_results3_simp
    exact h_main_arg3
  · after_results3_simp
    exact h_main_arg4
  · after_results3_simp
    exact h_main_arg5
  · after_results3_simp
    exact h_main_arg6
  · after_results3_simp
    exact h_main_arg7
  · after_results3_simp
    exact h_main_arg8
  · after_results3_simp
    exact h_main_arg9
  · after_results3_simp
    exact h_main_arg10
  · after_results3
    rw [h_main_arg1] <;> rfl

/-- Stretch 2, the operations up to the one that writes `main_v6`: the cut before it to the cut after it. -/
theorem step02 (V W : Valuation τ sig (Elt F)) (h : I01 V W) : I02 V (after c02 W) := by
  unfold I01 at h
  obtain ⟨h_main_arg0, h_main_arg1, h_main_arg2, h_main_arg3, h_main_arg4, h_main_arg5, h_main_arg6, h_main_arg7, h_main_arg8, h_main_arg9, h_main_arg10, h_main_v1⟩ := h
  unfold I02
  refine ⟨?_, ?_, ?_, ?_, ?_, ?_, ?_, ?_, ?_, ?_, ?_, ?_, ?_⟩
  · after_results3_simp
    exact h_main_arg0
  · after_results3_simp
    exact h_main_arg1
  · after_results3_simp
    exact h_main_arg2
  · after_results3_simp
    exact h_main_arg3
  · after_results3_simp
    exact h_main_arg4
  · after_results3_simp
    exact h_main_arg5
  · after_results3_simp
    exact h_main_arg6
  · after_results3_simp
    exact h_main_arg7
  · after_results3_simp
    exact h_main_arg8
  · after_results3_simp
    exact h_main_arg9
  · after_results3_simp
    exact h_main_arg10
  · after_results3_simp
    exact h_main_v1
  · after_results3
    rw [h_main_arg0, h_main_v1] <;> rfl

/-- Stretch 3, the operations up to the one that writes `main_v7`: the cut before it to the cut after it. -/
theorem step03 (V W : Valuation τ sig (Elt F)) (h : I02 V W) : I03 V (after c03 W) := by
  unfold I02 at h
  obtain ⟨h_main_arg0, h_main_arg1, h_main_arg2, h_main_arg3, h_main_arg4, h_main_arg5, h_main_arg6, h_main_arg7, h_main_arg8, h_main_arg9, h_main_arg10, h_main_v1, h_main_v6⟩ := h
  unfold I03
  refine ⟨?_, ?_, ?_, ?_, ?_, ?_, ?_, ?_, ?_, ?_, ?_, ?_, ?_, ?_⟩
  · after_results3_simp
    exact h_main_arg0
  · after_results3_simp
    exact h_main_arg1
  · after_results3_simp
    exact h_main_arg2
  · after_results3_simp
    exact h_main_arg3
  · after_results3_simp
    exact h_main_arg4
  · after_results3_simp
    exact h_main_arg5
  · after_results3_simp
    exact h_main_arg6
  · after_results3_simp
    exact h_main_arg7
  · after_results3_simp
    exact h_main_arg8
  · after_results3_simp
    exact h_main_arg9
  · after_results3_simp
    exact h_main_arg10
  · after_results3_simp
    exact h_main_v1
  · after_results3_simp
    exact h_main_v6
  · after_results3
    rw [h_main_arg2, h_main_v6] <;> rfl

set_option maxHeartbeats 4000000 in
/-- Stretch 4, the operations up to the one that writes `main_v29`: the cut before it to the cut after it. -/
theorem step04 (V W : Valuation τ sig (Elt F)) (h : I03 V W) : I04 V (after c04 W) := by
  unfold I03 at h
  obtain ⟨h_main_arg0, h_main_arg1, h_main_arg2, h_main_arg3, h_main_arg4, h_main_arg5, h_main_arg6, h_main_arg7, h_main_arg8, h_main_arg9, h_main_arg10, h_main_v1, h_main_v6, h_main_v7⟩ := h
  unfold I04
  refine ⟨?_, ?_, ?_, ?_, ?_, ?_, ?_, ?_, ?_, ?_, ?_⟩
  · after_results3_simp
    exact h_main_arg0
  · after_results3_simp
    exact h_main_arg1
  · after_results3_simp
    exact h_main_arg2
  · after_results3_simp
    exact h_main_arg5
  · after_results3_simp
    exact h_main_arg6
  · after_results3_simp
    exact h_main_arg7
  · after_results3_simp
    exact h_main_arg8
  · after_results3_simp
    exact h_main_arg9
  · after_results3_simp
    exact h_main_arg10
  · after_results3_simp
    exact h_main_v1
  · after_results3
    rw [h_main_v6, h_main_v7, h_main_arg2, h_main_arg3, h_main_arg4] <;> rfl

/-- Stretch 5, the operations up to the one that writes `main_v33`: the cut before it to the cut after it. -/
theorem step05 (V W : Valuation τ sig (Elt F)) (h : I04 V W) : I05 V (after c05 W) := by
  unfold I04 at h
  obtain ⟨h_main_arg0, h_main_arg1, h_main_arg2, h_main_arg5, h_main_arg6, h_main_arg7, h_main_arg8, h_main_arg9, h_main_arg10, h_main_v1, h_main_v29⟩ := h
  unfold I05
  refine ⟨?_, ?_, ?_, ?_, ?_, ?_, ?_, ?_, ?_, ?_, ?_, ?_⟩
  · after_results3_simp
    exact h_main_arg0
  · after_results3_simp
    exact h_main_arg1
  · after_results3_simp
    exact h_main_arg2
  · after_results3_simp
    exact h_main_arg5
  · after_results3_simp
    exact h_main_arg6
  · after_results3_simp
    exact h_main_arg7
  · after_results3_simp
    exact h_main_arg8
  · after_results3_simp
    exact h_main_arg9
  · after_results3_simp
    exact h_main_arg10
  · after_results3_simp
    exact h_main_v1
  · after_results3
    rw [h_main_v29] <;> rfl
  · after_results3
    rw [h_main_v29] <;> rfl

/-- Stretch 6, the operations up to the one that writes `main_v39`: the cut before it to the cut after it. -/
theorem step06 (V W : Valuation τ sig (Elt F)) (h : I05 V W) : I06 V (after c06 W) := by
  unfold I05 at h
  obtain ⟨h_main_arg0, h_main_arg1, h_main_arg2, h_main_arg5, h_main_arg6, h_main_arg7, h_main_arg8, h_main_arg9, h_main_arg10, h_main_v1, h_main_v33, h_main_v31⟩ := h
  unfold I06
  refine ⟨?_, ?_, ?_, ?_, ?_, ?_, ?_, ?_, ?_, ?_, ?_⟩
  · after_results3_simp
    exact h_main_arg1
  · after_results3_simp
    exact h_main_arg2
  · after_results3_simp
    exact h_main_arg5
  · after_results3_simp
    exact h_main_arg6
  · after_results3_simp
    exact h_main_arg7
  · after_results3_simp
    exact h_main_arg8
  · after_results3_simp
    exact h_main_arg9
  · after_results3_simp
    exact h_main_arg10
  · after_results3_simp
    exact h_main_v1
  · after_results3_simp
    exact h_main_v33
  · after_results3
    rw [h_main_arg0, h_main_v31, h_main_v1] <;> rfl

end Cert.ReferenceIdeal.Value

end
-- ==== Proof.RunSteps2.lean ====
/-
  The reference's run, stretches 7 to 12: what the buffers hold after each stretch, given what they held before it.

  A stretch is a short list of operations in which every value is used once.  Reading a buffer after the stretch goes
  back through the operations: a buffer the stretch does not write holds what it held; the one named buffer it writes
  holds the stretch's operations composed over the buffers the stretch reads, and with those at their terms of the
  argument arrays the composition is the written buffer's own term.
-/
import proofs.«127843_g48979807044056_cont_8to1c4_176_1_alg».proof.Proof.RunInv
import proofs.«127843_g48979807044056_cont_8to1c4_176_1_alg».proof.Proof.LibNary3

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Stretch 7 writes `main_v40`: the support matrix times the candidate panel. The other buffers read later are untouched. -/
theorem step07 (V W : Valuation τ sig (Elt F)) (h : I06 V W) : I07 V (after c07 W) := by
  unfold I06 at h
  obtain ⟨h_arg1, h_arg2, h_arg5, h_arg6, h_arg7, h_arg8, h_arg9, h_arg10, h_v1, h_v33, h_v39⟩ := h
  unfold I07
  refine ⟨?_, ?_, ?_, ?_, ?_, ?_, ?_, ?_, ?_, ?_, ?_, ?_⟩
  · after_results3_simp
    exact h_arg1
  · after_results3_simp
    exact h_arg2
  · after_results3_simp
    exact h_arg5
  · after_results3_simp
    exact h_arg6
  · after_results3_simp
    exact h_arg7
  · after_results3_simp
    exact h_arg8
  · after_results3_simp
    exact h_arg9
  · after_results3_simp
    exact h_arg10
  · after_results3_simp
    exact h_v1
  · after_results3_simp
    exact h_v33
  · after_results3_simp
    exact h_v39
  · have e : after c07 W (Proc.devRef .tc main_v40)
        = Host.dotGeneral dot_S512x512_S512x4864_S512x4864_1_0_0_1_n_n none (W (Proc.devRef .tc main_arg2)) (W (Proc.devRef .tc main_v39)) := by
      after_results3_simp <;> rfl
    rw [e, h_arg2, h_v39]
    rfl

/-- Stretch 8 writes `main_v62`: the second Chebyshev term of the candidate panel, the three terms stacked and projected,
    the candidate, and the first layer's new state. The other buffers read later are untouched. -/
theorem step08 (V W : Valuation τ sig (Elt F)) (h : I07 V W) : I08 V (after c08 W) := by
  unfold I07 at h
  obtain ⟨h_arg1, h_arg2, h_arg5, h_arg6, h_arg7, h_arg8, h_arg9, h_arg10, h_v1, h_v33, h_v39, h_v40⟩ := h
  unfold I08
  refine ⟨?_, ?_, ?_, ?_, ?_, ?_, ?_⟩
  · after_results3_simp
    exact h_arg1
  · after_results3_simp
    exact h_arg2
  · after_results3_simp
    exact h_arg7
  · after_results3_simp
    exact h_arg8
  · after_results3_simp
    exact h_arg9
  · after_results3_simp
    exact h_arg10
  · have e : after c08 W (Proc.devRef .tc main_v62)
        = addf (mulf (W (Proc.devRef .tc main_v33)) (W (Proc.devRef .tc main_v1))) (mulf (subf (broadcastInDim S64x32768 ![] bcast_S_S64x32768 (constant S_ .f32 0x3F800000#32)) (W (Proc.devRef .tc main_v33))) (shapeCast _ (Host.tanh (addf (Host.dotGeneral dot_S32768x228_S228x64_S32768x64_1_0_0_1_n_n none (shapeCast _ (transpose S64x512x76x3 [3, 1, 2, 0] (shapeCast _ (concatenate S3x512x4864 0 [⟨S1x512x4864, (broadcastInDim S1x512x4864 ![1, 2] bcast_S512x4864_S1x512x4864_1_2 (W (Proc.devRef .tc main_v39)))⟩, ⟨S1x512x4864, (broadcastInDim S1x512x4864 ![1, 2] bcast_S512x4864_S1x512x4864_1_2 (W (Proc.devRef .tc main_v40)))⟩, ⟨S1x512x4864, (broadcastInDim S1x512x4864 ![1, 2] bcast_S512x4864_S1x512x4864_1_2 (subf (mulf (broadcastInDim S512x4864 ![] bcast_S_S512x4864 (constant S_ .f32 0x40000000#32)) (Host.dotGeneral dot_S512x512_S512x4864_S512x4864_1_0_0_1_n_n none (W (Proc.devRef .tc main_arg2)) (W (Proc.devRef .tc main_v40)))) (W (Proc.devRef .tc main_v39))))⟩] concatenates_S1x512x4864_S1x512x4864_S1x512x4864_S3x512x4864_d0) shapeCasts_S3x512x4864_S3x512x76x64) transposes_S3x512x76x64_S64x512x76x3_3_1_2_0) shapeCasts_S64x512x76x3_S32768x228) (W (Proc.devRef .tc main_arg5))) (broadcastInDim S32768x64 ![0, 1] bcast_S1x64_S32768x64_0_1 (broadcastInDim S1x64 ![1] bcast_S64_S1x64_1 (W (Proc.devRef .tc main_arg6)))))) shapeCasts_S32768x64_S64x32768)) := by
      after_results3_simp <;> rfl
    rw [e, h_arg2, h_v40, h_v39, h_arg5, h_arg6, h_v33, h_v1]
    rfl

/-- Stretch 9 writes `main_v64`: the second layer's incoming state. The other buffers read later are untouched. -/
theorem step09 (V W : Valuation τ sig (Elt F)) (h : I08 V W) : I09 V (after c09 W) := by
  unfold I08 at h
  obtain ⟨h_arg1, h_arg2, h_arg7, h_arg8, h_arg9, h_arg10, h_v62⟩ := h
  unfold I09
  refine ⟨?_, ?_, ?_, ?_, ?_, ?_, ?_⟩
  · after_results3_simp
    exact h_arg2
  · after_results3_simp
    exact h_arg7
  · after_results3_simp
    exact h_arg8
  · after_results3_simp
    exact h_arg9
  · after_results3_simp
    exact h_arg10
  · after_results3_simp
    exact h_v62
  · have e : after c09 W (Proc.devRef .tc main_v64)
        = shapeCast _ (extractStridedSlice S1x64x32768 ![1, 0, 0] (W (Proc.devRef .tc main_arg1)) slices_S2x64x32768_S1x64x32768_1_0_0) shapeCasts_S1x64x32768_S64x32768 := by
      after_results3_simp <;> rfl
    rw [e, h_arg1]
    rfl

/-- Stretch 10 writes `main_v69`: the second layer's gate panel. The other buffers read later are untouched. -/
theorem step10 (V W : Valuation τ sig (Elt F)) (h : I09 V W) : I10 V (after c10 W) := by
  unfold I09 at h
  obtain ⟨h_arg2, h_arg7, h_arg8, h_arg9, h_arg10, h_v62, h_v64⟩ := h
  unfold I10
  refine ⟨?_, ?_, ?_, ?_, ?_, ?_, ?_, ?_⟩
  · after_results3_simp
    exact h_arg2
  · after_results3_simp
    exact h_arg7
  · after_results3_simp
    exact h_arg8
  · after_results3_simp
    exact h_arg9
  · after_results3_simp
    exact h_arg10
  · after_results3_simp
    exact h_v62
  · after_results3_simp
    exact h_v64
  · have e : after c10 W (Proc.devRef .tc main_v69)
        = shapeCast _ (transpose S512x128x64 [1, 2, 0] (concatenate S64x512x128 2 [⟨S64x512x64, (shapeCast _ (W (Proc.devRef .tc main_v62)) shapeCasts_S64x32768_S64x512x64)⟩, ⟨S64x512x64, (shapeCast _ (W (Proc.devRef .tc main_v64)) shapeCasts_S64x32768_S64x512x64)⟩] concatenates_S64x512x64_S64x512x64_S64x512x128_d2) transposes_S64x512x128_S512x128x64_1_2_0) shapeCasts_S512x128x64_S512x8192 := by
      after_results3_simp <;> rfl
    rw [e, h_v62, h_v64]
    rfl

/-- Stretch 11 writes `main_v70`: the support matrix times that panel. The other buffers read later are untouched. -/
theorem step11 (V W : Valuation τ sig (Elt F)) (h : I10 V W) : I11 V (after c11 W) := by
  unfold I10 at h
  obtain ⟨h_arg2, h_arg7, h_arg8, h_arg9, h_arg10, h_v62, h_v64, h_v69⟩ := h
  unfold I11
  refine ⟨?_, ?_, ?_, ?_, ?_, ?_, ?_, ?_, ?_⟩
  · after_results3_simp
    exact h_arg2
  · after_results3_simp
    exact h_arg7
  · after_results3_simp
    exact h_arg8
  · after_results3_simp
    exact h_arg9
  · after_results3_simp
    exact h_arg10
  · after_results3_simp
    exact h_v62
  · after_results3_simp
    exact h_v64
  · after_results3_simp
    exact h_v69
  · have e : after c11 W (Proc.devRef .tc main_v70)
        = Host.dotGeneral dot_S512x512_S512x8192_S512x8192_1_0_0_1_n_n none (W (Proc.devRef .tc main_arg2)) (W (Proc.devRef .tc main_v69)) := by
      after_results3_simp <;> rfl
    rw [e, h_arg2, h_v69]
    rfl

/-- Stretch 12 writes `main_v92`: the second layer's gates. The other buffers read later are untouched. -/
theorem step12 (V W : Valuation τ sig (Elt F)) (h : I11 V W) : I12 V (after c12 W) := by
  unfold I11 at h
  obtain ⟨h_arg2, h_arg7, h_arg8, h_arg9, h_arg10, h_v62, h_v64, h_v69, h_v70⟩ := h
  unfold I12
  refine ⟨?_, ?_, ?_, ?_, ?_, ?_⟩
  · after_results3_simp
    exact h_arg2
  · after_results3_simp
    exact h_arg9
  · after_results3_simp
    exact h_arg10
  · after_results3_simp
    exact h_v62
  · after_results3_simp
    exact h_v64
  · have e : after c12 W (Proc.devRef .tc main_v92)
        = shapeCast _ (Host.divf (broadcastInDim S32768x128 ![] bcast_S_S32768x128 (constant S_ .f32 0x3F800000#32)) (addf (broadcastInDim S32768x128 ![] bcast_S_S32768x128 (constant S_ .f32 0x3F800000#32)) (Host.exp (Host.negf (addf (Host.dotGeneral dot_S32768x384_S384x128_S32768x128_1_0_0_1_n_n none (shapeCast _ (transpose S64x512x128x3 [3, 1, 2, 0] (shapeCast _ (concatenate S3x512x8192 0 [⟨S1x512x8192, (broadcastInDim S1x512x8192 ![1, 2] bcast_S512x8192_S1x512x8192_1_2 (W (Proc.devRef .tc main_v69)))⟩, ⟨S1x512x8192, (broadcastInDim S1x512x8192 ![1, 2] bcast_S512x8192_S1x512x8192_1_2 (W (Proc.devRef .tc main_v70)))⟩, ⟨S1x512x8192, (broadcastInDim S1x512x8192 ![1, 2] bcast_S512x8192_S1x512x8192_1_2 (subf (mulf (broadcastInDim S512x8192 ![] bcast_S_S512x8192 (constant S_ .f32 0x40000000#32)) (Host.dotGeneral dot_S512x512_S512x8192_S512x8192_1_0_0_1_n_n none (W (Proc.devRef .tc main_arg2)) (W (Proc.devRef .tc main_v70)))) (W (Proc.devRef .tc main_v69))))⟩] concatenates_S1x512x8192_S1x512x8192_S1x512x8192_S3x512x8192_d0) shapeCasts_S3x512x8192_S3x512x128x64) transposes_S3x512x128x64_S64x512x128x3_3_1_2_0) shapeCasts_S64x512x128x3_S32768x384) (W (Proc.devRef .tc main_arg7))) (broadcastInDim S32768x128 ![0, 1] bcast_S1x128_S32768x128_0_1 (broadcastInDim S1x128 ![1] bcast_S128_S1x128_1 (W (Proc.devRef .tc main_arg8))))))))) shapeCasts_S32768x128_S64x512x128 := by
      after_results3_simp <;> rfl
    rw [e, h_arg2, h_v70, h_v69, h_arg7, h_arg8]
    rfl

end Cert.ReferenceIdeal.Value

end
-- ==== Proof.RunSteps3.lean ====
/-
  The reference's operation list, stretches 13 to 17: what the buffers hold after each.

  Each stretch is a short literal list of operations, every value inside it used once. Reading a buffer after a stretch
  gives, for a buffer the stretch does not write, what was there before, and for the buffer it names, a small term over
  the buffers the stretch reads; with the previous cut's equations those are the named intermediates' terms of the
  arguments. Stretch 16 (twenty-four operations) is read in three parts, with what the buffers hold between the parts
  stated the same way.
-/
import proofs.«127843_g48979807044056_cont_8to1c4_176_1_alg».proof.Proof.RunInv
import proofs.«127843_g48979807044056_cont_8to1c4_176_1_alg».proof.Proof.LibNary3

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Stretch 13: the two halves of the gates, each laid out flat. -/
theorem step13 (V W : Valuation τ sig (Elt F)) (h : I12 V W) : I13 V (after c13 W) := by
  unfold I12 at h
  obtain ⟨h2, h9, h10, h62, h64, h92⟩ := h
  unfold I13
  refine ⟨?_, ?_, ?_, ?_, ?_, ?_, ?_⟩
  · after_results3_simp; exact h2
  · after_results3_simp; exact h9
  · after_results3_simp; exact h10
  · after_results3_simp; exact h62
  · after_results3_simp; exact h64
  · after_results3; rw [h92]; unfold res_main_v96; rfl
  · after_results3; rw [h92]; rfl

set_option maxRecDepth 8192 in
/-- Stretch 14: the candidate's panel, the first layer's state beside the reset gate times the state. -/
theorem step14 (V W : Valuation τ sig (Elt F)) (h : I13 V W) : I14 V (after c14 W) := by
  unfold I13 at h
  obtain ⟨h2, h9, h10, h62, h64, h96, h94⟩ := h
  unfold I14
  refine ⟨?_, ?_, ?_, ?_, ?_, ?_, ?_⟩
  · after_results3_simp; exact h2
  · after_results3_simp; exact h9
  · after_results3_simp; exact h10
  · after_results3_simp; exact h62
  · after_results3_simp; exact h64
  · after_results3_simp; exact h96
  · after_results3; rw [h62, h94, h64]; unfold res_main_v102; rfl

set_option maxRecDepth 8192 in
/-- Stretch 15: one support product of the candidate's panel. -/
theorem step15 (V W : Valuation τ sig (Elt F)) (h : I14 V W) : I15 V (after c15 W) := by
  unfold I14 at h
  obtain ⟨h2, h9, h10, h62, h64, h96, h102⟩ := h
  unfold I15
  refine ⟨?_, ?_, ?_, ?_, ?_, ?_, ?_, ?_⟩
  · after_results3_simp; exact h2
  · after_results3_simp; exact h9
  · after_results3_simp; exact h10
  · after_results3_simp; exact h62
  · after_results3_simp; exact h64
  · after_results3_simp; exact h96
  · after_results3_simp; exact h102
  · after_results3; rw [h2, h102]; unfold res_main_v103; rfl

/-- Stretch 16, first part: the candidate panel's three diffusion terms, each with a leading unit axis. -/
abbrev c16a : List (HloOp τ sig (Elt F)) :=
  [ binary main_arg2 main_v103 main_v104 ((fun l r => Host.dotGeneral dot_S512x512_S512x8192_S512x8192_1_0_0_1_n_n none l r) : (⟨S512x512, .f32⟩ : BufTy).Contents (Elt F) → (⟨S512x8192, .f32⟩ : BufTy).Contents (Elt F) → (⟨S512x8192, .f32⟩ : BufTy).Contents (Elt F)),
    nullary main_cst_7 (constant S_ .f32 0x40000000#32),
    unary main_cst_7 main_v105 (broadcastInDim S512x8192 ![] bcast_S_S512x8192 : (⟨S_, .f32⟩ : BufTy).Contents (Elt F) → (⟨S512x8192, .f32⟩ : BufTy).Contents (Elt F)),
    binary main_v105 main_v104 main_v106 (mulf : (⟨S512x8192, .f32⟩ : BufTy).Contents (Elt F) → (⟨S512x8192, .f32⟩ : BufTy).Contents (Elt F) → (⟨S512x8192, .f32⟩ : BufTy).Contents (Elt F)),
    binary main_v106 main_v102 main_v107 (subf : (⟨S512x8192, .f32⟩ : BufTy).Contents (Elt F) → (⟨S512x8192, .f32⟩ : BufTy).Contents (Elt F) → (⟨S512x8192, .f32⟩ : BufTy).Contents (Elt F)),
    unary main_v102 main_v108 (broadcastInDim S1x512x8192 ![1, 2] bcast_S512x8192_S1x512x8192_1_2 : (⟨S512x8192, .f32⟩ : BufTy).Contents (Elt F) → (⟨S1x512x8192, .f32⟩ : BufTy).Contents (Elt F)),
    unary main_v103 main_v109 (broadcastInDim S1x512x8192 ![1, 2] bcast_S512x8192_S1x512x8192_1_2 : (⟨S512x8192, .f32⟩ : BufTy).Contents (Elt F) → (⟨S1x512x8192, .f32⟩ : BufTy).Contents (Elt F)),
    unary main_v107 main_v110 (broadcastInDim S1x512x8192 ![1, 2] bcast_S512x8192_S1x512x8192_1_2 : (⟨S512x8192, .f32⟩ : BufTy).Contents (Elt F) → (⟨S1x512x8192, .f32⟩ : BufTy).Contents (Elt F)) ]

/-- Stretch 16, second part: the stack, its layout, the projection and the candidate. -/
abbrev c16b : List (HloOp τ sig (Elt F)) :=
  [ nary ![main_v108, main_v109, main_v110] main_v111 (fun u => concatenate S3x512x8192 0 [⟨S1x512x8192, u 0⟩, ⟨S1x512x8192, u 1⟩, ⟨S1x512x8192, u 2⟩] concatenates_S1x512x8192_S1x512x8192_S1x512x8192_S3x512x8192_d0),
    reshape main_v111 main_v112 rfl shapeCasts_S3x512x8192_S3x512x128x64,
    unary main_v112 main_v113 ((transpose S64x512x128x3 [3, 1, 2, 0] · transposes_S3x512x128x64_S64x512x128x3_3_1_2_0) : (⟨S3x512x128x64, .f32⟩ : BufTy).Contents (Elt F) → (⟨S64x512x128x3, .f32⟩ : BufTy).Contents (Elt F)),
    reshape main_v113 main_v114 rfl shapeCasts_S64x512x128x3_S32768x384,
    binary main_v114 main_arg9 main_v115 ((fun l r => Host.dotGeneral dot_S32768x384_S384x64_S32768x64_1_0_0_1_n_n none l r) : (⟨S32768x384, .f32⟩ : BufTy).Contents (Elt F) → (⟨S384x64, .f32⟩ : BufTy).Contents (Elt F) → (⟨S32768x64, .f32⟩ : BufTy).Contents (Elt F)),
    unary main_arg10 main_v116 (broadcastInDim S1x64 ![1] bcast_S64_S1x64_1 : (⟨S64, .f32⟩ : BufTy).Contents (Elt F) → (⟨S1x64, .f32⟩ : BufTy).Contents (Elt F)),
    unary main_v116 main_v117 (broadcastInDim S32768x64 ![0, 1] bcast_S1x64_S32768x64_0_1 : (⟨S1x64, .f32⟩ : BufTy).Contents (Elt F) → (⟨S32768x64, .f32⟩ : BufTy).Contents (Elt F)),
    binary main_v115 main_v117 main_v118 (addf : (⟨S32768x64, .f32⟩ : BufTy).Contents (Elt F) → (⟨S32768x64, .f32⟩ : BufTy).Contents (Elt F) → (⟨S32768x64, .f32⟩ : BufTy).Contents (Elt F)),
    unary main_v118 main_v119 (Host.tanh : (⟨S32768x64, .f32⟩ : BufTy).Contents (Elt F) → (⟨S32768x64, .f32⟩ : BufTy).Contents (Elt F)),
    reshape main_v119 main_v120 rfl shapeCasts_S32768x64_S64x32768 ]

/-- Stretch 16, last part: the cell's last line. -/
abbrev c16c : List (HloOp τ sig (Elt F)) :=
  [ binary main_v96 main_v64 main_v121 (mulf : (⟨S64x32768, .f32⟩ : BufTy).Contents (Elt F) → (⟨S64x32768, .f32⟩ : BufTy).Contents (Elt F) → (⟨S64x32768, .f32⟩ : BufTy).Contents (Elt F)),
    nullary main_cst_8 (constant S_ .f32 0x3F800000#32),
    unary main_cst_8 main_v122 (broadcastInDim S64x32768 ![] bcast_S_S64x32768 : (⟨S_, .f32⟩ : BufTy).Contents (Elt F) → (⟨S64x32768, .f32⟩ : BufTy).Contents (Elt F)),
    binary main_v122 main_v96 main_v123 (subf : (⟨S64x32768, .f32⟩ : BufTy).Contents (Elt F) → (⟨S64x32768, .f32⟩ : BufTy).Contents (Elt F) → (⟨S64x32768, .f32⟩ : BufTy).Contents (Elt F)),
    binary main_v123 main_v120 main_v124 (mulf : (⟨S64x32768, .f32⟩ : BufTy).Contents (Elt F) → (⟨S64x32768, .f32⟩ : BufTy).Contents (Elt F) → (⟨S64x32768, .f32⟩ : BufTy).Contents (Elt F)),
    binary main_v121 main_v124 main_v125 (addf : (⟨S64x32768, .f32⟩ : BufTy).Contents (Elt F) → (⟨S64x32768, .f32⟩ : BufTy).Contents (Elt F) → (⟨S64x32768, .f32⟩ : BufTy).Contents (Elt F)) ]

/-- What the valuation holds after the first part of stretch 16. -/
def J16a (V W : Valuation τ sig (Elt F)) : Prop :=
  W (Proc.devRef .tc main_arg9) = V (Proc.devRef .tc main_arg9)
  ∧ W (Proc.devRef .tc main_arg10) = V (Proc.devRef .tc main_arg10)
  ∧ W (Proc.devRef .tc main_v62) = res_main_v62 V
  ∧ W (Proc.devRef .tc main_v64) = res_main_v64 V
  ∧ W (Proc.devRef .tc main_v96) = res_main_v96 V
  ∧ W (Proc.devRef .tc main_v108) = (broadcastInDim S1x512x8192 ![1, 2] bcast_S512x8192_S1x512x8192_1_2 (res_main_v102 V))
  ∧ W (Proc.devRef .tc main_v109) = (broadcastInDim S1x512x8192 ![1, 2] bcast_S512x8192_S1x512x8192_1_2 (res_main_v103 V))
  ∧ W (Proc.devRef .tc main_v110) = (broadcastInDim S1x512x8192 ![1, 2] bcast_S512x8192_S1x512x8192_1_2 (subf (mulf (broadcastInDim S512x8192 ![] bcast_S_S512x8192 (constant S_ .f32 0x40000000#32)) (Host.dotGeneral dot_S512x512_S512x8192_S512x8192_1_0_0_1_n_n none (V (Proc.devRef .tc main_arg2)) (res_main_v103 V))) (res_main_v102 V)))

/-- What the valuation holds after the second part of stretch 16. -/
def J16b (V W : Valuation τ sig (Elt F)) : Prop :=
  W (Proc.devRef .tc main_v62) = res_main_v62 V
  ∧ W (Proc.devRef .tc main_v64) = res_main_v64 V
  ∧ W (Proc.devRef .tc main_v96) = res_main_v96 V
  ∧ W (Proc.devRef .tc main_v120) = shapeCast _ (Host.tanh (addf (Host.dotGeneral dot_S32768x384_S384x64_S32768x64_1_0_0_1_n_n none (shapeCast _ (transpose S64x512x128x3 [3, 1, 2, 0] (shapeCast _ (concatenate S3x512x8192 0 [⟨S1x512x8192, (broadcastInDim S1x512x8192 ![1, 2] bcast_S512x8192_S1x512x8192_1_2 (res_main_v102 V))⟩, ⟨S1x512x8192, (broadcastInDim S1x512x8192 ![1, 2] bcast_S512x8192_S1x512x8192_1_2 (res_main_v103 V))⟩, ⟨S1x512x8192, (broadcastInDim S1x512x8192 ![1, 2] bcast_S512x8192_S1x512x8192_1_2 (subf (mulf (broadcastInDim S512x8192 ![] bcast_S_S512x8192 (constant S_ .f32 0x40000000#32)) (Host.dotGeneral dot_S512x512_S512x8192_S512x8192_1_0_0_1_n_n none (V (Proc.devRef .tc main_arg2)) (res_main_v103 V))) (res_main_v102 V)))⟩] concatenates_S1x512x8192_S1x512x8192_S1x512x8192_S3x512x8192_d0) shapeCasts_S3x512x8192_S3x512x128x64) transposes_S3x512x128x64_S64x512x128x3_3_1_2_0) shapeCasts_S64x512x128x3_S32768x384) (V (Proc.devRef .tc main_arg9))) (broadcastInDim S32768x64 ![0, 1] bcast_S1x64_S32768x64_0_1 (broadcastInDim S1x64 ![1] bcast_S64_S1x64_1 (V (Proc.devRef .tc main_arg10)))))) shapeCasts_S32768x64_S64x32768

set_option maxRecDepth 8192 in
/-- Stretch 16, first part. -/
theorem step16a (V W : Valuation τ sig (Elt F)) (h : I15 V W) : J16a V (after c16a W) := by
  unfold I15 at h
  obtain ⟨h2, h9, h10, h62, h64, h96, h102, h103⟩ := h
  unfold J16a
  refine ⟨?_, ?_, ?_, ?_, ?_, ?_, ?_, ?_⟩
  · after_results3_simp; exact h9
  · after_results3_simp; exact h10
  · after_results3_simp; exact h62
  · after_results3_simp; exact h64
  · after_results3_simp; exact h96
  · after_results3_simp; rw [h102]
  · after_results3_simp; rw [h103]
  · after_results3_simp; rw [h2, h102, h103]

set_option maxRecDepth 8192 in
/-- Stretch 16, second part. -/
theorem step16b (V W : Valuation τ sig (Elt F)) (h : J16a V W) : J16b V (after c16b W) := by
  unfold J16a at h
  obtain ⟨h9, h10, h62, h64, h96, h108, h109, h110⟩ := h
  unfold J16b
  refine ⟨?_, ?_, ?_, ?_⟩
  · after_results3_simp; exact h62
  · after_results3_simp; exact h64
  · after_results3_simp; exact h96
  · after_results3; rw [h9, h10, h108, h109, h110]; rfl

set_option maxRecDepth 8192 in
/-- Stretch 16, last part. -/
theorem step16c (V W : Valuation τ sig (Elt F)) (h : J16b V W) : I16 V (after c16c W) := by
  unfold J16b at h
  obtain ⟨h62, h64, h96, h120⟩ := h
  unfold I16
  refine ⟨?_, ?_⟩
  · after_results3_simp; exact h62
  · after_results3_simp; rw [h64, h96, h120]; unfold term_v125; rfl

/-- Stretch 16: the candidate and the second layer's new state. -/
theorem step16 (V W : Valuation τ sig (Elt F)) (h : I15 V W) : I16 V (after c16 W) :=
  step16c V _ (step16b V _ (step16a V W h))

set_option maxRecDepth 8192 in
/-- Stretch 17: the two layers' new states, stacked. -/
theorem step17 (V W : Valuation τ sig (Elt F)) (h : I16 V W) : I17 V (after c17 W) := by
  unfold I16 at h
  obtain ⟨h62, h125⟩ := h
  unfold I17
  refine ⟨?_, ?_⟩
  · after_results3_simp; exact h125
  · after_results3; rw [h62, h125]; unfold term_v128; rfl

end Cert.ReferenceIdeal.Value

end
-- ==== Proof.RunP.lean ====
/-
  The reference's run read back: every weakly fair execution of @main terminates with each result buffer at its term of
  the arguments and the arguments unchanged.

  The buffers after all 139 operations are the buffers after the seventeen stretches in turn; each stretch keeps the
  invariant of Proof/RunInv.lean (Proof/RunSteps1, 2, 3), so after the last one the two result buffers hold their terms;
  an argument buffer is written by no operation.
-/
import proofs.«127843_g48979807044056_cont_8to1c4_176_1_alg».proof.Proof.RunInv
import proofs.«127843_g48979807044056_cont_8to1c4_176_1_alg».proof.Proof.RunSteps1
import proofs.«127843_g48979807044056_cont_8to1c4_176_1_alg».proof.Proof.RunSteps2
import proofs.«127843_g48979807044056_cont_8to1c4_176_1_alg».proof.Proof.RunSteps3
import proofs.«127843_g48979807044056_cont_8to1c4_176_1_alg».proof.Proof.LibNary3

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Before the first stretch every argument is as launched. -/
theorem I00_refl (V : Valuation τ sig (Elt F)) : I00 V V :=
  ⟨rfl, rfl, rfl, rfl, rfl, rfl, rfl, rfl, rfl, rfl, rfl⟩

/-- The buffers after two lists in turn are the buffers after their concatenation. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- The buffers after the whole list are the buffers after the stretches in turn. -/
theorem after_ops (V : Valuation τ sig (Elt F)) :
    after (ops (F := F)) V = after c17 (after c16 (after c15 (after c14 (after c13 (after c12 (after c11 (after c10 (after c09 (after c08 (after c07 (after c06 (after c05 (after c04 (after c03 (after c02 (after c01 (V))))))))))))))))) := by
  rw [ops_eq]
  simp only [after_concat]

/-- After the whole list the two result buffers hold their terms of the arguments. -/
theorem results_after_ops (V : Valuation τ sig (Elt F)) : I17 V (after (ops (F := F)) V) := by
  rw [after_ops]
  exact step17 V _ (step16 V _ (step15 V _ (step14 V _ (step13 V _ (step12 V _ (step11 V _ (step10 V _ (step09 V _ (step08 V _ (step07 V _ (step06 V _ (step05 V _ (step04 V _ (step03 V _ (step02 V _ (step01 V V (I00_refl V)))))))))))))))))

set_option maxRecDepth 8192 in
set_option maxHeartbeats 4000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125) = addf (mulf (res_main_v96 (launchContents m c)) (res_main_v64 (launchContents m c))) (mulf (subf (broadcastInDim S64x32768 ![] bcast_S_S64x32768 (constant S_ .f32 0x3F800000#32)) (res_main_v96 (launchContents m c))) (shapeCast _ (Host.tanh (addf (Host.dotGeneral dot_S32768x384_S384x64_S32768x64_1_0_0_1_n_n none (shapeCast _ (transpose S64x512x128x3 [3, 1, 2, 0] (shapeCast _ (concatenate S3x512x8192 0 [⟨S1x512x8192, (broadcastInDim S1x512x8192 ![1, 2] bcast_S512x8192_S1x512x8192_1_2 (res_main_v102 (launchContents m c)))⟩, ⟨S1x512x8192, (broadcastInDim S1x512x8192 ![1, 2] bcast_S512x8192_S1x512x8192_1_2 (res_main_v103 (launchContents m c)))⟩, ⟨S1x512x8192, (broadcastInDim S1x512x8192 ![1, 2] bcast_S512x8192_S1x512x8192_1_2 (subf (mulf (broadcastInDim S512x8192 ![] bcast_S_S512x8192 (constant S_ .f32 0x40000000#32)) (Host.dotGeneral dot_S512x512_S512x8192_S512x8192_1_0_0_1_n_n none ((launchContents m c) (Proc.devRef .tc main_arg2)) (res_main_v103 (launchContents m c)))) (res_main_v102 (launchContents m c))))⟩] concatenates_S1x512x8192_S1x512x8192_S1x512x8192_S3x512x8192_d0) shapeCasts_S3x512x8192_S3x512x128x64) transposes_S3x512x128x64_S64x512x128x3_3_1_2_0) shapeCasts_S64x512x128x3_S32768x384) ((launchContents m c) (Proc.devRef .tc main_arg9))) (broadcastInDim S32768x64 ![0, 1] bcast_S1x64_S32768x64_0_1 (broadcastInDim S1x64 ![1] bcast_S64_S1x64_1 ((launchContents m c) (Proc.devRef .tc main_arg10)))))) shapeCasts_S32768x64_S64x32768))
      ∧ r.2.mem ((c.tc : Thread nD τ).loc main_v128) = concatenate S2x64x32768 0 [⟨S1x64x32768, (broadcastInDim S1x64x32768 ![1, 2] bcast_S64x32768_S1x64x32768_1_2 (res_main_v62 (launchContents m c)))⟩, ⟨S1x64x32768, (broadcastInDim S1x64x32768 ![1, 2] bcast_S64x32768_S1x64x32768_1_2 (addf (mulf (res_main_v96 (launchContents m c)) (res_main_v64 (launchContents m c))) (mulf (subf (broadcastInDim S64x32768 ![] bcast_S_S64x32768 (constant S_ .f32 0x3F800000#32)) (res_main_v96 (launchContents m c))) (shapeCast _ (Host.tanh (addf (Host.dotGeneral dot_S32768x384_S384x64_S32768x64_1_0_0_1_n_n none (shapeCast _ (transpose S64x512x128x3 [3, 1, 2, 0] (shapeCast _ (concatenate S3x512x8192 0 [⟨S1x512x8192, (broadcastInDim S1x512x8192 ![1, 2] bcast_S512x8192_S1x512x8192_1_2 (res_main_v102 (launchContents m c)))⟩, ⟨S1x512x8192, (broadcastInDim S1x512x8192 ![1, 2] bcast_S512x8192_S1x512x8192_1_2 (res_main_v103 (launchContents m c)))⟩, ⟨S1x512x8192, (broadcastInDim S1x512x8192 ![1, 2] bcast_S512x8192_S1x512x8192_1_2 (subf (mulf (broadcastInDim S512x8192 ![] bcast_S_S512x8192 (constant S_ .f32 0x40000000#32)) (Host.dotGeneral dot_S512x512_S512x8192_S512x8192_1_0_0_1_n_n none ((launchContents m c) (Proc.devRef .tc main_arg2)) (res_main_v103 (launchContents m c)))) (res_main_v102 (launchContents m c))))⟩] concatenates_S1x512x8192_S1x512x8192_S1x512x8192_S3x512x8192_d0) shapeCasts_S3x512x8192_S3x512x128x64) transposes_S3x512x128x64_S64x512x128x3_3_1_2_0) shapeCasts_S64x512x128x3_S32768x384) ((launchContents m c) (Proc.devRef .tc main_arg9))) (broadcastInDim S32768x64 ![0, 1] bcast_S1x64_S32768x64_0_1 (broadcastInDim S1x64 ![1] bcast_S64_S1x64_1 ((launchContents m c) (Proc.devRef .tc main_arg10)))))) shapeCasts_S32768x64_S64x32768))))⟩] concatenates_S1x64x32768_S1x64x32768_S2x64x32768_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v125).trans (results_after_ops (launchContents m c)).1,
      (h c main_v128).trans (results_after_ops (launchContents m c)).2,
      (h c main_arg0).trans (by after_results3_simp <;> rfl),
      (h c main_arg1).trans (by after_results3_simp <;> rfl),
      (h c main_arg2).trans (by after_results3_simp <;> rfl),
      (h c main_arg3).trans (by after_results3_simp <;> rfl),
      (h c main_arg4).trans (by after_results3_simp <;> rfl),
      (h c main_arg5).trans (by after_results3_simp <;> rfl),
      (h c main_arg6).trans (by after_results3_simp <;> rfl),
      (h c main_arg7).trans (by after_results3_simp <;> rfl),
      (h c main_arg8).trans (by after_results3_simp <;> rfl),
      (h c main_arg9).trans (by after_results3_simp <;> rfl),
      (h c main_arg10).trans (by after_results3_simp <;> rfl)⟩)
    (run_seq scopedRefs_eq scopedSems_eq defs main (fun _ => ops) main_eq (fun _ => ops_sub) m ρ)

end Cert.ReferenceIdeal.Value

end
-- ==== Proof.Spec.lean ====
/-
  The mathematics both programs compute, on the extended reals: one step of a diffusion-convolution GRU cell.

  For one batch element, a panel `g : Fin 512 → I → EReal` of node features (the input features beside a state),
  a `512 × 512` support matrix `S` and weights `W i k o` (feature `i`, Chebyshev order `k < 3`, output `o`):
    * `diff S g`  is `S · g` (one diffusion step),
    * `cheb S g`  is `2 · S · (S · g) − g` (the second Chebyshev term),
    * `proj S g W bias` is `g · W₀ + (S g) · W₁ + (cheb g) · W₂ + bias`,
  and the cell: gates `σ (proj …)` over the panel of the input beside the state `h`, reset gate `r` the first 64 outputs,
  update gate `z` the last 64; candidate `tanh (proj …)` over the panel of the input beside `r ⊙ h`; new state
  `z ⊙ h + (1 − z) ⊙ c`.  The panel builder `mk` (input features beside a given state) is a parameter, so one text
  serves both layers.  Also here: the two float constants' values and the regrouping of a sum over `n · 3` terms.
-/
import Idealize.ShloMosaic.PureOps.Ideal
import Mathlib.Algebra.BigOperators.Fin
import Mathlib.Algebra.BigOperators.Ring.Finset
import Mathlib.Logic.Equiv.Fin.Basic

noncomputable section

namespace Cert.Spec

open Idealize.ShloMosaic

/-- The float literal `2.0` as both programs spell it. -/
abbrev two : EReal := Ideal.ofBits .f32 0x40000000#32
/-- The float literal `1.0` as both programs spell it. -/
abbrev one : EReal := Ideal.ofBits .f32 0x3F800000#32

/-- `1.0` denotes `1`. -/
theorem ofBits_one : Ideal.ofBits .f32 0x3F800000#32 = 1 := by
  simp [Ideal.ofBits, Ideal.ieee, -EReal.coe_mul]; norm_num

/-- The quotient `1.0 / (1.0 + exp (−x))` is the logistic function of `x`, at the infinities too. -/
theorem div_one_add_exp_neg (x : EReal) : Ideal.div one (one + Ideal.exp (-x)) = Ideal.logistic x := by
  unfold one; rw [ofBits_one]; rfl

section Cell
variable {I O : Type} [Fintype I]

/-- One diffusion step: `(S · g) n i = ∑ m, S n m * g m i`. -/
def diff (S : Fin 512 → Fin 512 → EReal) (g : Fin 512 → I → EReal) (n : Fin 512) (i : I) : EReal :=
  ∑ m : Fin 512, S n m * g m i

/-- The second Chebyshev term `2 · S · (S · g) − g`. -/
def cheb (S : Fin 512 → Fin 512 → EReal) (g : Fin 512 → I → EReal) (n : Fin 512) (i : I) : EReal :=
  two * diff S (diff S g) n i - g n i

/-- The graph convolution's projection: the three diffusion terms against their weight slices, plus the bias. -/
def proj (S : Fin 512 → Fin 512 → EReal) (g : Fin 512 → I → EReal) (W : I → Fin 3 → O → EReal) (bias : O → EReal)
    (n : Fin 512) (o : O) : EReal :=
  ((∑ i : I, g n i * W i 0 o) + (∑ i : I, diff S g n i * W i 1 o) + (∑ i : I, cheb S g n i * W i 2 o)) + bias o

/-- The gates `σ (proj …)` of the panel built over the state `h`. -/
def gates (S : Fin 512 → Fin 512 → EReal) (mk : (Fin 512 → Fin 64 → EReal) → Fin 512 → I → EReal)
    (h : Fin 512 → Fin 64 → EReal) (Wg : I → Fin 3 → Fin 128 → EReal) (bg : Fin 128 → EReal)
    (n : Fin 512) (o : Fin 128) : EReal :=
  Ideal.logistic (proj S (mk h) Wg bg n o)

/-- The reset gate: the first 64 gate outputs. -/
def rgate (S : Fin 512 → Fin 512 → EReal) (mk : (Fin 512 → Fin 64 → EReal) → Fin 512 → I → EReal)
    (h : Fin 512 → Fin 64 → EReal) (Wg : I → Fin 3 → Fin 128 → EReal) (bg : Fin 128 → EReal)
    (n : Fin 512) (u : Fin 64) : EReal :=
  gates S mk h Wg bg n ⟨u.val, by omega⟩

/-- The update gate: the last 64 gate outputs. -/
def zgate (S : Fin 512 → Fin 512 → EReal) (mk : (Fin 512 → Fin 64 → EReal) → Fin 512 → I → EReal)
    (h : Fin 512 → Fin 64 → EReal) (Wg : I → Fin 3 → Fin 128 → EReal) (bg : Fin 128 → EReal)
    (n : Fin 512) (u : Fin 64) : EReal :=
  gates S mk h Wg bg n ⟨64 + u.val, by omega⟩

/-- The candidate state `tanh (proj …)` of the panel built over `r ⊙ h`. -/
def cand (S : Fin 512 → Fin 512 → EReal) (mk : (Fin 512 → Fin 64 → EReal) → Fin 512 → I → EReal)
    (h : Fin 512 → Fin 64 → EReal) (Wg : I → Fin 3 → Fin 128 → EReal) (bg : Fin 128 → EReal)
    (Wc : I → Fin 3 → Fin 64 → EReal) (bc : Fin 64 → EReal) (n : Fin 512) (u : Fin 64) : EReal :=
  Ideal.tanh (proj S (mk fun n' u' => rgate S mk h Wg bg n' u' * h n' u') Wc bc n u)

/-- The cell's new state `z ⊙ h + (1 − z) ⊙ c`. -/
def cell (S : Fin 512 → Fin 512 → EReal) (mk : (Fin 512 → Fin 64 → EReal) → Fin 512 → I → EReal)
    (h : Fin 512 → Fin 64 → EReal) (Wg : I → Fin 3 → Fin 128 → EReal) (bg : Fin 128 → EReal)
    (Wc : I → Fin 3 → Fin 64 → EReal) (bc : Fin 64 → EReal) (n : Fin 512) (u : Fin 64) : EReal :=
  zgate S mk h Wg bg n u * h n u + (one - zgate S mk h Wg bg n u) * cand S mk h Wg bg Wc bc n u

end Cell

/-- A sum over `n · 3` terms, regrouped by the remainder of the index: the terms at `3 i`, at `3 i + 1` and at `3 i + 2`.
    Only commutativity and associativity of the sum are used. -/
theorem sum_fin_mul3 {M : Type} [AddCommMonoid M] (n m : Nat) (hm : m = n * 3) (f : Fin m → M) :
    ∑ j : Fin m, f j = (∑ i : Fin n, f ⟨i.val * 3 + 0, by omega⟩) + (∑ i : Fin n, f ⟨i.val * 3 + 1, by omega⟩)
      + (∑ i : Fin n, f ⟨i.val * 3 + 2, by omega⟩) := by
  subst hm
  rw [← Finset.sum_add_distrib, ← Finset.sum_add_distrib, ← Equiv.sum_comp finProdFinEquiv, Fintype.sum_prod_type]
  refine Finset.sum_congr rfl fun i _ => ?_
  have hi := i.isLt
  have e0 : finProdFinEquiv (i, (0 : Fin 3)) = (⟨i.val * 3 + 0, by omega⟩ : Fin (n * 3)) := Fin.ext (by simp [finProdFinEquiv]; omega)
  have e1 : finProdFinEquiv (i, (1 : Fin 3)) = (⟨i.val * 3 + 1, by omega⟩ : Fin (n * 3)) := Fin.ext (by simp [finProdFinEquiv]; omega)
  have e2 : finProdFinEquiv (i, (2 : Fin 3)) = (⟨i.val * 3 + 2, by omega⟩ : Fin (n * 3)) := Fin.ext (by simp [finProdFinEquiv]; omega)
  rw [Fin.sum_univ_three, e0, e1, e2]

end Cert.Spec

end
-- ==== Proof.Layer.lean ====
/-
  The two layers' results as functions of the eleven argument arrays.

  The arguments are read by coordinates: the inputs `[64, 512·12]` as `x b n f`, the two states `[2, 64, 512·64]` as
  `h l b n u`, the support matrix, the weights `[(in · 3), out]` with the row `i · 3 + k` as `W i k o`, the biases.
  A layer's panel is the input features beside a state (`mk0`: 12 + 64 features; `mk1`: 64 + 64).  `H0` is layer 0's new
  state, `H1` layer 1's (its input is `H0`), each the cell of `Cert.Spec`; `flat` lays a state `[64, 512, 64]` out as the
  programs return it, `[64, 512·64]`.
-/
import proofs.«127843_g48979807044056_cont_8to1c4_176_1_alg».proof.Proof.Spec
import Idealize.ShloMosaic.Lib.ValueIdx

noncomputable section

namespace Cert.Layer

open Idealize.ShloMosaic Idealize.ShloMosaic.ValueIdx

/-- Input feature `f` of node `n` of batch element `b`. -/
def X0 (A0 : (⟨2, ![64, 6144]⟩ : Shape).Idx → EReal) (b : Fin 64) (n : Fin 512) (f : Fin 12) : EReal :=
  A0 (ix2 b ⟨n.val * 12 + f.val, by omega⟩)

/-- Unit `u` of node `n` of batch element `b` of layer `l`'s incoming state. -/
def Hst (A1 : (⟨3, ![2, 64, 32768]⟩ : Shape).Idx → EReal) (l : Fin 2) (b : Fin 64) (n : Fin 512) (u : Fin 64) : EReal :=
  A1 (ix3 l b ⟨n.val * 64 + u.val, by omega⟩)

/-- The support matrix by coordinates. -/
def Sup (A2 : (⟨2, ![512, 512]⟩ : Shape).Idx → EReal) (n m : Fin 512) : EReal := A2 (ix2 n m)

/-- Layer 0's gate weights: row `i · 3 + k` is feature `i`, Chebyshev order `k`. -/
def W0g (A3 : (⟨2, ![228, 128]⟩ : Shape).Idx → EReal) (i : Fin 76) (k : Fin 3) (o : Fin 128) : EReal :=
  A3 (ix2 ⟨i.val * 3 + k.val, by omega⟩ o)
/-- Layer 0's candidate weights. -/
def W0c (A5 : (⟨2, ![228, 64]⟩ : Shape).Idx → EReal) (i : Fin 76) (k : Fin 3) (o : Fin 64) : EReal :=
  A5 (ix2 ⟨i.val * 3 + k.val, by omega⟩ o)
/-- Layer 1's gate weights. -/
def W1g (A7 : (⟨2, ![384, 128]⟩ : Shape).Idx → EReal) (i : Fin 128) (k : Fin 3) (o : Fin 128) : EReal :=
  A7 (ix2 ⟨i.val * 3 + k.val, by omega⟩ o)
/-- Layer 1's candidate weights. -/
def W1c (A9 : (⟨2, ![384, 64]⟩ : Shape).Idx → EReal) (i : Fin 128) (k : Fin 3) (o : Fin 64) : EReal :=
  A9 (ix2 ⟨i.val * 3 + k.val, by omega⟩ o)
/-- A gate bias by coordinate. -/
def Bg (A : (⟨1, ![128]⟩ : Shape).Idx → EReal) (o : Fin 128) : EReal := A (ix1 o)
/-- A candidate bias by coordinate. -/
def Bc (A : (⟨1, ![64]⟩ : Shape).Idx → EReal) (o : Fin 64) : EReal := A (ix1 o)

/-- Layer 0's panel: 12 input features, then the 64 units of a state. -/
def mk0 (x : Fin 512 → Fin 12 → EReal) (hh : Fin 512 → Fin 64 → EReal) (n : Fin 512) (i : Fin 76) : EReal :=
  if h : i.val < 12 then x n ⟨i.val, h⟩ else hh n ⟨i.val - 12, by omega⟩

/-- Layer 1's panel: the 64 units of layer 0's new state, then the 64 units of a state. -/
def mk1 (x : Fin 512 → Fin 64 → EReal) (hh : Fin 512 → Fin 64 → EReal) (n : Fin 512) (i : Fin 128) : EReal :=
  if h : i.val < 64 then x n ⟨i.val, h⟩ else hh n ⟨i.val - 64, by omega⟩

/-- Layer 0's new state. -/
def H0 (A0 : (⟨2, ![64, 6144]⟩ : Shape).Idx → EReal) (A1 : (⟨3, ![2, 64, 32768]⟩ : Shape).Idx → EReal)
    (A2 : (⟨2, ![512, 512]⟩ : Shape).Idx → EReal) (A3 : (⟨2, ![228, 128]⟩ : Shape).Idx → EReal)
    (A4 : (⟨1, ![128]⟩ : Shape).Idx → EReal) (A5 : (⟨2, ![228, 64]⟩ : Shape).Idx → EReal)
    (A6 : (⟨1, ![64]⟩ : Shape).Idx → EReal) (b : Fin 64) (n : Fin 512) (u : Fin 64) : EReal :=
  Spec.cell (Sup A2) (mk0 (X0 A0 b)) (Hst A1 0 b) (W0g A3) (Bg A4) (W0c A5) (Bc A6) n u

/-- Layer 1's new state, over layer 0's new state `x`. -/
def H1 (x : Fin 64 → Fin 512 → Fin 64 → EReal) (A1 : (⟨3, ![2, 64, 32768]⟩ : Shape).Idx → EReal)
    (A2 : (⟨2, ![512, 512]⟩ : Shape).Idx → EReal) (A7 : (⟨2, ![384, 128]⟩ : Shape).Idx → EReal)
    (A8 : (⟨1, ![128]⟩ : Shape).Idx → EReal) (A9 : (⟨2, ![384, 64]⟩ : Shape).Idx → EReal)
    (A10 : (⟨1, ![64]⟩ : Shape).Idx → EReal) (b : Fin 64) (n : Fin 512) (u : Fin 64) : EReal :=
  Spec.cell (Sup A2) (mk1 (x b)) (Hst A1 1 b) (W1g A7) (Bg A8) (W1c A9) (Bc A10) n u

/-- A state `[64, 512, 64]` laid out `[64, 512 · 64]`: entry `(b, q)` is node `q / 64`, unit `q % 64`. -/
def flat (f : Fin 64 → Fin 512 → Fin 64 → EReal) : (⟨2, ![64, 32768]⟩ : Shape).Idx → EReal := fun j =>
  f ⟨(j 0).val, idx2_lt0 j⟩ ⟨(j 1).val / 64, by have := idx2_lt1 j; omega⟩ ⟨(j 1).val % 64, Nat.mod_lt _ (by decide)⟩

theorem flat_apply (f : Fin 64 → Fin 512 → Fin 64 → EReal) (b : Fin 64) (n : Fin 512) (u : Fin 64) :
    flat f (ix2 b ⟨n.val * 64 + u.val, by omega⟩) = f b n u := by
  unfold flat
  refine congr (congr (congrArg f (Fin.ext ?_)) (Fin.ext ?_)) (Fin.ext ?_)
  · rfl
  · show (n.val * 64 + u.val) / 64 = n.val
    omega
  · show (n.val * 64 + u.val) % 64 = u.val
    omega

/-- Every index of the flat layout is `(b, n · 64 + u)` for its own coordinates. -/
theorem flat_eq_of_apply (g : (⟨2, ![64, 32768]⟩ : Shape).Idx → EReal) (f : Fin 64 → Fin 512 → Fin 64 → EReal)
    (h : ∀ (b : Fin 64) (n : Fin 512) (u : Fin 64), g (ix2 b ⟨n.val * 64 + u.val, by omega⟩) = f b n u) : g = flat f := by
  funext j
  have h1 := idx2_lt1 j
  have h0 := idx2_lt0 j
  have ej : j = ix2 (⟨(j 0).val, h0⟩ : Fin 64)
      (⟨(⟨(j 1).val / 64, by omega⟩ : Fin 512).val * 64 + (⟨(j 1).val % 64, Nat.mod_lt _ (by decide)⟩ : Fin 64).val, by
        show (j 1).val / 64 * 64 + (j 1).val % 64 < 32768; omega⟩ : Fin 32768) := by
    refine (eq_ix2 j).trans ?_
    refine congr (congrArg ix2 (Fin.ext rfl)) (Fin.ext ?_)
    show (j 1).val = (j 1).val / 64 * 64 + (j 1).val % 64
    omega
  rw [ej, h, flat_apply]

end Cert.Layer

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KPay0.lean ====
/-
  The arithmetic of the first layer's kernel body, read at one output index, is the diffusion-convolution GRU cell of
  `Cert.Spec` over layer 0's panel (12 input features beside the 64 units of a state).

  First three facts that do not depend on the layer's feature count: a weight slice of one Chebyshev order read at an
  index, one diffusion step as a sum over the nodes, and the projection (the three Chebyshev terms against their weight
  slices, plus the bias row) as `Cert.Spec.proj`.  Then layer 0's panel (the two-piece concatenation along the feature
  axis), its gates, the reset and update gates as column ranges of the gates, and the new state.
-/
import proofs.«127843_g48979807044056_cont_8to1c4_176_1_alg».proof.Proof.Gen.KernelIdeal.Skeleton
import proofs.«127843_g48979807044056_cont_8to1c4_176_1_alg».proof.Proof.Spec
import proofs.«127843_g48979807044056_cont_8to1c4_176_1_alg».proof.Proof.Layer
import proofs.«127843_g48979807044056_cont_8to1c4_176_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay0

open Cert.KernelIdeal Cert.KernelIdeal.Gen Idealize.ShloMosaic Idealize.ShloMosaic.ValueIdx

/-! ## Facts for any feature count -/

/-- Weight slice of Chebyshev order `k`: the `[3, p, c]` weights cut to order `k` and viewed `[p, c]` read, at
    `(i, o)`, the weights at `(k, i, o)`. -/
theorem orderSlice_apply {α : Type} {a p c : Nat} (k : Nat) (W : (⟨3, ![a, p, c]⟩ : Shape).Idx → α)
    (hs : (⟨3, ![a, p, c]⟩ : Shape).Slices ![k, 0, 0] ⟨3, ![1, p, c]⟩)
    (hc : (⟨3, ![1, p, c]⟩ : Shape).ShapeCasts ⟨2, ![p, c]⟩) (kk : Fin a) (hk : kk.val = k) (i : Fin p) (o : Fin c) :
    shapeCast ⟨2, ![p, c]⟩ (extractStridedSlice ⟨3, ![1, p, c]⟩ ![k, 0, 0] W hs) hc (ix2 i o) = W (ix3 kk i o) :=
  (shapeCast_1ab_ab_apply _ hc i o).trans
    (extractStridedSlice_apply _ W hs _ _ fun ax => by
      match ax with
      | ⟨0, _⟩ => exact hk.trans (Nat.add_zero _).symm
      | ⟨1, _⟩ => exact (Nat.zero_add _).symm
      | ⟨2, _⟩ => exact (Nat.zero_add _).symm)

/-- One diffusion step: the support matrix times a panel, into the zero accumulator, is `Cert.Spec.diff`. -/
theorem diffuse_apply {p : Nat} (D : DotDims ⟨2, ![512, 512]⟩ ⟨2, ![512, p]⟩ ⟨2, ![512, p]⟩) (hD : D = DotDims.plain 512 512 p)
    (S : FVec Ideal ⟨2, ![512, 512]⟩ .f32) (g : FVec Ideal ⟨2, ![512, p]⟩ .f32)
    (Sf : Fin 512 → Fin 512 → EReal) (hS : ∀ n m, S (ix2 n m) = Sf n m)
    (G : Fin 512 → Fin p → EReal) (hg : ∀ m i, g (ix2 m i) = G m i) (n : Fin 512) (i : Fin p) :
    matmul D none S g (constant (F := Ideal) ⟨2, ![512, p]⟩ .f32 0x00000000#32) (ix2 n i) = Cert.Spec.diff Sf G n i := by
  refine (Cert.LibPlainDot.matmul_zero_apply D hD none S g n i).trans ?_
  unfold Cert.Spec.diff
  exact Finset.sum_congr rfl fun m _ => by rw [hS, hg]

/-- The projection of a panel: the panel, its diffusion and its second Chebyshev term, each against its order's
    weight slice, summed, plus the bias row, read at `(n, o)`, is `Cert.Spec.proj`. -/
theorem proj_apply {p c : Nat}
    (D0 : DotDims ⟨2, ![512, 512]⟩ ⟨2, ![512, p]⟩ ⟨2, ![512, p]⟩) (hD0 : D0 = DotDims.plain 512 512 p)
    (D1 : DotDims ⟨2, ![512, p]⟩ ⟨2, ![p, c]⟩ ⟨2, ![512, c]⟩) (hD1 : D1 = DotDims.plain 512 p c)
    (S : FVec Ideal ⟨2, ![512, 512]⟩ .f32) (g : FVec Ideal ⟨2, ![512, p]⟩ .f32)
    (W : FVec Ideal ⟨3, ![3, p, c]⟩ .f32) (b : FVec Ideal ⟨2, ![1, c]⟩ .f32)
    (hs0 : (⟨3, ![3, p, c]⟩ : Shape).Slices ![0, 0, 0] ⟨3, ![1, p, c]⟩)
    (hs1 : (⟨3, ![3, p, c]⟩ : Shape).Slices ![1, 0, 0] ⟨3, ![1, p, c]⟩)
    (hs2 : (⟨3, ![3, p, c]⟩ : Shape).Slices ![2, 0, 0] ⟨3, ![1, p, c]⟩)
    (hc : (⟨3, ![1, p, c]⟩ : Shape).ShapeCasts ⟨2, ![p, c]⟩)
    (hb : (⟨2, ![1, c]⟩ : Shape).Broadcasts ⟨2, ![512, c]⟩)
    (Sf : Fin 512 → Fin 512 → EReal) (hS : ∀ n m, S (ix2 n m) = Sf n m)
    (G : Fin 512 → Fin p → EReal) (hg : ∀ m i, g (ix2 m i) = G m i)
    (Wf : Fin p → Fin 3 → Fin c → EReal) (hW : ∀ k i o, W (ix3 k i o) = Wf i k o)
    (bf : Fin c → EReal) (hbf : ∀ o, b (ix2 (0 : Fin 1) o) = bf o) (n : Fin 512) (o : Fin c) :
    addf (addf (addf
        (matmul D1 none g (shapeCast ⟨2, ![p, c]⟩ (extractStridedSlice ⟨3, ![1, p, c]⟩ ![0, 0, 0] W hs0) hc)
          (constant (F := Ideal) ⟨2, ![512, c]⟩ .f32 0x00000000#32))
        (matmul D1 none (matmul D0 none S g (constant (F := Ideal) ⟨2, ![512, p]⟩ .f32 0x00000000#32))
          (shapeCast ⟨2, ![p, c]⟩ (extractStridedSlice ⟨3, ![1, p, c]⟩ ![1, 0, 0] W hs1) hc)
          (constant (F := Ideal) ⟨2, ![512, c]⟩ .f32 0x00000000#32)))
        (matmul D1 none
          (subf (mulf (broadcast ⟨2, ![512, p]⟩ (Scalar.ofBits (F := Ideal) .f32 0x40000000#32))
              (matmul D0 none S (matmul D0 none S g (constant (F := Ideal) ⟨2, ![512, p]⟩ .f32 0x00000000#32))
                (constant (F := Ideal) ⟨2, ![512, p]⟩ .f32 0x00000000#32))) g)
          (shapeCast ⟨2, ![p, c]⟩ (extractStridedSlice ⟨3, ![1, p, c]⟩ ![2, 0, 0] W hs2) hc)
          (constant (F := Ideal) ⟨2, ![512, c]⟩ .f32 0x00000000#32)))
      (broadcastTo ⟨2, ![512, c]⟩ b hb) (ix2 n o)
      = Cert.Spec.proj Sf G Wf bf n o := by
  unfold Cert.Spec.proj
  refine congrArg₂ (· + ·) (congrArg₂ (· + ·) (congrArg₂ (· + ·) ?_ ?_) ?_) ?_
  · refine (Cert.LibPlainDot.matmul_zero_apply D1 hD1 none _ _ n o).trans (Finset.sum_congr rfl fun i _ => ?_)
    rw [hg, orderSlice_apply 0 W hs0 hc 0 rfl i o, hW]
  · refine (Cert.LibPlainDot.matmul_zero_apply D1 hD1 none _ _ n o).trans (Finset.sum_congr rfl fun i _ => ?_)
    rw [diffuse_apply D0 hD0 S g Sf hS G hg n i, orderSlice_apply 1 W hs1 hc 1 rfl i o, hW]
  · refine (Cert.LibPlainDot.matmul_zero_apply D1 hD1 none _ _ n o).trans (Finset.sum_congr rfl fun i _ => ?_)
    rw [orderSlice_apply 2 W hs2 hc 2 rfl i o, hW]
    refine congrArg (· * Wf i 2 o) ?_
    unfold Cert.Spec.cheb
    show Ideal.ofBits .f32 0x40000000#32 * matmul D0 none S _ _ (ix2 n i) - g (ix2 n i) = _
    rw [diffuse_apply D0 hD0 S _ Sf hS (Cert.Spec.diff Sf G) (fun m j => diffuse_apply D0 hD0 S g Sf hS G hg m j) n i, hg]
  · exact (broadcastTo_1b_ab_apply b hb n o).trans (hbf o)

/-! ## Layer 0 -/

/-- Layer 0's panel: the 12 input features beside the 64 units of a state. At `(n, i)` the concatenation along the
    feature axis reads the features when `i < 12` and the state at `i - 12` otherwise. -/
theorem panel_apply (x : FVec Ideal S512x12 .f32) (h : FVec Ideal S512x64 .f32)
    (hcat : Shape.Concatenates [S512x12, S512x64] S512x76 1)
    (X : Fin 512 → Fin 12 → EReal) (hx : ∀ n f, x (ix2 n f) = X n f)
    (H : Fin 512 → Fin 64 → EReal) (hh : ∀ n u, h (ix2 n u) = H n u) (n : Fin 512) (i : Fin 76) :
    concatenate S512x76 1 [⟨S512x12, x⟩, ⟨S512x64, h⟩] hcat (ix2 n i) = Cert.Layer.mk0 X H n i := by
  unfold Cert.Layer.mk0
  split
  · next hi =>
    refine (concatenate_pair_apply_left _ x h hcat (ix2 n i) rfl (ix2 n ⟨i.val, hi⟩) fun b => ?_).trans (hx _ _)
    match b with
    | ⟨0, _⟩ => rfl
    | ⟨1, _⟩ => rfl
  · next hi =>
    refine (concatenate_pair_apply_right _ x h hcat (ix2 n i) rfl rfl (ix2 n ⟨i.val - 12, by omega⟩)
      (fun b hb => ?_) ?_).trans (hh _ _)
    · match b with
      | ⟨0, _⟩ => rfl
      | ⟨1, _⟩ => exact absurd (Fin.ext rfl) hb
    · show i.val - 12 + 12 = i.val
      omega

/-- The feature block with its leading unit axis dropped. -/
theorem feat_apply (x0 : Vec Ideal S1x512x12 .f32) (n : Fin 512) (f : Fin 12) :
    k0_pay2 (F := Ideal) x0 (ix2 n f) = x0 (ix3 (0 : Fin 1) n f) :=
  shapeCast_1ab_ab_apply x0 _ n f

/-- The state block with its leading unit axis dropped. -/
theorem state_apply (x1 : Vec Ideal S1x512x64 .f32) (n : Fin 512) (u : Fin 64) :
    k0_pay3 (F := Ideal) x1 (ix2 n u) = x1 (ix3 (0 : Fin 1) n u) :=
  shapeCast_1ab_ab_apply x1 _ n u

/-- The candidate weights are cast to their own shape. -/
theorem candW_eq (x5 : Vec Ideal S3x76x64 .f32) : k0_pay4 (F := Ideal) x5 = x5 := shapeCast_self x5 _

/-- The candidate bias is cast to its own shape. -/
theorem candB_eq (x6 : Vec Ideal S1x64 .f32) : k0_pay5 (F := Ideal) x6 = x6 := shapeCast_self x6 _

/-- The gates at `(n, o)`: the logistic function of the projection of the panel over the state. -/
theorem gates_apply (x0 : Vec Ideal S1x512x12 .f32) (x1 : Vec Ideal S1x512x64 .f32) (x2 : Vec Ideal S512x512 .f32)
    (x3 : Vec Ideal S3x76x128 .f32) (x4 : Vec Ideal S1x128 .f32) (n : Fin 512) (o : Fin 128) :
    k0_pay6 (F := Ideal) x2 x0 x1 x3 x4 (ix2 n o)
      = Cert.Spec.gates (fun n m => x2 (ix2 n m)) (Cert.Layer.mk0 fun n f => x0 (ix3 (0 : Fin 1) n f))
          (fun n u => x1 (ix3 (0 : Fin 1) n u)) (fun i k o => x3 (ix3 k i o)) (fun o => x4 (ix2 (0 : Fin 1) o)) n o := by
  unfold Cert.Spec.gates k0_pay6
  refine congrArg Ideal.logistic ?_
  exact proj_apply dot_S512x512_S512x76_S512x76_1_0_0_1_n_n rfl dot_S512x76_S76x128_S512x128_1_0_0_1_n_n rfl
    x2 _ _ _ _ _ _ _ _ _ (fun _ _ => rfl)
    _ (fun m i => panel_apply _ _ _ _ (feat_apply x0) _ (state_apply x1) m i)
    _ (fun k i o => congrFun (shapeCast_self x3 _) (ix3 k i o))
    _ (fun o => congrFun (shapeCast_self x4 _) (ix2 (0 : Fin 1) o)) n o

/-- The reset gate: columns `0 … 63` of the gates. -/
theorem rgate_apply (x0 : Vec Ideal S1x512x12 .f32) (x1 : Vec Ideal S1x512x64 .f32) (x2 : Vec Ideal S512x512 .f32)
    (x3 : Vec Ideal S3x76x128 .f32) (x4 : Vec Ideal S1x128 .f32) (n : Fin 512) (u : Fin 64) :
    k0_pay7 (F := Ideal) x2 x0 x1 x3 x4 (ix2 n u)
      = Cert.Spec.rgate (fun n m => x2 (ix2 n m)) (Cert.Layer.mk0 fun n f => x0 (ix3 (0 : Fin 1) n f))
          (fun n u => x1 (ix3 (0 : Fin 1) n u)) (fun i k o => x3 (ix3 k i o)) (fun o => x4 (ix2 (0 : Fin 1) o)) n u := by
  unfold Cert.Spec.rgate k0_pay7
  exact (slice2_axis1_apply 0 (k0_pay6 (F := Ideal) x2 x0 x1 x3 x4) _ n u ⟨u.val, by omega⟩ (Nat.zero_add _).symm).trans
    (gates_apply x0 x1 x2 x3 x4 n _)

/-- The update gate: columns `64 … 127` of the gates. -/
theorem zgate_apply (x0 : Vec Ideal S1x512x12 .f32) (x1 : Vec Ideal S1x512x64 .f32) (x2 : Vec Ideal S512x512 .f32)
    (x3 : Vec Ideal S3x76x128 .f32) (x4 : Vec Ideal S1x128 .f32) (n : Fin 512) (u : Fin 64) :
    k0_pay8 (F := Ideal) x2 x0 x1 x3 x4 (ix2 n u)
      = Cert.Spec.zgate (fun n m => x2 (ix2 n m)) (Cert.Layer.mk0 fun n f => x0 (ix3 (0 : Fin 1) n f))
          (fun n u => x1 (ix3 (0 : Fin 1) n u)) (fun i k o => x3 (ix3 k i o)) (fun o => x4 (ix2 (0 : Fin 1) o)) n u := by
  unfold Cert.Spec.zgate k0_pay8
  exact (slice2_axis1_apply 64 (k0_pay6 (F := Ideal) x2 x0 x1 x3 x4) _ n u ⟨64 + u.val, by omega⟩ rfl).trans
    (gates_apply x0 x1 x2 x3 x4 n _)

/-- The new state at `(n, u)` over any reset gate `R` and update gate `Z`: the update gate times the state plus one
    minus the update gate times the hyperbolic tangent of the projection of the panel over `R ⊙ H`. -/
theorem blend_apply (S : FVec Ideal S512x512 .f32) (x : FVec Ideal S512x12 .f32) (h : FVec Ideal S512x64 .f32)
    (Wc : FVec Ideal S3x76x64 .f32) (bc : FVec Ideal S1x64 .f32) (r z : FVec Ideal S512x64 .f32)
    (Sf : Fin 512 → Fin 512 → EReal) (hS : ∀ n m, S (ix2 n m) = Sf n m)
    (X : Fin 512 → Fin 12 → EReal) (hx : ∀ n f, x (ix2 n f) = X n f)
    (H : Fin 512 → Fin 64 → EReal) (hh : ∀ n u, h (ix2 n u) = H n u)
    (Wf : Fin 76 → Fin 3 → Fin 64 → EReal) (hW : ∀ k i o, Wc (ix3 k i o) = Wf i k o)
    (bf : Fin 64 → EReal) (hbf : ∀ o, bc (ix2 (0 : Fin 1) o) = bf o)
    (R : Fin 512 → Fin 64 → EReal) (hr : ∀ n u, r (ix2 n u) = R n u)
    (Z : Fin 512 → Fin 64 → EReal) (hz : ∀ n u, z (ix2 n u) = Z n u) (n : Fin 512) (u : Fin 64) :
    k0_pay1 (F := Ideal) S x h Wc bc r z (ix3 (0 : Fin 1) n u)
      = Z n u * H n u + (Cert.Spec.one - Z n u)
          * Ideal.tanh (Cert.Spec.proj Sf (Cert.Layer.mk0 X fun n' u' => R n' u' * H n' u') Wf bf n u) := by
  unfold k0_pay1
  refine (shapeCast_ab_1ab_apply _ _ (0 : Fin 1) n u).trans ?_
  refine congrArg₂ (· + ·) (congrArg₂ (· * ·) (hz n u) (hh n u))
    (congrArg₂ (· * ·) (congrArg (Cert.Spec.one - ·) (hz n u)) (congrArg Ideal.tanh ?_))
  exact proj_apply dot_S512x512_S512x76_S512x76_1_0_0_1_n_n rfl dot_S512x76_S76x64_S512x64_1_0_0_1_n_n rfl
    S _ Wc bc _ _ _ _ _ Sf hS
    _ (fun m i => panel_apply _ _ _ X hx _ (fun n' u' => congrArg₂ (· * ·) (hr n' u') (hh n' u')) m i)
    Wf hW bf hbf n u

/-- The body's stored value at `(0, n, u)` is the cell's new state at `(n, u)`. -/
theorem pay_apply (x0 : Vec Ideal S1x512x12 .f32) (x1 : Vec Ideal S1x512x64 .f32) (x2 : Vec Ideal S512x512 .f32) (x3 : Vec Ideal S3x76x128 .f32)
    (x4 : Vec Ideal S1x128 .f32) (x5 : Vec Ideal S3x76x64 .f32) (x6 : Vec Ideal S1x64 .f32) (n : Fin 512) (u : Fin 64) :
    k0_pay1 (F := Ideal) x2 (k0_pay2 x0) (k0_pay3 x1) (k0_pay4 x5) (k0_pay5 x6) (k0_pay7 x2 x0 x1 x3 x4) (k0_pay8 x2 x0 x1 x3 x4) (ix3 (0 : Fin 1) n u)
      = Cert.Spec.cell (fun n m => x2 (ix2 n m)) (Cert.Layer.mk0 fun n f => x0 (ix3 (0 : Fin 1) n f)) (fun n u => x1 (ix3 (0 : Fin 1) n u))
          (fun i k o => x3 (ix3 k i o)) (fun o => x4 (ix2 (0 : Fin 1) o)) (fun i k o => x5 (ix3 k i o)) (fun o => x6 (ix2 (0 : Fin 1) o)) n u := by
  unfold Cert.Spec.cell Cert.Spec.cand
  exact blend_apply x2 (k0_pay2 x0) (k0_pay3 x1) (k0_pay4 x5) (k0_pay5 x6) (k0_pay7 x2 x0 x1 x3 x4) (k0_pay8 x2 x0 x1 x3 x4)
    _ (fun _ _ => rfl) _ (feat_apply x0) _ (state_apply x1)
    _ (fun k i o => congrFun (candW_eq x5) (ix3 k i o)) _ (fun o => congrFun (candB_eq x6) (ix2 (0 : Fin 1) o))
    _ (rgate_apply x0 x1 x2 x3 x4) _ (zgate_apply x0 x1 x2 x3 x4) n u

end Cert.KernelIdeal.Pay0

end
-- ==== Proof.KPay1.lean ====
/-
  The arithmetic of the second layer's kernel body, read at one output index, is the diffusion-convolution GRU cell of
  `Cert.Spec` over layer 1's panel (the 64 units of layer 0's new state beside the 64 units of a state).

  The weight slice of one Chebyshev order, the diffusion step and the projection are the facts proved for any feature
  count beside layer 0's payloads (`Cert.KernelIdeal.Pay0.proj_apply`); here they are used at 128 features: the panel (the
  two-piece concatenation along the feature axis), its gates, the reset and update gates as column ranges of the gates,
  and the new state.
-/
import proofs.«127843_g48979807044056_cont_8to1c4_176_1_alg».proof.Proof.KPay0

noncomputable section

namespace Cert.KernelIdeal.Pay1

open Cert.KernelIdeal Cert.KernelIdeal.Gen Idealize.ShloMosaic Idealize.ShloMosaic.ValueIdx

/-- Layer 1's panel: the 64 units of layer 0's new state beside the 64 units of a state. At `(n, i)` the concatenation
    along the feature axis reads the first block when `i < 64` and the state at `i - 64` otherwise. -/
theorem panel_apply (x : FVec Ideal S512x64 .f32) (h : FVec Ideal S512x64 .f32)
    (hcat : Shape.Concatenates [S512x64, S512x64] S512x128 1)
    (X : Fin 512 → Fin 64 → EReal) (hx : ∀ n f, x (ix2 n f) = X n f)
    (H : Fin 512 → Fin 64 → EReal) (hh : ∀ n u, h (ix2 n u) = H n u) (n : Fin 512) (i : Fin 128) :
    concatenate S512x128 1 [⟨S512x64, x⟩, ⟨S512x64, h⟩] hcat (ix2 n i) = Cert.Layer.mk1 X H n i := by
  unfold Cert.Layer.mk1
  split
  · next hi =>
    refine (concatenate_pair_apply_left _ x h hcat (ix2 n i) rfl (ix2 n ⟨i.val, hi⟩) fun b => ?_).trans (hx _ _)
    match b with
    | ⟨0, _⟩ => rfl
    | ⟨1, _⟩ => rfl
  · next hi =>
    refine (concatenate_pair_apply_right _ x h hcat (ix2 n i) rfl rfl (ix2 n ⟨i.val - 64, by omega⟩)
      (fun b hb => ?_) ?_).trans (hh _ _)
    · match b with
      | ⟨0, _⟩ => rfl
      | ⟨1, _⟩ => exact absurd (Fin.ext rfl) hb
    · show i.val - 64 + 64 = i.val
      omega

/-- The input block (layer 0's new state) with its leading unit axis dropped. -/
theorem feat_apply (x0 : Vec Ideal S1x512x64 .f32) (n : Fin 512) (f : Fin 64) :
    k1_pay2 (F := Ideal) x0 (ix2 n f) = x0 (ix3 (0 : Fin 1) n f) :=
  shapeCast_1ab_ab_apply x0 _ n f

/-- The state block with its leading unit axis dropped. -/
theorem state_apply (x1 : Vec Ideal S1x512x64 .f32) (n : Fin 512) (u : Fin 64) :
    k1_pay3 (F := Ideal) x1 (ix2 n u) = x1 (ix3 (0 : Fin 1) n u) :=
  shapeCast_1ab_ab_apply x1 _ n u

/-- The candidate weights are cast to their own shape. -/
theorem candW_eq (x5 : Vec Ideal S3x128x64 .f32) : k1_pay4 (F := Ideal) x5 = x5 := shapeCast_self x5 _

/-- The candidate bias is cast to its own shape. -/
theorem candB_eq (x6 : Vec Ideal S1x64 .f32) : k1_pay5 (F := Ideal) x6 = x6 := shapeCast_self x6 _

/-- The gates at `(n, o)`: the logistic function of the projection of the panel over the state. -/
theorem gates_apply (x0 : Vec Ideal S1x512x64 .f32) (x1 : Vec Ideal S1x512x64 .f32) (x2 : Vec Ideal S512x512 .f32)
    (x3 : Vec Ideal S3x128x128 .f32) (x4 : Vec Ideal S1x128 .f32) (n : Fin 512) (o : Fin 128) :
    k1_pay6 (F := Ideal) x2 x0 x1 x3 x4 (ix2 n o)
      = Cert.Spec.gates (fun n m => x2 (ix2 n m)) (Cert.Layer.mk1 fun n f => x0 (ix3 (0 : Fin 1) n f))
          (fun n u => x1 (ix3 (0 : Fin 1) n u)) (fun i k o => x3 (ix3 k i o)) (fun o => x4 (ix2 (0 : Fin 1) o)) n o := by
  unfold Cert.Spec.gates k1_pay6
  refine congrArg Ideal.logistic ?_
  exact Cert.KernelIdeal.Pay0.proj_apply dot_S512x512_S512x128_S512x128_1_0_0_1_n_n rfl dot_S512x128_S128x128_S512x128_1_0_0_1_n_n rfl
    x2 _ _ _ _ _ _ _ _ _ (fun _ _ => rfl)
    _ (fun m i => panel_apply _ _ _ _ (feat_apply x0) _ (state_apply x1) m i)
    _ (fun k i o => congrFun (shapeCast_self x3 _) (ix3 k i o))
    _ (fun o => congrFun (shapeCast_self x4 _) (ix2 (0 : Fin 1) o)) n o

/-- The reset gate: columns `0 … 63` of the gates. -/
theorem rgate_apply (x0 : Vec Ideal S1x512x64 .f32) (x1 : Vec Ideal S1x512x64 .f32) (x2 : Vec Ideal S512x512 .f32)
    (x3 : Vec Ideal S3x128x128 .f32) (x4 : Vec Ideal S1x128 .f32) (n : Fin 512) (u : Fin 64) :
    k1_pay7 (F := Ideal) x2 x0 x1 x3 x4 (ix2 n u)
      = Cert.Spec.rgate (fun n m => x2 (ix2 n m)) (Cert.Layer.mk1 fun n f => x0 (ix3 (0 : Fin 1) n f))
          (fun n u => x1 (ix3 (0 : Fin 1) n u)) (fun i k o => x3 (ix3 k i o)) (fun o => x4 (ix2 (0 : Fin 1) o)) n u := by
  unfold Cert.Spec.rgate k1_pay7
  exact (slice2_axis1_apply 0 (k1_pay6 (F := Ideal) x2 x0 x1 x3 x4) _ n u ⟨u.val, by omega⟩ (Nat.zero_add _).symm).trans
    (gates_apply x0 x1 x2 x3 x4 n _)

/-- The update gate: columns `64 … 127` of the gates. -/
theorem zgate_apply (x0 : Vec Ideal S1x512x64 .f32) (x1 : Vec Ideal S1x512x64 .f32) (x2 : Vec Ideal S512x512 .f32)
    (x3 : Vec Ideal S3x128x128 .f32) (x4 : Vec Ideal S1x128 .f32) (n : Fin 512) (u : Fin 64) :
    k1_pay8 (F := Ideal) x2 x0 x1 x3 x4 (ix2 n u)
      = Cert.Spec.zgate (fun n m => x2 (ix2 n m)) (Cert.Layer.mk1 fun n f => x0 (ix3 (0 : Fin 1) n f))
          (fun n u => x1 (ix3 (0 : Fin 1) n u)) (fun i k o => x3 (ix3 k i o)) (fun o => x4 (ix2 (0 : Fin 1) o)) n u := by
  unfold Cert.Spec.zgate k1_pay8
  exact (slice2_axis1_apply 64 (k1_pay6 (F := Ideal) x2 x0 x1 x3 x4) _ n u ⟨64 + u.val, by omega⟩ rfl).trans
    (gates_apply x0 x1 x2 x3 x4 n _)

/-- The new state at `(n, u)` over any reset gate `R` and update gate `Z`: the update gate times the state plus one
    minus the update gate times the hyperbolic tangent of the projection of the panel over `R ⊙ H`. -/
theorem blend_apply (S : FVec Ideal S512x512 .f32) (x : FVec Ideal S512x64 .f32) (h : FVec Ideal S512x64 .f32)
    (Wc : FVec Ideal S3x128x64 .f32) (bc : FVec Ideal S1x64 .f32) (r z : FVec Ideal S512x64 .f32)
    (Sf : Fin 512 → Fin 512 → EReal) (hS : ∀ n m, S (ix2 n m) = Sf n m)
    (X : Fin 512 → Fin 64 → EReal) (hx : ∀ n f, x (ix2 n f) = X n f)
    (H : Fin 512 → Fin 64 → EReal) (hh : ∀ n u, h (ix2 n u) = H n u)
    (Wf : Fin 128 → Fin 3 → Fin 64 → EReal) (hW : ∀ k i o, Wc (ix3 k i o) = Wf i k o)
    (bf : Fin 64 → EReal) (hbf : ∀ o, bc (ix2 (0 : Fin 1) o) = bf o)
    (R : Fin 512 → Fin 64 → EReal) (hr : ∀ n u, r (ix2 n u) = R n u)
    (Z : Fin 512 → Fin 64 → EReal) (hz : ∀ n u, z (ix2 n u) = Z n u) (n : Fin 512) (u : Fin 64) :
    k1_pay1 (F := Ideal) S x h Wc bc r z (ix3 (0 : Fin 1) n u)
      = Z n u * H n u + (Cert.Spec.one - Z n u)
          * Ideal.tanh (Cert.Spec.proj Sf (Cert.Layer.mk1 X fun n' u' => R n' u' * H n' u') Wf bf n u) := by
  unfold k1_pay1
  refine (shapeCast_ab_1ab_apply _ _ (0 : Fin 1) n u).trans ?_
  refine congrArg₂ (· + ·) (congrArg₂ (· * ·) (hz n u) (hh n u))
    (congrArg₂ (· * ·) (congrArg (Cert.Spec.one - ·) (hz n u)) (congrArg Ideal.tanh ?_))
  exact Cert.KernelIdeal.Pay0.proj_apply dot_S512x512_S512x128_S512x128_1_0_0_1_n_n rfl dot_S512x128_S128x64_S512x64_1_0_0_1_n_n rfl
    S _ Wc bc _ _ _ _ _ Sf hS
    _ (fun m i => panel_apply _ _ _ X hx _ (fun n' u' => congrArg₂ (· * ·) (hr n' u') (hh n' u')) m i)
    Wf hW bf hbf n u

/-- The body's stored value at `(0, n, u)` is the cell's new state at `(n, u)`. -/
theorem pay_apply (x0 : Vec Ideal S1x512x64 .f32) (x1 : Vec Ideal S1x512x64 .f32) (x2 : Vec Ideal S512x512 .f32) (x3 : Vec Ideal S3x128x128 .f32)
    (x4 : Vec Ideal S1x128 .f32) (x5 : Vec Ideal S3x128x64 .f32) (x6 : Vec Ideal S1x64 .f32) (n : Fin 512) (u : Fin 64) :
    k1_pay1 (F := Ideal) x2 (k1_pay2 x0) (k1_pay3 x1) (k1_pay4 x5) (k1_pay5 x6) (k1_pay7 x2 x0 x1 x3 x4) (k1_pay8 x2 x0 x1 x3 x4) (ix3 (0 : Fin 1) n u)
      = Cert.Spec.cell (fun n m => x2 (ix2 n m)) (Cert.Layer.mk1 fun n f => x0 (ix3 (0 : Fin 1) n f)) (fun n u => x1 (ix3 (0 : Fin 1) n u))
          (fun i k o => x3 (ix3 k i o)) (fun o => x4 (ix2 (0 : Fin 1) o)) (fun i k o => x5 (ix3 k i o)) (fun o => x6 (ix2 (0 : Fin 1) o)) n u := by
  unfold Cert.Spec.cell Cert.Spec.cand
  exact blend_apply x2 (k1_pay2 x0) (k1_pay3 x1) (k1_pay4 x5) (k1_pay5 x6) (k1_pay7 x2 x0 x1 x3 x4) (k1_pay8 x2 x0 x1 x3 x4)
    _ (fun _ _ => rfl) _ (feat_apply x0) _ (state_apply x1)
    _ (fun k i o => congrFun (candW_eq x5) (ix3 k i o)) _ (fun o => congrFun (candB_eq x6) (ix2 (0 : Fin 1) o))
    _ (rgate_apply x0 x1 x2 x3 x4) _ (zgate_apply x0 x1 x2 x3 x4) n u

end Cert.KernelIdeal.Pay1

end
-- ==== Proof.KBlocks0.lean ====
/-
  Layer 0's launch, from blocks to the array.

  The grid has 64 points, one batch element each.  At point t the input features, the incoming state and the output
  have the block [1, 512, ·] at block index (t, 0, 0) of their arrays [64, 512, ·]; the support matrix, the weights and
  the biases have their whole array as the block at every point.  So an element (0, n, ·) of a moving block is the
  element (t, n, ·) of its array, and the other blocks are their arrays.  The body leaves in the output block the
  cell's new state of the input blocks (the hypothesis of the theorem below, which is the body's arithmetic at an
  index); every index (b, n, u) of the output array lies in point b's block, and every point writes its block back,
  so after the launch the output array holds, at (b, n, u), the cell's new state of batch element b at node n, unit u.
-/
import proofs.«127843_g48979807044056_cont_8to1c4_176_1_alg».proof.Proof.Gen.KernelIdeal.Frame
import proofs.«127843_g48979807044056_cont_8to1c4_176_1_alg».proof.Proof.Spec
import proofs.«127843_g48979807044056_cont_8to1c4_176_1_alg».proof.Proof.Layer
import Idealize.ShloMosaic.Lib.ValueIdx
import Idealize.ShloMosaic.Lib.Pipeline.Value
import Idealize.ShloMosaic.Lib.ValueLayout

set_option maxRecDepth 16384

noncomputable section

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offsets (0, 0, 0) are zero on every axis. -/
theorem zeros3 : (![0, 0, 0] : Fin 3 → Nat) = fun _ => 0 := funext fun a => by fin_cases a <;> rfl
/-- The offsets (0, 0) are zero on every axis. -/
theorem zeros2 : (![0, 0] : Fin 2 → Nat) = fun _ => 0 := funext fun a => by fin_cases a <;> rfl

/-- The output block after the body: its one store and every load go through the whole block at offset zero, so the
    block holds the body's result on the input blocks themselves. -/
theorem out_eq (x0 : Vec Ideal S1x512x12 .f32) (x1 : Vec Ideal S1x512x64 .f32) (x2 : Vec Ideal S512x512 .f32) (x3 : Vec Ideal S3x76x128 .f32)
    (x4 : Vec Ideal S1x128 .f32) (x5 : Vec Ideal S3x76x64 .f32) (x6 : Vec Ideal S1x64 .f32) :
    out0_7 (F := Ideal) x0 x1 x2 x3 x4 x5 x6
      = k0_pay1 (F := Ideal) x2 (k0_pay2 x0) (k0_pay3 x1) (k0_pay4 x5) (k0_pay5 x6) (k0_pay7 x2 x0 x1 x3 x4) (k0_pay8 x2 x0 x1 x3 x4) := by
  unfold out0_7
  rw [View.canon_unit_zero zeros3]
  simp only [View.ld_unit_zero (S := S1x512x12) zeros3, View.ld_unit_zero (S := S1x512x64) zeros3,
    View.ld_unit_zero (S := S3x76x128) zeros3, View.ld_unit_zero (S := S3x76x64) zeros3,
    View.ld_unit_zero (S := S512x512) zeros2, View.ld_unit_zero (S := S1x128) zeros2, View.ld_unit_zero (S := S1x64) zeros2]

/-- The printed index maps over the grid: the three moving windows sit at block (t, 0, 0); the others at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_7.index t (0 : Fin 3) = t.val ∧ win0_7.index t (1 : Fin 3) = 0 ∧ win0_7.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0 :=
  (by decide +kernel : ∀ t : Fin grid0.N, _)

/-- A grid point is a batch element. -/
theorem pt_lt (t : Fin cfg0.N) : t.val < 64 := by
  have h : t.val < grid0.N := t.isLt
  rw [N_0] at h; exact h

/-- The batch element of a grid point. -/
abbrev pt (t : Fin cfg0.N) : Fin 64 := ⟨t.val, pt_lt t⟩

/-- Block t of the input features is batch element t of their array. -/
theorem blkX_apply (c : Dev nD) (t : Fin cfg0.N) (n : Fin 512) (f : Fin 12) :
    (iblk0 V c 0 t : S1x512x12.Idx → EReal) (ix3 (0 : Fin 1) n f)
      = (V c main_call0_v0 : S64x512x12.Idx → EReal) (ix3 (pt t) n f) := by
  obtain ⟨e0, e1, e2, -⟩ := idx_facts t
  show (V c main_call0_v0 : S64x512x12.Idx → EReal) (((cfg0.win 0).blk t).view.emb (ix3 (0 : Fin 1) n f)) = _
  refine congrArg _ ?_
  funext a; apply Fin.ext
  match a with
  | ⟨0, _⟩ => show win0_0.index t (0 : Fin 3) * 1 + 1 * 0 = t.val; omega
  | ⟨1, _⟩ => show win0_0.index t (1 : Fin 3) * 512 + 1 * n.val = n.val; omega
  | ⟨2, _⟩ => show win0_0.index t (2 : Fin 3) * 12 + 1 * f.val = f.val; omega

/-- Block t of the incoming state is batch element t of its array. -/
theorem blkH_apply (c : Dev nD) (t : Fin cfg0.N) (n : Fin 512) (u : Fin 64) :
    (iblk0 V c 1 t : S1x512x64.Idx → EReal) (ix3 (0 : Fin 1) n u)
      = (V c main_call0_v3 : S64x512x64.Idx → EReal) (ix3 (pt t) n u) := by
  obtain ⟨-, -, -, e0, e1, e2, -⟩ := idx_facts t
  show (V c main_call0_v3 : S64x512x64.Idx → EReal) (((cfg0.win 1).blk t).view.emb (ix3 (0 : Fin 1) n u)) = _
  refine congrArg _ ?_
  funext a; apply Fin.ext
  match a with
  | ⟨0, _⟩ => show win0_1.index t (0 : Fin 3) * 1 + 1 * 0 = t.val; omega
  | ⟨1, _⟩ => show win0_1.index t (1 : Fin 3) * 512 + 1 * n.val = n.val; omega
  | ⟨2, _⟩ => show win0_1.index t (2 : Fin 3) * 64 + 1 * u.val = u.val; omega

/-- The support matrix's block is the whole matrix at every point. -/
theorem blkS_eq (c : Dev nD) (t : Fin cfg0.N) :
    (iblk0 V c 2 t : S512x512.Idx → EReal) = (V c main_arg2 : S512x512.Idx → EReal) := by
  obtain ⟨-, -, -, -, -, -, -, -, -, e0, e1, -⟩ := idx_facts t
  funext y
  show (V c main_arg2 : S512x512.Idx → EReal) (((cfg0.win 2).blk t).view.emb y) = _
  refine congrArg _ ?_
  funext a; apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The gate weights' block is the whole array at every point. -/
theorem blkWg_eq (c : Dev nD) (t : Fin cfg0.N) :
    (iblk0 V c 3 t : S3x76x128.Idx → EReal) = (V c main_call0_v8 : S3x76x128.Idx → EReal) := by
  obtain ⟨-, -, -, -, -, -, -, -, -, -, -, e0, e1, e2, -⟩ := idx_facts t
  funext y
  show (V c main_call0_v8 : S3x76x128.Idx → EReal) (((cfg0.win 3).blk t).view.emb y) = _
  refine congrArg _ ?_
  funext a; apply Fin.ext
  match a with
  | ⟨0, _⟩ => show win0_3.index t (0 : Fin 3) * 3 + 1 * (y 0).val = (y 0).val; omega
  | ⟨1, _⟩ => show win0_3.index t (1 : Fin 3) * 76 + 1 * (y 1).val = (y 1).val; omega
  | ⟨2, _⟩ => show win0_3.index t (2 : Fin 3) * 128 + 1 * (y 2).val = (y 2).val; omega

/-- The gate bias's block is the whole array at every point. -/
theorem blkBg_eq (c : Dev nD) (t : Fin cfg0.N) :
    (iblk0 V c 4 t : S1x128.Idx → EReal) = (V c main_call0_v11 : S1x128.Idx → EReal) := by
  obtain ⟨-, -, -, -, -, -, -, -, -, -, -, -, -, -, e0, e1, -⟩ := idx_facts t
  funext y
  show (V c main_call0_v11 : S1x128.Idx → EReal) (((cfg0.win 4).blk t).view.emb y) = _
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The candidate weights' block is the whole array at every point. -/
theorem blkWc_eq (c : Dev nD) (t : Fin cfg0.N) :
    (iblk0 V c 5 t : S3x76x64.Idx → EReal) = (V c main_call0_v10 : S3x76x64.Idx → EReal) := by
  obtain ⟨-, -, -, -, -, -, -, -, -, -, -, -, -, -, -, -, e0, e1, e2, -⟩ := idx_facts t
  funext y
  show (V c main_call0_v10 : S3x76x64.Idx → EReal) (((cfg0.win 5).blk t).view.emb y) = _
  refine congrArg _ ?_
  funext a; apply Fin.ext
  match a with
  | ⟨0, _⟩ => show win0_5.index t (0 : Fin 3) * 3 + 1 * (y 0).val = (y 0).val; omega
  | ⟨1, _⟩ => show win0_5.index t (1 : Fin 3) * 76 + 1 * (y 1).val = (y 1).val; omega
  | ⟨2, _⟩ => show win0_5.index t (2 : Fin 3) * 64 + 1 * (y 2).val = (y 2).val; omega

/-- The candidate bias's block is the whole array at every point. -/
theorem blkBc_eq (c : Dev nD) (t : Fin cfg0.N) :
    (iblk0 V c 6 t : S1x64.Idx → EReal) = (V c main_call0_v12 : S1x64.Idx → EReal) := by
  obtain ⟨-, -, -, -, -, -, -, -, -, -, -, -, -, -, -, -, -, -, -, e0, e1⟩ := idx_facts t
  funext y
  show (V c main_call0_v12 : S1x64.Idx → EReal) (((cfg0.win 6).blk t).view.emb y) = _
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- An element of the output's block at point t sits in batch element t of the output array. -/
theorem embOut (t : Fin cfg0.N) (n : Fin 512) (u : Fin 64) :
    (((cfg0.win 7).blk t).view.emb (ix3 (0 : Fin 1) n u) : S64x512x64.Idx) = ix3 (pt t) n u := by
  obtain ⟨-, -, -, -, -, -, e0, e1, e2, -⟩ := idx_facts t
  funext a; apply Fin.ext
  match a with
  | ⟨0, _⟩ => show win0_7.index t (0 : Fin 3) * 1 + 1 * 0 = t.val; omega
  | ⟨1, _⟩ => show win0_7.index t (1 : Fin 3) * 512 + 1 * n.val = n.val; omega
  | ⟨2, _⟩ => show win0_7.index t (2 : Fin 3) * 64 + 1 * u.val = u.val; omega

/-- The cell's new state at batch element b, node n, unit u, read off the region's arrays. -/
def cellAt (c : Dev nD) (b : Fin 64) (n : Fin 512) (u : Fin 64) : EReal :=
  Cert.Spec.cell (fun n m => (V c main_arg2 : S512x512.Idx → EReal) (ix2 n m))
    (Cert.Layer.mk0 fun n f => (V c main_call0_v0 : S64x512x12.Idx → EReal) (ix3 b n f))
    (fun n u => (V c main_call0_v3 : S64x512x64.Idx → EReal) (ix3 b n u))
    (fun i k o => (V c main_call0_v8 : S3x76x128.Idx → EReal) (ix3 k i o))
    (fun o => (V c main_call0_v11 : S1x128.Idx → EReal) (ix2 (0 : Fin 1) o))
    (fun i k o => (V c main_call0_v10 : S3x76x64.Idx → EReal) (ix3 k i o))
    (fun o => (V c main_call0_v12 : S1x64.Idx → EReal) (ix2 (0 : Fin 1) o)) n u

/-- The whole output array: the cell's new state at each index's three coordinates. -/
def G (c : Dev nD) : S64x512x64.Idx → EReal := fun j =>
  cellAt V c ⟨(j 0).val, (j 0).isLt⟩ ⟨(j 1).val, (j 1).isLt⟩ ⟨(j 2).val, (j 2).isLt⟩

/-- The whole output array at the index (b, n, u). -/
theorem G_ix3 (c : Dev nD) (b : Fin 64) (n : Fin 512) (u : Fin 64) : G V c (ix3 b n u) = cellAt V c b n u := rfl

/-- What point t writes back is block t of the whole output array. -/
theorem flushed_eq (c : Dev nD)
    (hpay : ∀ (x0 : Vec Ideal S1x512x12 .f32) (x1 : Vec Ideal S1x512x64 .f32) (x2 : Vec Ideal S512x512 .f32) (x3 : Vec Ideal S3x76x128 .f32)
        (x4 : Vec Ideal S1x128 .f32) (x5 : Vec Ideal S3x76x64 .f32) (x6 : Vec Ideal S1x64 .f32) (n : Fin 512) (u : Fin 64),
        k0_pay1 (F := Ideal) x2 (k0_pay2 x0) (k0_pay3 x1) (k0_pay4 x5) (k0_pay5 x6) (k0_pay7 x2 x0 x1 x3 x4) (k0_pay8 x2 x0 x1 x3 x4) (ix3 (0 : Fin 1) n u)
          = Cert.Spec.cell (fun n m => x2 (ix2 n m)) (Cert.Layer.mk0 fun n f => x0 (ix3 (0 : Fin 1) n f)) (fun n u => x1 (ix3 (0 : Fin 1) n u))
              (fun i k o => x3 (ix3 k i o)) (fun o => x4 (ix2 (0 : Fin 1) o)) (fun i k o => x5 (ix3 k i o)) (fun o => x6 (ix2 (0 : Fin 1) o)) n u)
    (t : Fin cfg0.N) :
    (dat0 (F := Ideal) V c).flushed 7 t = ((cfg0.win 7).blk t).view.read (Elt Ideal) (G V c) := by
  show (cfg0.win 7).cut (grid0.coords t) ((dat0 V c).after 7 t) = _
  rw [after0_7, out_eq]
  funext y
  obtain ⟨y0, n, u, rfl⟩ : ∃ (y0 : Fin 1) (n : Fin 512) (u : Fin 64), y = ix3 y0 n u := ⟨y 0, y 1, y 2, eq_ix3 y⟩
  obtain rfl : y0 = 0 := Subsingleton.elim _ _
  show k0_pay1 (F := Ideal) (iblk0 V c 2 t) (k0_pay2 (iblk0 V c 0 t)) (k0_pay3 (iblk0 V c 1 t)) (k0_pay4 (iblk0 V c 5 t)) (k0_pay5 (iblk0 V c 6 t))
      (k0_pay7 (iblk0 V c 2 t) (iblk0 V c 0 t) (iblk0 V c 1 t) (iblk0 V c 3 t) (iblk0 V c 4 t))
      (k0_pay8 (iblk0 V c 2 t) (iblk0 V c 0 t) (iblk0 V c 1 t) (iblk0 V c 3 t) (iblk0 V c 4 t)) (ix3 (0 : Fin 1) n u)
    = G V c (((cfg0.win 7).blk t).view.emb (ix3 (0 : Fin 1) n u))
  refine (hpay (iblk0 V c 0 t) (iblk0 V c 1 t) (iblk0 V c 2 t) (iblk0 V c 3 t) (iblk0 V c 4 t) (iblk0 V c 5 t) (iblk0 V c 6 t) n u).trans ?_
  rw [embOut t n u, G_ix3]
  unfold cellAt
  rw [blkS_eq V c t, blkWg_eq V c t, blkBg_eq V c t, blkWc_eq V c t, blkBc_eq V c t]
  have hX : (fun n f => (iblk0 V c 0 t : S1x512x12.Idx → EReal) (ix3 (0 : Fin 1) n f))
      = fun n f => (V c main_call0_v0 : S64x512x12.Idx → EReal) (ix3 (pt t) n f) := by
    funext n f; exact blkX_apply V c t n f
  have hH : (fun n u => (iblk0 V c 1 t : S1x512x64.Idx → EReal) (ix3 (0 : Fin 1) n u))
      = fun n u => (V c main_call0_v3 : S64x512x64.Idx → EReal) (ix3 (pt t) n u) := by
    funext n u; exact blkH_apply V c t n u
  rw [hX, hH]

/-- An index of the output array is in point t's block iff each coordinate is in the block's range on its axis. -/
theorem mem_blk (t : Fin cfg0.N) (i : S64x512x64.Idx) :
    i ∈ ((cfg0.win 7).blk t).view.set ↔ ∀ a : Fin 3, win0_7.index t a * S1x512x64.size a ≤ (i a).val ∧ (i a).val < win0_7.index t a * S1x512x64.size a + S1x512x64.size a := by
  show i ∈ ((View.whole main_call0_v13).slice (win0_7.rect t)).set ↔ _
  rw [View.set_slice_whole, Rect.mem_set_unit]
  exact Iff.rfl

/-- After the launch the output array holds, at (b, n, u), layer 0's new state of batch element b at node n, unit u,
    given that the body leaves in its output block the cell's new state of its input blocks: point b writes back the
    block that holds the index (b, n, u). -/
theorem region_at (c : Dev nD)
    (hpay : ∀ (x0 : Vec Ideal S1x512x12 .f32) (x1 : Vec Ideal S1x512x64 .f32) (x2 : Vec Ideal S512x512 .f32) (x3 : Vec Ideal S3x76x128 .f32)
        (x4 : Vec Ideal S1x128 .f32) (x5 : Vec Ideal S3x76x64 .f32) (x6 : Vec Ideal S1x64 .f32) (n : Fin 512) (u : Fin 64),
        k0_pay1 (F := Ideal) x2 (k0_pay2 x0) (k0_pay3 x1) (k0_pay4 x5) (k0_pay5 x6) (k0_pay7 x2 x0 x1 x3 x4) (k0_pay8 x2 x0 x1 x3 x4) (ix3 (0 : Fin 1) n u)
          = Cert.Spec.cell (fun n m => x2 (ix2 n m)) (Cert.Layer.mk0 fun n f => x0 (ix3 (0 : Fin 1) n f)) (fun n u => x1 (ix3 (0 : Fin 1) n u))
              (fun i k o => x3 (ix3 k i o)) (fun o => x4 (ix2 (0 : Fin 1) o)) (fun i k o => x5 (ix3 k i o)) (fun o => x6 (ix2 (0 : Fin 1) o)) n u)
    (b : Fin 64) (n : Fin 512) (u : Fin 64) :
    ((dat0 (F := Ideal) V c).arrAt 7 cfg0.N : S64x512x64.Idx → EReal) (ix3 b n u)
      = Cert.Spec.cell (fun n m => (V c main_arg2 : S512x512.Idx → EReal) (ix2 n m))
          (Cert.Layer.mk0 fun n f => (V c main_call0_v0 : S64x512x12.Idx → EReal) (ix3 b n f))
          (fun n u => (V c main_call0_v3 : S64x512x64.Idx → EReal) (ix3 b n u))
          (fun i k o => (V c main_call0_v8 : S3x76x128.Idx → EReal) (ix3 k i o))
          (fun o => (V c main_call0_v11 : S1x128.Idx → EReal) (ix2 (0 : Fin 1) o))
          (fun i k o => (V c main_call0_v10 : S3x76x64.Idx → EReal) (ix3 k i o))
          (fun o => (V c main_call0_v12 : S1x64.Idx → EReal) (ix2 (0 : Fin 1) o)) n u := by
  have hb : b.val < cfg0.N := by show b.val < grid0.N; rw [N_0]; exact b.isLt
  have hmem : (ix3 b n u : S64x512x64.Idx) ∈ ((cfg0.win 7).blk (⟨b.val, hb⟩ : Fin cfg0.N)).view.set := by
    rw [mem_blk]
    obtain ⟨-, -, -, -, -, -, e0, e1, e2, -⟩ := idx_facts (⟨b.val, hb⟩ : Fin cfg0.N)
    intro a
    match a with
    | ⟨0, _⟩ => show win0_7.index ⟨b.val, hb⟩ (0 : Fin 3) * 1 ≤ b.val ∧ b.val < win0_7.index ⟨b.val, hb⟩ (0 : Fin 3) * 1 + 1; rw [e0]; show b.val * 1 ≤ b.val ∧ b.val < b.val * 1 + 1; omega
    | ⟨1, _⟩ => show win0_7.index ⟨b.val, hb⟩ (1 : Fin 3) * 512 ≤ n.val ∧ n.val < win0_7.index ⟨b.val, hb⟩ (1 : Fin 3) * 512 + 512; have := n.isLt; omega
    | ⟨2, _⟩ => show win0_7.index ⟨b.val, hb⟩ (2 : Fin 3) * 64 ≤ u.val ∧ u.val < win0_7.index ⟨b.val, hb⟩ (2 : Fin 3) * 64 + 64; have := u.isLt; omega
  exact ((dat0 (F := Ideal) V c).arrAt_apply_of_mem 7 (G V c) (fun t _ => flushed_eq V c hpay t) cfg0.N ⟨b.val, hb⟩ (ix3 b n u) hb
    (flush0_7 _) hmem).trans (G_ix3 V c b n u)

end Cert.KernelIdeal.Blocks0

end
-- ==== Proof.KBlocks1.lean ====
/-
  Layer 1's launch, from blocks to the array.

  The grid has 64 points, one batch element each.  At point t the layer's input (layer 0's new state), the incoming state and the output
  have the block [1, 512, 64] at block index (t, 0, 0) of their arrays [64, 512, 64]; the support matrix, the weights and
  the biases have their whole array as the block at every point.  So an element (0, n, ·) of a moving block is the
  element (t, n, ·) of its array, and the other blocks are their arrays.  The body leaves in the output block the
  cell's new state of the input blocks (the hypothesis of the theorem below, which is the body's arithmetic at an
  index); every index (b, n, u) of the output array lies in point b's block, and every point writes its block back,
  so after the launch the output array holds, at (b, n, u), the cell's new state of batch element b at node n, unit u.
-/
import proofs.«127843_g48979807044056_cont_8to1c4_176_1_alg».proof.Proof.Gen.KernelIdeal.Frame
import proofs.«127843_g48979807044056_cont_8to1c4_176_1_alg».proof.Proof.Spec
import proofs.«127843_g48979807044056_cont_8to1c4_176_1_alg».proof.Proof.Layer
import Idealize.ShloMosaic.Lib.ValueIdx
import Idealize.ShloMosaic.Lib.Pipeline.Value
import Idealize.ShloMosaic.Lib.ValueLayout

set_option maxRecDepth 16384

noncomputable section

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offsets (0, 0, 0) are zero on every axis. -/
theorem zeros3 : (![0, 0, 0] : Fin 3 → Nat) = fun _ => 0 := funext fun a => by fin_cases a <;> rfl
/-- The offsets (0, 0) are zero on every axis. -/
theorem zeros2 : (![0, 0] : Fin 2 → Nat) = fun _ => 0 := funext fun a => by fin_cases a <;> rfl

/-- The output block after the body: its one store and every load go through the whole block at offset zero, so the
    block holds the body's result on the input blocks themselves. -/
theorem out_eq (x0 : Vec Ideal S1x512x64 .f32) (x1 : Vec Ideal S1x512x64 .f32) (x2 : Vec Ideal S512x512 .f32) (x3 : Vec Ideal S3x128x128 .f32)
    (x4 : Vec Ideal S1x128 .f32) (x5 : Vec Ideal S3x128x64 .f32) (x6 : Vec Ideal S1x64 .f32) :
    out1_7 (F := Ideal) x0 x1 x2 x3 x4 x5 x6
      = k1_pay1 (F := Ideal) x2 (k1_pay2 x0) (k1_pay3 x1) (k1_pay4 x5) (k1_pay5 x6) (k1_pay7 x2 x0 x1 x3 x4) (k1_pay8 x2 x0 x1 x3 x4) := by
  unfold out1_7
  rw [View.canon_unit_zero zeros3]
  simp only [View.ld_unit_zero (S := S1x512x64) zeros3,
    View.ld_unit_zero (S := S3x128x128) zeros3, View.ld_unit_zero (S := S3x128x64) zeros3,
    View.ld_unit_zero (S := S512x512) zeros2, View.ld_unit_zero (S := S1x128) zeros2, View.ld_unit_zero (S := S1x64) zeros2]

/-- The printed index maps over the grid: the three moving windows sit at block (t, 0, 0); the others at block zero. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_7.index t (0 : Fin 3) = t.val ∧ win1_7.index t (1 : Fin 3) = 0 ∧ win1_7.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = 0 ∧ win1_5.index t (1 : Fin 3) = 0 ∧ win1_5.index t (2 : Fin 3) = 0
    ∧ win1_6.index t (0 : Fin 2) = 0 ∧ win1_6.index t (1 : Fin 2) = 0 :=
  (by decide +kernel : ∀ t : Fin grid1.N, _)

/-- A grid point is a batch element. -/
theorem pt_lt (t : Fin cfg1.N) : t.val < 64 := by
  have h : t.val < grid1.N := t.isLt
  rw [N_1] at h; exact h

/-- The batch element of a grid point. -/
abbrev pt (t : Fin cfg1.N) : Fin 64 := ⟨t.val, pt_lt t⟩

/-- Block t of the layer's input is batch element t of its array. -/
theorem blkX_apply (c : Dev nD) (t : Fin cfg1.N) (n : Fin 512) (f : Fin 64) :
    (iblk1 V c 0 t : S1x512x64.Idx → EReal) (ix3 (0 : Fin 1) n f)
      = (V c main_call0_v13 : S64x512x64.Idx → EReal) (ix3 (pt t) n f) := by
  obtain ⟨e0, e1, e2, -⟩ := idx_facts t
  show (V c main_call0_v13 : S64x512x64.Idx → EReal) (((cfg1.win 0).blk t).view.emb (ix3 (0 : Fin 1) n f)) = _
  refine congrArg _ ?_
  funext a; apply Fin.ext
  match a with
  | ⟨0, _⟩ => show win1_0.index t (0 : Fin 3) * 1 + 1 * 0 = t.val; omega
  | ⟨1, _⟩ => show win1_0.index t (1 : Fin 3) * 512 + 1 * n.val = n.val; omega
  | ⟨2, _⟩ => show win1_0.index t (2 : Fin 3) * 64 + 1 * f.val = f.val; omega

/-- Block t of the incoming state is batch element t of its array. -/
theorem blkH_apply (c : Dev nD) (t : Fin cfg1.N) (n : Fin 512) (u : Fin 64) :
    (iblk1 V c 1 t : S1x512x64.Idx → EReal) (ix3 (0 : Fin 1) n u)
      = (V c main_call0_v6 : S64x512x64.Idx → EReal) (ix3 (pt t) n u) := by
  obtain ⟨-, -, -, e0, e1, e2, -⟩ := idx_facts t
  show (V c main_call0_v6 : S64x512x64.Idx → EReal) (((cfg1.win 1).blk t).view.emb (ix3 (0 : Fin 1) n u)) = _
  refine congrArg _ ?_
  funext a; apply Fin.ext
  match a with
  | ⟨0, _⟩ => show win1_1.index t (0 : Fin 3) * 1 + 1 * 0 = t.val; omega
  | ⟨1, _⟩ => show win1_1.index t (1 : Fin 3) * 512 + 1 * n.val = n.val; omega
  | ⟨2, _⟩ => show win1_1.index t (2 : Fin 3) * 64 + 1 * u.val = u.val; omega

/-- The support matrix's block is the whole matrix at every point. -/
theorem blkS_eq (c : Dev nD) (t : Fin cfg1.N) :
    (iblk1 V c 2 t : S512x512.Idx → EReal) = (V c main_arg2 : S512x512.Idx → EReal) := by
  obtain ⟨-, -, -, -, -, -, -, -, -, e0, e1, -⟩ := idx_facts t
  funext y
  show (V c main_arg2 : S512x512.Idx → EReal) (((cfg1.win 2).blk t).view.emb y) = _
  refine congrArg _ ?_
  funext a; apply Fin.ext
  match a with
  | ⟨0, _⟩ => show win1_2.index t (0 : Fin 2) * 512 + 1 * (y 0).val = (y 0).val; omega
  | ⟨1, _⟩ => show win1_2.index t (1 : Fin 2) * 512 + 1 * (y 1).val = (y 1).val; omega

/-- The gate weights' block is the whole array at every point. -/
theorem blkWg_eq (c : Dev nD) (t : Fin cfg1.N) :
    (iblk1 V c 3 t : S3x128x128.Idx → EReal) = (V c main_call0_v15 : S3x128x128.Idx → EReal) := by
  obtain ⟨-, -, -, -, -, -, -, -, -, -, -, e0, e1, e2, -⟩ := idx_facts t
  funext y
  show (V c main_call0_v15 : S3x128x128.Idx → EReal) (((cfg1.win 3).blk t).view.emb y) = _
  refine congrArg _ ?_
  funext a; apply Fin.ext
  match a with
  | ⟨0, _⟩ => show win1_3.index t (0 : Fin 3) * 3 + 1 * (y 0).val = (y 0).val; omega
  | ⟨1, _⟩ => show win1_3.index t (1 : Fin 3) * 128 + 1 * (y 1).val = (y 1).val; omega
  | ⟨2, _⟩ => show win1_3.index t (2 : Fin 3) * 128 + 1 * (y 2).val = (y 2).val; omega

/-- The gate bias's block is the whole array at every point. -/
theorem blkBg_eq (c : Dev nD) (t : Fin cfg1.N) :
    (iblk1 V c 4 t : S1x128.Idx → EReal) = (V c main_call0_v18 : S1x128.Idx → EReal) := by
  obtain ⟨-, -, -, -, -, -, -, -, -, -, -, -, -, -, e0, e1, -⟩ := idx_facts t
  funext y
  show (V c main_call0_v18 : S1x128.Idx → EReal) (((cfg1.win 4).blk t).view.emb y) = _
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The candidate weights' block is the whole array at every point. -/
theorem blkWc_eq (c : Dev nD) (t : Fin cfg1.N) :
    (iblk1 V c 5 t : S3x128x64.Idx → EReal) = (V c main_call0_v17 : S3x128x64.Idx → EReal) := by
  obtain ⟨-, -, -, -, -, -, -, -, -, -, -, -, -, -, -, -, e0, e1, e2, -⟩ := idx_facts t
  funext y
  show (V c main_call0_v17 : S3x128x64.Idx → EReal) (((cfg1.win 5).blk t).view.emb y) = _
  refine congrArg _ ?_
  funext a; apply Fin.ext
  match a with
  | ⟨0, _⟩ => show win1_5.index t (0 : Fin 3) * 3 + 1 * (y 0).val = (y 0).val; omega
  | ⟨1, _⟩ => show win1_5.index t (1 : Fin 3) * 128 + 1 * (y 1).val = (y 1).val; omega
  | ⟨2, _⟩ => show win1_5.index t (2 : Fin 3) * 64 + 1 * (y 2).val = (y 2).val; omega

/-- The candidate bias's block is the whole array at every point. -/
theorem blkBc_eq (c : Dev nD) (t : Fin cfg1.N) :
    (iblk1 V c 6 t : S1x64.Idx → EReal) = (V c main_call0_v19 : S1x64.Idx → EReal) := by
  obtain ⟨-, -, -, -, -, -, -, -, -, -, -, -, -, -, -, -, -, -, -, e0, e1⟩ := idx_facts t
  funext y
  show (V c main_call0_v19 : S1x64.Idx → EReal) (((cfg1.win 6).blk t).view.emb y) = _
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- An element of the output's block at point t sits in batch element t of the output array. -/
theorem embOut (t : Fin cfg1.N) (n : Fin 512) (u : Fin 64) :
    (((cfg1.win 7).blk t).view.emb (ix3 (0 : Fin 1) n u) : S64x512x64.Idx) = ix3 (pt t) n u := by
  obtain ⟨-, -, -, -, -, -, e0, e1, e2, -⟩ := idx_facts t
  funext a; apply Fin.ext
  match a with
  | ⟨0, _⟩ => show win1_7.index t (0 : Fin 3) * 1 + 1 * 0 = t.val; omega
  | ⟨1, _⟩ => show win1_7.index t (1 : Fin 3) * 512 + 1 * n.val = n.val; omega
  | ⟨2, _⟩ => show win1_7.index t (2 : Fin 3) * 64 + 1 * u.val = u.val; omega

/-- The cell's new state at batch element b, node n, unit u, read off the region's arrays. -/
def cellAt (c : Dev nD) (b : Fin 64) (n : Fin 512) (u : Fin 64) : EReal :=
  Cert.Spec.cell (fun n m => (V c main_arg2 : S512x512.Idx → EReal) (ix2 n m))
    (Cert.Layer.mk1 fun n f => (V c main_call0_v13 : S64x512x64.Idx → EReal) (ix3 b n f))
    (fun n u => (V c main_call0_v6 : S64x512x64.Idx → EReal) (ix3 b n u))
    (fun i k o => (V c main_call0_v15 : S3x128x128.Idx → EReal) (ix3 k i o))
    (fun o => (V c main_call0_v18 : S1x128.Idx → EReal) (ix2 (0 : Fin 1) o))
    (fun i k o => (V c main_call0_v17 : S3x128x64.Idx → EReal) (ix3 k i o))
    (fun o => (V c main_call0_v19 : S1x64.Idx → EReal) (ix2 (0 : Fin 1) o)) n u

/-- The whole output array: the cell's new state at each index's three coordinates. -/
def G (c : Dev nD) : S64x512x64.Idx → EReal := fun j =>
  cellAt V c ⟨(j 0).val, (j 0).isLt⟩ ⟨(j 1).val, (j 1).isLt⟩ ⟨(j 2).val, (j 2).isLt⟩

/-- The whole output array at the index (b, n, u). -/
theorem G_ix3 (c : Dev nD) (b : Fin 64) (n : Fin 512) (u : Fin 64) : G V c (ix3 b n u) = cellAt V c b n u := rfl

/-- What point t writes back is block t of the whole output array. -/
theorem flushed_eq (c : Dev nD)
    (hpay : ∀ (x0 : Vec Ideal S1x512x64 .f32) (x1 : Vec Ideal S1x512x64 .f32) (x2 : Vec Ideal S512x512 .f32) (x3 : Vec Ideal S3x128x128 .f32)
        (x4 : Vec Ideal S1x128 .f32) (x5 : Vec Ideal S3x128x64 .f32) (x6 : Vec Ideal S1x64 .f32) (n : Fin 512) (u : Fin 64),
        k1_pay1 (F := Ideal) x2 (k1_pay2 x0) (k1_pay3 x1) (k1_pay4 x5) (k1_pay5 x6) (k1_pay7 x2 x0 x1 x3 x4) (k1_pay8 x2 x0 x1 x3 x4) (ix3 (0 : Fin 1) n u)
          = Cert.Spec.cell (fun n m => x2 (ix2 n m)) (Cert.Layer.mk1 fun n f => x0 (ix3 (0 : Fin 1) n f)) (fun n u => x1 (ix3 (0 : Fin 1) n u))
              (fun i k o => x3 (ix3 k i o)) (fun o => x4 (ix2 (0 : Fin 1) o)) (fun i k o => x5 (ix3 k i o)) (fun o => x6 (ix2 (0 : Fin 1) o)) n u)
    (t : Fin cfg1.N) :
    (dat1 (F := Ideal) V c).flushed 7 t = ((cfg1.win 7).blk t).view.read (Elt Ideal) (G V c) := by
  show (cfg1.win 7).cut (grid1.coords t) ((dat1 V c).after 7 t) = _
  rw [after1_7, out_eq]
  funext y
  obtain ⟨y0, n, u, rfl⟩ : ∃ (y0 : Fin 1) (n : Fin 512) (u : Fin 64), y = ix3 y0 n u := ⟨y 0, y 1, y 2, eq_ix3 y⟩
  obtain rfl : y0 = 0 := Subsingleton.elim _ _
  show k1_pay1 (F := Ideal) (iblk1 V c 2 t) (k1_pay2 (iblk1 V c 0 t)) (k1_pay3 (iblk1 V c 1 t)) (k1_pay4 (iblk1 V c 5 t)) (k1_pay5 (iblk1 V c 6 t))
      (k1_pay7 (iblk1 V c 2 t) (iblk1 V c 0 t) (iblk1 V c 1 t) (iblk1 V c 3 t) (iblk1 V c 4 t))
      (k1_pay8 (iblk1 V c 2 t) (iblk1 V c 0 t) (iblk1 V c 1 t) (iblk1 V c 3 t) (iblk1 V c 4 t)) (ix3 (0 : Fin 1) n u)
    = G V c (((cfg1.win 7).blk t).view.emb (ix3 (0 : Fin 1) n u))
  refine (hpay (iblk1 V c 0 t) (iblk1 V c 1 t) (iblk1 V c 2 t) (iblk1 V c 3 t) (iblk1 V c 4 t) (iblk1 V c 5 t) (iblk1 V c 6 t) n u).trans ?_
  rw [embOut t n u, G_ix3]
  unfold cellAt
  rw [blkS_eq V c t, blkWg_eq V c t, blkBg_eq V c t, blkWc_eq V c t, blkBc_eq V c t]
  have hX : (fun n f => (iblk1 V c 0 t : S1x512x64.Idx → EReal) (ix3 (0 : Fin 1) n f))
      = fun n f => (V c main_call0_v13 : S64x512x64.Idx → EReal) (ix3 (pt t) n f) := by
    funext n f; exact blkX_apply V c t n f
  have hH : (fun n u => (iblk1 V c 1 t : S1x512x64.Idx → EReal) (ix3 (0 : Fin 1) n u))
      = fun n u => (V c main_call0_v6 : S64x512x64.Idx → EReal) (ix3 (pt t) n u) := by
    funext n u; exact blkH_apply V c t n u
  rw [hX, hH]

/-- An index of the output array is in point t's block iff each coordinate is in the block's range on its axis. -/
theorem mem_blk (t : Fin cfg1.N) (i : S64x512x64.Idx) :
    i ∈ ((cfg1.win 7).blk t).view.set ↔ ∀ a : Fin 3, win1_7.index t a * S1x512x64.size a ≤ (i a).val ∧ (i a).val < win1_7.index t a * S1x512x64.size a + S1x512x64.size a := by
  show i ∈ ((View.whole main_call0_v20).slice (win1_7.rect t)).set ↔ _
  rw [View.set_slice_whole, Rect.mem_set_unit]
  exact Iff.rfl

/-- After the launch the output array holds, at (b, n, u), layer 1's new state of batch element b at node n, unit u,
    given that the body leaves in its output block the cell's new state of its input blocks: point b writes back the
    block that holds the index (b, n, u). -/
theorem region_at (c : Dev nD)
    (hpay : ∀ (x0 : Vec Ideal S1x512x64 .f32) (x1 : Vec Ideal S1x512x64 .f32) (x2 : Vec Ideal S512x512 .f32) (x3 : Vec Ideal S3x128x128 .f32)
        (x4 : Vec Ideal S1x128 .f32) (x5 : Vec Ideal S3x128x64 .f32) (x6 : Vec Ideal S1x64 .f32) (n : Fin 512) (u : Fin 64),
        k1_pay1 (F := Ideal) x2 (k1_pay2 x0) (k1_pay3 x1) (k1_pay4 x5) (k1_pay5 x6) (k1_pay7 x2 x0 x1 x3 x4) (k1_pay8 x2 x0 x1 x3 x4) (ix3 (0 : Fin 1) n u)
          = Cert.Spec.cell (fun n m => x2 (ix2 n m)) (Cert.Layer.mk1 fun n f => x0 (ix3 (0 : Fin 1) n f)) (fun n u => x1 (ix3 (0 : Fin 1) n u))
              (fun i k o => x3 (ix3 k i o)) (fun o => x4 (ix2 (0 : Fin 1) o)) (fun i k o => x5 (ix3 k i o)) (fun o => x6 (ix2 (0 : Fin 1) o)) n u)
    (b : Fin 64) (n : Fin 512) (u : Fin 64) :
    ((dat1 (F := Ideal) V c).arrAt 7 cfg1.N : S64x512x64.Idx → EReal) (ix3 b n u)
      = Cert.Spec.cell (fun n m => (V c main_arg2 : S512x512.Idx → EReal) (ix2 n m))
          (Cert.Layer.mk1 fun n f => (V c main_call0_v13 : S64x512x64.Idx → EReal) (ix3 b n f))
          (fun n u => (V c main_call0_v6 : S64x512x64.Idx → EReal) (ix3 b n u))
          (fun i k o => (V c main_call0_v15 : S3x128x128.Idx → EReal) (ix3 k i o))
          (fun o => (V c main_call0_v18 : S1x128.Idx → EReal) (ix2 (0 : Fin 1) o))
          (fun i k o => (V c main_call0_v17 : S3x128x64.Idx → EReal) (ix3 k i o))
          (fun o => (V c main_call0_v19 : S1x64.Idx → EReal) (ix2 (0 : Fin 1) o)) n u := by
  have hb : b.val < cfg1.N := by show b.val < grid1.N; rw [N_1]; exact b.isLt
  have hmem : (ix3 b n u : S64x512x64.Idx) ∈ ((cfg1.win 7).blk (⟨b.val, hb⟩ : Fin cfg1.N)).view.set := by
    rw [mem_blk]
    obtain ⟨-, -, -, -, -, -, e0, e1, e2, -⟩ := idx_facts (⟨b.val, hb⟩ : Fin cfg1.N)
    intro a
    match a with
    | ⟨0, _⟩ => show win1_7.index ⟨b.val, hb⟩ (0 : Fin 3) * 1 ≤ b.val ∧ b.val < win1_7.index ⟨b.val, hb⟩ (0 : Fin 3) * 1 + 1; rw [e0]; show b.val * 1 ≤ b.val ∧ b.val < b.val * 1 + 1; omega
    | ⟨1, _⟩ => show win1_7.index ⟨b.val, hb⟩ (1 : Fin 3) * 512 ≤ n.val ∧ n.val < win1_7.index ⟨b.val, hb⟩ (1 : Fin 3) * 512 + 512; have := n.isLt; omega
    | ⟨2, _⟩ => show win1_7.index ⟨b.val, hb⟩ (2 : Fin 3) * 64 ≤ u.val ∧ u.val < win1_7.index ⟨b.val, hb⟩ (2 : Fin 3) * 64 + 64; have := u.isLt; omega
  exact ((dat1 (F := Ideal) V c).arrAt_apply_of_mem 7 (G V c) (fun t _ => flushed_eq V c hpay t) cfg1.N ⟨b.val, hb⟩ (ix3 b n u) hb
    (flush1_7 _) hmem).trans (G_ix3 V c b n u)

end Cert.KernelIdeal.Blocks1

end
-- ==== Proof.KHost.lean ====
/- What the host operations of the kernel program's @main put in the buffers its two regions read, and in its two
   results: every one is pure layout (reshape, slice, transpose, broadcast, concatenate), so each buffer is read at
   coordinates as ONE element of a launch argument, or is one region's output array carried along.
   Conventions: a batch row `b : Fin 64`, a node `n : Fin 512`, a feature `f : Fin 12`, a hidden unit `u : Fin 64`,
   a diffusion order `k : Fin 3`, a weight's input row `i` and output column `o`. A flat column `64 n + u`
   (`12 n + f`) is the row-major position of (node, unit) (of (node, feature)); a flat weight row `3 i + k` is the
   row-major position of (input, order). -/
import proofs.«127843_g48979807044056_cont_8to1c4_176_1_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F] (m : (ℓ : Loc nD τ sig) → Buf (Elt F) ℓ) (ρ : Dev nD → PrngReg) (c : Dev nD)

/-! ## Region 0's entry: the first stretch of host operations over the launch memory -/

/-- The adjacency matrix is no operation's result. -/
theorem V1_arg2 : V1 m ρ c main_arg2 = m ((c : Thread nD τ).loc main_arg2) := by
  dsimp only [V1, W1]
  after_results <;> rfl

/-- The layer-0 input, as the one reshape of the flat argument. -/
theorem V1_v0_term : (V1 m ρ c main_call0_v0 : S64x512x12.Idx → Elt F .f32)
    = shapeCast S64x512x12 (m ((c : Thread nD τ).loc main_arg0)) shapeCasts_S64x6144_S64x512x12 := by
  dsimp only [V1, W1]
  after_results <;> rfl

/-- Node `n`'s feature `f` sits at flat column `12 n + f`. -/
theorem V1_v0 (b : Fin 64) (n : Fin 512) (f : Fin 12) :
    (V1 m ρ c main_call0_v0 : S64x512x12.Idx → Elt F .f32) (ix3 b n f)
      = (m ((c : Thread nD τ).loc main_arg0) : S64x6144.Idx → Elt F .f32) (ix2 b ⟨n.val * 12 + f.val, by omega⟩) := by
  refine (congrFun (V1_v0_term m ρ c) _).trans ?_
  exact shapeCast_apply (s := S64x6144) _ _ _ _ (by
    rw [Shape.rowMajor_val_two, Shape.rowMajor_val_three]
    show b.val * 6144 + (n.val * 12 + f.val) = (b.val * 512 + n.val) * 12 + f.val
    omega)

/-- Layer 0's hidden state: slice 0 of the stacked state, its unit axis dropped, then split into nodes and units. -/
theorem V1_v3_term : (V1 m ρ c main_call0_v3 : S64x512x64.Idx → Elt F .f32)
    = shapeCast S64x512x64 (shapeCast S64x32768
        (extractStridedSlice S1x64x32768 ![0, 0, 0] (m ((c : Thread nD τ).loc main_arg1)) slices_S2x64x32768_S1x64x32768_0_0_0)
        shapeCasts_S1x64x32768_S64x32768) shapeCasts_S64x32768_S64x512x64 := by
  dsimp only [V1, W1]
  after_results <;> rfl

/-- Node `n`'s unit `u` of layer 0's state sits at flat column `64 n + u` of slice 0. -/
theorem V1_v3 (b : Fin 64) (n : Fin 512) (u : Fin 64) :
    (V1 m ρ c main_call0_v3 : S64x512x64.Idx → Elt F .f32) (ix3 b n u)
      = (m ((c : Thread nD τ).loc main_arg1) : S2x64x32768.Idx → Elt F .f32) (ix3 (0 : Fin 2) b ⟨n.val * 64 + u.val, by omega⟩) := by
  refine (congrFun (V1_v3_term m ρ c) _).trans ?_
  refine (shapeCast_apply _ _ (ix3 b n u) (ix2 b ⟨n.val * 64 + u.val, by omega⟩) (by
    rw [Shape.rowMajor_val_two, Shape.rowMajor_val_three]
    show b.val * 32768 + (n.val * 64 + u.val) = (b.val * 512 + n.val) * 64 + u.val
    omega)).trans ?_
  refine (shapeCast_1ab_ab_apply _ _ b _).trans ?_
  exact extractStridedSlice_apply _ _ _ _ _ (fun a => match a with
    | ⟨0, _⟩ => rfl
    | ⟨1, _⟩ => (Nat.zero_add _).symm
    | ⟨2, _⟩ => (Nat.zero_add _).symm)

/-- The gate weights of layer 0: rows regrouped as (input, order), then the order put first. -/
theorem V1_v8_term : (V1 m ρ c main_call0_v8 : S3x76x128.Idx → Elt F .f32)
    = transpose S3x76x128 [1, 0, 2]
        (shapeCast S76x3x128 (m ((c : Thread nD τ).loc main_arg3)) shapeCasts_S228x128_S76x3x128)
        transposes_S76x3x128_S3x76x128_1_0_2 := by
  dsimp only [V1, W1]
  after_results <;> rfl

/-- Order `k`, input `i` of the gate weights is row `3 i + k` of the argument. -/
theorem V1_v8 (k : Fin 3) (i : Fin 76) (o : Fin 128) :
    (V1 m ρ c main_call0_v8 : S3x76x128.Idx → Elt F .f32) (ix3 k i o)
      = (m ((c : Thread nD τ).loc main_arg3) : S228x128.Idx → Elt F .f32) (ix2 ⟨i.val * 3 + k.val, by omega⟩ o) := by
  refine (congrFun (V1_v8_term m ρ c) _).trans ?_
  refine (transpose_apply _ _ _ (ix3 k i o) (ix3 i k o) (fun b => match b with
    | ⟨0, _⟩ => rfl | ⟨1, _⟩ => rfl | ⟨2, _⟩ => rfl)).trans ?_
  exact shapeCast_apply (s := S228x128) _ _ _ _ (by
    rw [Shape.rowMajor_val_two, Shape.rowMajor_val_three]
    show (i.val * 3 + k.val) * 128 + o.val = (i.val * 3 + k.val) * 128 + o.val
    rfl)

/-- The gate bias of layer 0 as a one-row matrix. -/
theorem V1_v11_term : (V1 m ρ c main_call0_v11 : S1x128.Idx → Elt F .f32)
    = shapeCast S1x128 (m ((c : Thread nD τ).loc main_arg4)) shapeCasts_S128_S1x128 := by
  dsimp only [V1, W1]
  after_results <;> rfl

theorem V1_v11 (o : Fin 128) :
    (V1 m ρ c main_call0_v11 : S1x128.Idx → Elt F .f32) (ix2 (0 : Fin 1) o)
      = (m ((c : Thread nD τ).loc main_arg4) : S128.Idx → Elt F .f32) (ix1 o) := by
  refine (congrFun (V1_v11_term m ρ c) _).trans ?_
  exact shapeCast_a_1a_apply (a := 128) _ _ 0 o

/-- The candidate weights of layer 0: rows regrouped as (input, order), then the order put first. -/
theorem V1_v10_term : (V1 m ρ c main_call0_v10 : S3x76x64.Idx → Elt F .f32)
    = transpose S3x76x64 [1, 0, 2]
        (shapeCast S76x3x64 (m ((c : Thread nD τ).loc main_arg5)) shapeCasts_S228x64_S76x3x64)
        transposes_S76x3x64_S3x76x64_1_0_2 := by
  dsimp only [V1, W1]
  after_results <;> rfl

/-- Order `k`, input `i` of the candidate weights is row `3 i + k` of the argument. -/
theorem V1_v10 (k : Fin 3) (i : Fin 76) (o : Fin 64) :
    (V1 m ρ c main_call0_v10 : S3x76x64.Idx → Elt F .f32) (ix3 k i o)
      = (m ((c : Thread nD τ).loc main_arg5) : S228x64.Idx → Elt F .f32) (ix2 ⟨i.val * 3 + k.val, by omega⟩ o) := by
  refine (congrFun (V1_v10_term m ρ c) _).trans ?_
  refine (transpose_apply _ _ _ (ix3 k i o) (ix3 i k o) (fun b => match b with
    | ⟨0, _⟩ => rfl | ⟨1, _⟩ => rfl | ⟨2, _⟩ => rfl)).trans ?_
  exact shapeCast_apply (s := S228x64) _ _ _ _ (by
    rw [Shape.rowMajor_val_two, Shape.rowMajor_val_three]
    show (i.val * 3 + k.val) * 64 + o.val = (i.val * 3 + k.val) * 64 + o.val
    rfl)

/-- The candidate bias of layer 0 as a one-row matrix. -/
theorem V1_v12_term : (V1 m ρ c main_call0_v12 : S1x64.Idx → Elt F .f32)
    = shapeCast S1x64 (m ((c : Thread nD τ).loc main_arg6)) shapeCasts_S64_S1x64 := by
  dsimp only [V1, W1]
  after_results <;> rfl

theorem V1_v12 (o : Fin 64) :
    (V1 m ρ c main_call0_v12 : S1x64.Idx → Elt F .f32) (ix2 (0 : Fin 1) o)
      = (m ((c : Thread nD τ).loc main_arg6) : S64.Idx → Elt F .f32) (ix1 o) := by
  refine (congrFun (V1_v12_term m ρ c) _).trans ?_
  exact shapeCast_a_1a_apply (a := 64) _ _ 0 o

/-! ## Region 1's entry: the second stretch over region 0's exit -/

/-- Layer 1's four parameter arguments are written by no operation and are no window of region 0. -/
theorem W2_arg7 : W2 m ρ c (Proc.devRef .tc main_arg7) = m ((c : Thread nD τ).loc main_arg7) := by
  refine (W2_of_ne m ρ c main_arg7 (by decide)).trans ?_
  dsimp only [W1]
  after_results <;> rfl
theorem W2_arg8 : W2 m ρ c (Proc.devRef .tc main_arg8) = m ((c : Thread nD τ).loc main_arg8) := by
  refine (W2_of_ne m ρ c main_arg8 (by decide)).trans ?_
  dsimp only [W1]
  after_results <;> rfl
theorem W2_arg9 : W2 m ρ c (Proc.devRef .tc main_arg9) = m ((c : Thread nD τ).loc main_arg9) := by
  refine (W2_of_ne m ρ c main_arg9 (by decide)).trans ?_
  dsimp only [W1]
  after_results <;> rfl
theorem W2_arg10 : W2 m ρ c (Proc.devRef .tc main_arg10) = m ((c : Thread nD τ).loc main_arg10) := by
  refine (W2_of_ne m ρ c main_arg10 (by decide)).trans ?_
  dsimp only [W1]
  after_results <;> rfl

/-- The adjacency matrix is an input window of region 0, which leaves it as entered. -/
theorem V3_arg2 : V3 m ρ c main_arg2 = m ((c : Thread nD τ).loc main_arg2) := by
  have e2 : W2 m ρ c (Proc.devRef .tc main_arg2) = m ((c : Thread nD τ).loc main_arg2) :=
    ((W2_arr m ρ c 2).trans (((dat0 (V1 m ρ) c).arrAt_in 2 rfl _).trans (A_eq0 (V1 m ρ) c 2))).trans (V1_arg2 m ρ c)
  refine Eq.trans ?_ e2
  dsimp only [V3, W3]
  after_results <;> rfl

/-- Region 0's output array reaches region 1 untouched. -/
theorem V3_v13 : V3 m ρ c main_call0_v13 = (dat0 (V1 m ρ) c).arrAt 7 cfg0.N := by
  refine Eq.trans ?_ (W2_arr m ρ c 7)
  dsimp only [V3, W3]
  after_results <;> rfl

/-- Layer 1's hidden state: slice 1 of the stacked state, written before region 0, read by neither region 0's
    write-backs nor the second stretch. -/
theorem V3_v6_term : (V3 m ρ c main_call0_v6 : S64x512x64.Idx → Elt F .f32)
    = shapeCast S64x512x64 (shapeCast S64x32768
        (extractStridedSlice S1x64x32768 ![1, 0, 0] (m ((c : Thread nD τ).loc main_arg1)) slices_S2x64x32768_S1x64x32768_1_0_0)
        shapeCasts_S1x64x32768_S64x32768) shapeCasts_S64x32768_S64x512x64 := by
  have e1 : (W1 m ρ c (Proc.devRef .tc main_call0_v6) : S64x512x64.Idx → Elt F .f32)
      = shapeCast S64x512x64 (shapeCast S64x32768
        (extractStridedSlice S1x64x32768 ![1, 0, 0] (m ((c : Thread nD τ).loc main_arg1)) slices_S2x64x32768_S1x64x32768_1_0_0)
        shapeCasts_S1x64x32768_S64x32768) shapeCasts_S64x32768_S64x512x64 := by
    dsimp only [W1]
    after_results <;> rfl
  refine Eq.trans ?_ ((W2_of_ne m ρ c main_call0_v6 (by decide)).trans e1)
  dsimp only [V3, W3]
  after_results <;> rfl

/-- Node `n`'s unit `u` of layer 1's state sits at flat column `64 n + u` of slice 1. -/
theorem V3_v6 (b : Fin 64) (n : Fin 512) (u : Fin 64) :
    (V3 m ρ c main_call0_v6 : S64x512x64.Idx → Elt F .f32) (ix3 b n u)
      = (m ((c : Thread nD τ).loc main_arg1) : S2x64x32768.Idx → Elt F .f32) (ix3 (1 : Fin 2) b ⟨n.val * 64 + u.val, by omega⟩) := by
  refine (congrFun (V3_v6_term m ρ c) _).trans ?_
  refine (shapeCast_apply _ _ (ix3 b n u) (ix2 b ⟨n.val * 64 + u.val, by omega⟩) (by
    rw [Shape.rowMajor_val_two, Shape.rowMajor_val_three]
    show b.val * 32768 + (n.val * 64 + u.val) = (b.val * 512 + n.val) * 64 + u.val
    omega)).trans ?_
  refine (shapeCast_1ab_ab_apply _ _ b _).trans ?_
  exact extractStridedSlice_apply _ _ _ _ _ (fun a => match a with
    | ⟨0, _⟩ => rfl
    | ⟨1, _⟩ => (Nat.zero_add _).symm
    | ⟨2, _⟩ => (Nat.zero_add _).symm)

/-- The gate weights of layer 1: rows regrouped as (input, order), then the order put first. -/
theorem V3_v15_term : (V3 m ρ c main_call0_v15 : S3x128x128.Idx → Elt F .f32)
    = transpose S3x128x128 [1, 0, 2]
        (shapeCast S128x3x128 (m ((c : Thread nD τ).loc main_arg7)) shapeCasts_S384x128_S128x3x128)
        transposes_S128x3x128_S3x128x128_1_0_2 := by
  have e : (V3 m ρ c main_call0_v15 : S3x128x128.Idx → Elt F .f32)
      = transpose S3x128x128 [1, 0, 2]
          (shapeCast S128x3x128 (W2 m ρ c (Proc.devRef .tc main_arg7)) shapeCasts_S384x128_S128x3x128)
          transposes_S128x3x128_S3x128x128_1_0_2 := by
    dsimp only [V3, W3]
    after_results <;> rfl
  rw [e, W2_arg7]

/-- Order `k`, input `i` of the gate weights is row `3 i + k` of the argument. -/
theorem V3_v15 (k : Fin 3) (i : Fin 128) (o : Fin 128) :
    (V3 m ρ c main_call0_v15 : S3x128x128.Idx → Elt F .f32) (ix3 k i o)
      = (m ((c : Thread nD τ).loc main_arg7) : S384x128.Idx → Elt F .f32) (ix2 ⟨i.val * 3 + k.val, by omega⟩ o) := by
  refine (congrFun (V3_v15_term m ρ c) _).trans ?_
  refine (transpose_apply _ _ _ (ix3 k i o) (ix3 i k o) (fun b => match b with
    | ⟨0, _⟩ => rfl | ⟨1, _⟩ => rfl | ⟨2, _⟩ => rfl)).trans ?_
  exact shapeCast_apply (s := S384x128) _ _ _ _ (by
    rw [Shape.rowMajor_val_two, Shape.rowMajor_val_three]
    show (i.val * 3 + k.val) * 128 + o.val = (i.val * 3 + k.val) * 128 + o.val
    rfl)

/-- The gate bias of layer 1 as a one-row matrix. -/
theorem V3_v18_term : (V3 m ρ c main_call0_v18 : S1x128.Idx → Elt F .f32)
    = shapeCast S1x128 (m ((c : Thread nD τ).loc main_arg8)) shapeCasts_S128_S1x128 := by
  have e : (V3 m ρ c main_call0_v18 : S1x128.Idx → Elt F .f32)
      = shapeCast S1x128 (W2 m ρ c (Proc.devRef .tc main_arg8)) shapeCasts_S128_S1x128 := by
    dsimp only [V3, W3]
    after_results <;> rfl
  rw [e, W2_arg8]

theorem V3_v18 (o : Fin 128) :
    (V3 m ρ c main_call0_v18 : S1x128.Idx → Elt F .f32) (ix2 (0 : Fin 1) o)
      = (m ((c : Thread nD τ).loc main_arg8) : S128.Idx → Elt F .f32) (ix1 o) := by
  refine (congrFun (V3_v18_term m ρ c) _).trans ?_
  exact shapeCast_a_1a_apply (a := 128) _ _ 0 o

/-- The candidate weights of layer 1: rows regrouped as (input, order), then the order put first. -/
theorem V3_v17_term : (V3 m ρ c main_call0_v17 : S3x128x64.Idx → Elt F .f32)
    = transpose S3x128x64 [1, 0, 2]
        (shapeCast S128x3x64 (m ((c : Thread nD τ).loc main_arg9)) shapeCasts_S384x64_S128x3x64)
        transposes_S128x3x64_S3x128x64_1_0_2 := by
  have e : (V3 m ρ c main_call0_v17 : S3x128x64.Idx → Elt F .f32)
      = transpose S3x128x64 [1, 0, 2]
          (shapeCast S128x3x64 (W2 m ρ c (Proc.devRef .tc main_arg9)) shapeCasts_S384x64_S128x3x64)
          transposes_S128x3x64_S3x128x64_1_0_2 := by
    dsimp only [V3, W3]
    after_results <;> rfl
  rw [e, W2_arg9]

/-- Order `k`, input `i` of the candidate weights is row `3 i + k` of the argument. -/
theorem V3_v17 (k : Fin 3) (i : Fin 128) (o : Fin 64) :
    (V3 m ρ c main_call0_v17 : S3x128x64.Idx → Elt F .f32) (ix3 k i o)
      = (m ((c : Thread nD τ).loc main_arg9) : S384x64.Idx → Elt F .f32) (ix2 ⟨i.val * 3 + k.val, by omega⟩ o) := by
  refine (congrFun (V3_v17_term m ρ c) _).trans ?_
  refine (transpose_apply _ _ _ (ix3 k i o) (ix3 i k o) (fun b => match b with
    | ⟨0, _⟩ => rfl | ⟨1, _⟩ => rfl | ⟨2, _⟩ => rfl)).trans ?_
  exact shapeCast_apply (s := S384x64) _ _ _ _ (by
    rw [Shape.rowMajor_val_two, Shape.rowMajor_val_three]
    show (i.val * 3 + k.val) * 64 + o.val = (i.val * 3 + k.val) * 64 + o.val
    rfl)

/-- The candidate bias of layer 1 as a one-row matrix. -/
theorem V3_v19_term : (V3 m ρ c main_call0_v19 : S1x64.Idx → Elt F .f32)
    = shapeCast S1x64 (m ((c : Thread nD τ).loc main_arg10)) shapeCasts_S64_S1x64 := by
  have e : (V3 m ρ c main_call0_v19 : S1x64.Idx → Elt F .f32)
      = shapeCast S1x64 (W2 m ρ c (Proc.devRef .tc main_arg10)) shapeCasts_S64_S1x64 := by
    dsimp only [V3, W3]
    after_results <;> rfl
  rw [e, W2_arg10]

theorem V3_v19 (o : Fin 64) :
    (V3 m ρ c main_call0_v19 : S1x64.Idx → Elt F .f32) (ix2 (0 : Fin 1) o)
      = (m ((c : Thread nD τ).loc main_arg10) : S64.Idx → Elt F .f32) (ix1 o) := by
  refine (congrFun (V3_v19_term m ρ c) _).trans ?_
  exact shapeCast_a_1a_apply (a := 64) _ _ 0 o

/-! ## The results: the third stretch over region 1's exit -/

/-- Region 0's output array is region 1's input window 0, which region 1 leaves as entered. -/
theorem W4_v13 : W4 m ρ c (Proc.devRef .tc main_call0_v13) = (dat0 (V1 m ρ) c).arrAt 7 cfg0.N :=
  (W4_arr m ρ c 0).trans ((((dat1 (V3 m ρ) c).arrAt_in 0 rfl _).trans (A_eq1 (V3 m ρ) c 0)).trans (V3_v13 m ρ c))

/-- The first result: region 1's output array with nodes and units flattened. -/
theorem W5_v0_0 : W5 m ρ c (Proc.devRef .tc main_v0_0)
    = shapeCast S64x32768 ((dat1 (V3 m ρ) c).arrAt 7 cfg1.N) shapeCasts_S64x512x64_S64x32768 := by
  rw [← W4_arr m ρ c 7]
  dsimp only [W5]
  after_results <;> rfl

/-- The second result: the two layers' flattened outputs stacked along a new leading axis. -/
theorem W5_v0_1 : W5 m ρ c (Proc.devRef .tc main_v0_1) = concatenate S2x64x32768 0
    [⟨S1x64x32768, broadcastInDim S1x64x32768 ![1, 2] bcast_S64x32768_S1x64x32768_1_2 (shapeCast S64x32768 ((dat0 (V1 m ρ) c).arrAt 7 cfg0.N) shapeCasts_S64x512x64_S64x32768)⟩,
     ⟨S1x64x32768, broadcastInDim S1x64x32768 ![1, 2] bcast_S64x32768_S1x64x32768_1_2 (shapeCast S64x32768 ((dat1 (V3 m ρ) c).arrAt 7 cfg1.N) shapeCasts_S64x512x64_S64x32768)⟩]
    concatenates_S1x64x32768_S1x64x32768_S2x64x32768_d0 := by
  rw [← W4_arr m ρ c 7, ← W4_v13 m ρ c]
  dsimp only [W5]
  after_results <;> rfl

end Cert.KernelIdeal.Host

end
-- ==== Proof.KValue.lean ====
/-
  The idealized kernel program's two results, as the layers' functions of the argument arrays.

  The first kernel launch's output array holds layer 0's new state `Cert.Layer.H0` — at batch element `b` the body's cell over
  the blocks of the arrays that the host operations before it laid out (the inputs and the state reshaped `[64, 512, ·]`,
  the weights reshaped and transposed Chebyshev order first, the biases as one row) —, the second launch's output array
  layer 1's new state `Cert.Layer.H1` over it; the program returns the second flat, and both flat and stacked.
-/
import proofs.«127843_g48979807044056_cont_8to1c4_176_1_alg».proof.Proof.Gen.KernelIdeal.Frame
import proofs.«127843_g48979807044056_cont_8to1c4_176_1_alg».proof.Proof.Spec
import proofs.«127843_g48979807044056_cont_8to1c4_176_1_alg».proof.Proof.Layer
import proofs.«127843_g48979807044056_cont_8to1c4_176_1_alg».proof.Proof.KPay0
import proofs.«127843_g48979807044056_cont_8to1c4_176_1_alg».proof.Proof.KPay1
import proofs.«127843_g48979807044056_cont_8to1c4_176_1_alg».proof.Proof.KBlocks0
import proofs.«127843_g48979807044056_cont_8to1c4_176_1_alg».proof.Proof.KBlocks1
import proofs.«127843_g48979807044056_cont_8to1c4_176_1_alg».proof.Proof.KHost
import Idealize.ShloMosaic.Lib.ValueIdx
import Idealize.ShloMosaic.Lib.Pipeline.Value
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Layer 0's new state, as the eleven argument arrays' function (seven of them enter). -/
abbrev L0 : Fin 64 → Fin 512 → Fin 64 → EReal :=
  Cert.Layer.H0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- Layer 1's new state over layer 0's. -/
abbrev L1 : Fin 64 → Fin 512 → Fin 64 → EReal :=
  Cert.Layer.H1 (L0 m c) (m ((c : Thread nD τ).loc main_arg1)) (m ((c : Thread nD τ).loc main_arg2))
    (m ((c : Thread nD τ).loc main_arg7)) (m ((c : Thread nD τ).loc main_arg8)) (m ((c : Thread nD τ).loc main_arg9)) (m ((c : Thread nD τ).loc main_arg10))

/-- The first region's output array holds layer 0's new state: the body's cell at each point, over the blocks of the
    arrays the host operations before the region laid out. -/
theorem h0_at (b : Fin 64) (n : Fin 512) (u : Fin 64) :
    ((dat0 (F := Ideal) (V1 m ρ) c).arrAt 7 cfg0.N : S64x512x64.Idx → EReal) (ix3 b n u) = L0 m c b n u := by
  refine (Blocks0.region_at (V1 m ρ) c Pay0.pay_apply b n u).trans ?_
  have e2 : (fun (n m' : Fin 512) => (V1 m ρ c main_arg2 : S512x512.Idx → EReal) (ix2 n m'))
      = Cert.Layer.Sup (m ((c : Thread nD τ).loc main_arg2)) := by
    funext n m'; exact congrFun (Host.V1_arg2 m ρ c) (ix2 n m')
  have e0 : (fun (n : Fin 512) (f : Fin 12) => (V1 m ρ c main_call0_v0 : S64x512x12.Idx → EReal) (ix3 b n f))
      = Cert.Layer.X0 (m ((c : Thread nD τ).loc main_arg0)) b := by
    funext n f; exact Host.V1_v0 m ρ c b n f
  have e1 : (fun (n : Fin 512) (u : Fin 64) => (V1 m ρ c main_call0_v3 : S64x512x64.Idx → EReal) (ix3 b n u))
      = Cert.Layer.Hst (m ((c : Thread nD τ).loc main_arg1)) 0 b := by
    funext n u; exact Host.V1_v3 m ρ c b n u
  have e3 : (fun (i : Fin 76) (k : Fin 3) (o : Fin 128) => (V1 m ρ c main_call0_v8 : S3x76x128.Idx → EReal) (ix3 k i o))
      = Cert.Layer.W0g (m ((c : Thread nD τ).loc main_arg3)) := by
    funext i k o; exact Host.V1_v8 m ρ c k i o
  have e4 : (fun (o : Fin 128) => (V1 m ρ c main_call0_v11 : S1x128.Idx → EReal) (ix2 (0 : Fin 1) o))
      = Cert.Layer.Bg (m ((c : Thread nD τ).loc main_arg4)) := by
    funext o; exact Host.V1_v11 m ρ c o
  have e5 : (fun (i : Fin 76) (k : Fin 3) (o : Fin 64) => (V1 m ρ c main_call0_v10 : S3x76x64.Idx → EReal) (ix3 k i o))
      = Cert.Layer.W0c (m ((c : Thread nD τ).loc main_arg5)) := by
    funext i k o; exact Host.V1_v10 m ρ c k i o
  have e6 : (fun (o : Fin 64) => (V1 m ρ c main_call0_v12 : S1x64.Idx → EReal) (ix2 (0 : Fin 1) o))
      = Cert.Layer.Bc (m ((c : Thread nD τ).loc main_arg6)) := by
    funext o; exact Host.V1_v12 m ρ c o
  rw [e2, e0, e1, e3, e4, e5, e6]
  rfl

/-- The second region's output array holds layer 1's new state: its input window reads the first region's array. -/
theorem h1_at (b : Fin 64) (n : Fin 512) (u : Fin 64) :
    ((dat1 (F := Ideal) (V3 m ρ) c).arrAt 7 cfg1.N : S64x512x64.Idx → EReal) (ix3 b n u) = L1 m c b n u := by
  refine (Blocks1.region_at (V3 m ρ) c Pay1.pay_apply b n u).trans ?_
  have e2 : (fun (n m' : Fin 512) => (V3 m ρ c main_arg2 : S512x512.Idx → EReal) (ix2 n m'))
      = Cert.Layer.Sup (m ((c : Thread nD τ).loc main_arg2)) := by
    funext n m'; exact congrFun (Host.V3_arg2 m ρ c) (ix2 n m')
  have e0 : (fun (n : Fin 512) (f : Fin 64) => (V3 m ρ c main_call0_v13 : S64x512x64.Idx → EReal) (ix3 b n f)) = L0 m c b := by
    funext n f; exact (congrFun (Host.V3_v13 m ρ c) (ix3 b n f)).trans (h0_at m ρ c b n f)
  have e1 : (fun (n : Fin 512) (u : Fin 64) => (V3 m ρ c main_call0_v6 : S64x512x64.Idx → EReal) (ix3 b n u))
      = Cert.Layer.Hst (m ((c : Thread nD τ).loc main_arg1)) 1 b := by
    funext n u; exact Host.V3_v6 m ρ c b n u
  have e3 : (fun (i : Fin 128) (k : Fin 3) (o : Fin 128) => (V3 m ρ c main_call0_v15 : S3x128x128.Idx → EReal) (ix3 k i o))
      = Cert.Layer.W1g (m ((c : Thread nD τ).loc main_arg7)) := by
    funext i k o; exact Host.V3_v15 m ρ c k i o
  have e4 : (fun (o : Fin 128) => (V3 m ρ c main_call0_v18 : S1x128.Idx → EReal) (ix2 (0 : Fin 1) o))
      = Cert.Layer.Bg (m ((c : Thread nD τ).loc main_arg8)) := by
    funext o; exact Host.V3_v18 m ρ c o
  have e5 : (fun (i : Fin 128) (k : Fin 3) (o : Fin 64) => (V3 m ρ c main_call0_v17 : S3x128x64.Idx → EReal) (ix3 k i o))
      = Cert.Layer.W1c (m ((c : Thread nD τ).loc main_arg9)) := by
    funext i k o; exact Host.V3_v17 m ρ c k i o
  have e6 : (fun (o : Fin 64) => (V3 m ρ c main_call0_v19 : S1x64.Idx → EReal) (ix2 (0 : Fin 1) o))
      = Cert.Layer.Bc (m ((c : Thread nD τ).loc main_arg10)) := by
    funext o; exact Host.V3_v19 m ρ c o
  rw [e2, e0, e1, e3, e4, e5, e6]
  rfl

/-- A state array `[64, 512, 64]` reshaped `[64, 512 · 64]` is its flat layout. -/
theorem flat_of_at (X : S64x512x64.Idx → EReal) (f : Fin 64 → Fin 512 → Fin 64 → EReal)
    (h : ∀ (b : Fin 64) (n : Fin 512) (u : Fin 64), X (ix3 b n u) = f b n u) :
    shapeCast S64x32768 X shapeCasts_S64x512x64_S64x32768 = Cert.Layer.flat f := by
  refine Cert.Layer.flat_eq_of_apply _ f fun b n u => ?_
  refine (shapeCast_apply X shapeCasts_S64x512x64_S64x32768 _ (ix3 b n u) ?_).trans (h b n u)
  rw [Shape.rowMajor_val_two, Shape.rowMajor_val_three]
  show (b.val * 512 + n.val) * 64 + u.val = b.val * 32768 + (n.val * 64 + u.val)
  omega

/-- The first result. -/
theorem out0 : W5 m ρ c (Proc.devRef .tc main_v0_0) = Cert.Layer.flat (L1 m c) :=
  (Host.W5_v0_0 m ρ c).trans (flat_of_at _ _ (h1_at m ρ c))

/-- The two layers' new states, each flat, stacked along a new leading axis. -/
abbrev stacked : S2x64x32768.Idx → EReal := concatenate S2x64x32768 0
    [⟨S1x64x32768, broadcastInDim S1x64x32768 ![1, 2] bcast_S64x32768_S1x64x32768_1_2 (Cert.Layer.flat (L0 m c))⟩,
     ⟨S1x64x32768, broadcastInDim S1x64x32768 ![1, 2] bcast_S64x32768_S1x64x32768_1_2 (Cert.Layer.flat (L1 m c))⟩]
    concatenates_S1x64x32768_S1x64x32768_S2x64x32768_d0

/-- The second result: the two layers' new states, stacked. -/
theorem out1 : W5 m ρ c (Proc.devRef .tc main_v0_1) = stacked m c := by
  rw [Host.W5_v0_1 m ρ c, flat_of_at _ _ (h0_at m ρ c), flat_of_at _ _ (h1_at m ρ c)]

end Cert.KernelIdeal.KValue

end
-- ==== Proof.RLayer0.lean ====
/-
  The reference's first layer, read at coordinates.

  The reference computes one diffusion-convolution GRU cell per layer on whole arrays: the inputs `[64, 512·12]` and the
  layer's incoming state `[64, 512·64]` are laid side by side into a panel `[512, 76·64]` (row: node `n`; column
  `i · 64 + b`: feature `i` of batch element `b`); the support matrix is applied once and twice (the diffusion terms); the
  three terms are stacked, turned and merged into `[64·512, 76·3]` (row `b · 512 + n`, column `i · 3 + k`) and multiplied
  by the weights; the gates are the logistic function of that projection plus the bias, the candidate the `tanh` of the
  same projection of the panel built over the reset gate times the state, and the new state `z ⊙ h + (1 − z) ⊙ c`.

  Here every one of those arrays is read at an index given by coordinates and found to be the corresponding quantity of
  `Cert.Spec` over the argument arrays read by coordinates (`Cert.Layer`): the panel is `mk0`, the support products are
  `diff`, the third stacked term is `cheb`, the product with the weights — a sum over `76 · 3` columns regrouped by the
  column's remainder — is `proj`, and so on up to the cell. The arrays are first studied as functions of arbitrary
  operand arrays; the reference's named terms are these functions at the argument arrays. Only commutativity and
  associativity of the extended reals' sums are used: both sides form the same products.
-/
import proofs.«127843_g48979807044056_cont_8to1c4_176_1_alg».proof.Proof.RunDefs
import proofs.«127843_g48979807044056_cont_8to1c4_176_1_alg».proof.Proof.Spec
import proofs.«127843_g48979807044056_cont_8to1c4_176_1_alg».proof.Proof.Layer
import proofs.«127843_g48979807044056_cont_8to1c4_176_1_alg».proof.Proof.LibPlainDot
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

namespace Cert.ReferenceIdeal.RefValue0

open Cert.ReferenceIdeal Cert.ReferenceIdeal.Gen Cert.ReferenceIdeal.Value Idealize.ShloMosaic Idealize.ShloMosaic.TcCoe Idealize.ShloMosaic.ValueIdx Idealize.SL.Sem Idealize.ShloMosaic.StableHlo

/-! ## The state slabs

The incoming states are one array `[2, 64, 512·64]`; layer `l`'s is slab `l`, flattened to `[64, 512·64]`. -/

/-- Slab 0, flattened: entry `(b, q)` is the array at `(0, b, q)`. -/
theorem slab0_apply (X : FVec Ideal S2x64x32768 .f32) (b : Fin 64) (q : Fin 32768) :
    shapeCast S64x32768 (extractStridedSlice S1x64x32768 ![0, 0, 0] X slices_S2x64x32768_S1x64x32768_0_0_0)
        shapeCasts_S1x64x32768_S64x32768 (ix2 b q)
      = X (ix3 (0 : Fin 2) b q) := by
  refine (shapeCast_1ab_ab_apply _ _ b q).trans ?_
  refine extractStridedSlice_apply _ X _ _ (ix3 (0 : Fin 2) b q) fun a => ?_
  match a with
  | ⟨0, _⟩ => rfl
  | ⟨1, _⟩ => exact (Nat.zero_add _).symm
  | ⟨2, _⟩ => exact (Nat.zero_add _).symm

/-- Slab 1, flattened: entry `(b, q)` is the array at `(1, b, q)`. -/
theorem slab1_apply (X : FVec Ideal S2x64x32768 .f32) (b : Fin 64) (q : Fin 32768) :
    shapeCast S64x32768 (extractStridedSlice S1x64x32768 ![1, 0, 0] X slices_S2x64x32768_S1x64x32768_1_0_0)
        shapeCasts_S1x64x32768_S64x32768 (ix2 b q)
      = X (ix3 (1 : Fin 2) b q) := by
  refine (shapeCast_1ab_ab_apply _ _ b q).trans ?_
  refine extractStridedSlice_apply _ X _ _ (ix3 (1 : Fin 2) b q) fun a => ?_
  match a with
  | ⟨0, _⟩ => rfl
  | ⟨1, _⟩ => exact (Nat.zero_add _).symm
  | ⟨2, _⟩ => exact (Nat.zero_add _).symm

/-! ## The panel

The inputs `[64, 512·12]` and a state `[64, 512·64]`, each read `[64, 512, ·]`, are laid side by side along the
feature axis, the batch axis is moved last, and the last two axes are merged: row `n`, column `i · 64 + b` holds
feature `i` of node `n` of batch element `b`. -/

/-- The panel of the inputs `A0` beside the flat state `hf`. -/
def panel (A0 : FVec Ideal S64x6144 .f32) (hf : FVec Ideal S64x32768 .f32) : FVec Ideal S512x4864 .f32 :=
  shapeCast _ (transpose S512x76x64 [1, 2, 0] (concatenate S64x512x76 2 [⟨S64x512x12, (shapeCast _ A0 shapeCasts_S64x6144_S64x512x12)⟩, ⟨S64x512x64, (shapeCast _ hf shapeCasts_S64x32768_S64x512x64)⟩] concatenates_S64x512x12_S64x512x64_S64x512x76_d2) transposes_S64x512x76_S512x76x64_1_2_0) shapeCasts_S512x76x64_S512x4864

/-- A flat state `[64, 512·64]` by coordinates: unit `u` of node `n` of batch element `b` sits at `(b, n · 64 + u)`. -/
def hco (hf : FVec Ideal S64x32768 .f32) (b : Fin 64) (n : Fin 512) (u : Fin 64) : EReal :=
  hf (ix2 b ⟨n.val * 64 + u.val, by omega⟩)

/-- The panel at row `n`, column `i · 64 + b`: input feature `i` when `i < 12`, else unit `i − 12` of the state. -/
theorem panel_apply (A0 : FVec Ideal S64x6144 .f32) (hf : FVec Ideal S64x32768 .f32) (b : Fin 64) (n : Fin 512) (i : Fin 76) :
    panel A0 hf (ix2 n ⟨i.val * 64 + b.val, by omega⟩) = Cert.Layer.mk0 (Cert.Layer.X0 A0 b) (hco hf b) n i := by
  have hb := b.isLt
  have hn := n.isLt
  have hi := i.isLt
  unfold panel
  refine (shapeCast_apply _ _ _ (ix3 n i b) ?_).trans ?_
  · rw [Shape.rowMajor_val_three, Shape.rowMajor_val_two]
    show (n.val * 76 + i.val) * 64 + b.val = n.val * 4864 + (i.val * 64 + b.val)
    omega
  refine (transpose_apply _ _ _ _ (ix3 b n i) fun c => ?_).trans ?_
  · match c with
    | ⟨0, _⟩ => rfl
    | ⟨1, _⟩ => rfl
    | ⟨2, _⟩ => rfl
  unfold Cert.Layer.mk0
  by_cases h : i.val < 12
  · rw [dif_pos h]
    refine (concatenate_pair_apply_left (t := S64x512x76) (s₁ := S64x512x12) (s₂ := S64x512x64) _ _ _ _ _ rfl
      (ix3 b n ⟨i.val, h⟩) fun c => ?_).trans ?_
    · match c with
      | ⟨0, _⟩ => rfl
      | ⟨1, _⟩ => rfl
      | ⟨2, _⟩ => rfl
    unfold Cert.Layer.X0
    refine shapeCast_apply _ _ _ (ix2 b ⟨n.val * 12 + i.val, by omega⟩) ?_
    rw [Shape.rowMajor_val_two, Shape.rowMajor_val_three]
    show b.val * 6144 + (n.val * 12 + i.val) = (b.val * 512 + n.val) * 12 + i.val
    omega
  · rw [dif_neg h]
    refine (concatenate_pair_apply_right (t := S64x512x76) (s₁ := S64x512x12) (s₂ := S64x512x64) _ _ _ _ _ rfl rfl
      (ix3 b n ⟨i.val - 12, by omega⟩) (fun c => ?_) ?_).trans ?_
    · match c with
      | ⟨0, _⟩ => exact fun _ => rfl
      | ⟨1, _⟩ => exact fun _ => rfl
      | ⟨2, _⟩ => exact fun hc => absurd rfl hc
    · show i.val - 12 + 12 = i.val
      omega
    unfold hco
    refine shapeCast_apply _ _ _ (ix2 b ⟨n.val * 64 + (i.val - 12), by omega⟩) ?_
    rw [Shape.rowMajor_val_two, Shape.rowMajor_val_three]
    show b.val * 32768 + (n.val * 64 + (i.val - 12)) = (b.val * 512 + n.val) * 64 + (i.val - 12)
    omega

/-! ## The diffusion terms

One diffusion step is the support matrix times a panel; the second Chebyshev term is twice the support matrix times
the first step, less the panel. -/

/-- The support matrix times a panel. -/
def sdot (S : FVec Ideal S512x512 .f32) (P : FVec Ideal S512x4864 .f32) : FVec Ideal S512x4864 .f32 :=
  Host.dotGeneral dot_S512x512_S512x4864_S512x4864_1_0_0_1_n_n none S P

/-- The product at `(n, q)`: `∑ m, S (n, m) * P (m, q)`. -/
theorem sdot_apply (S : FVec Ideal S512x512 .f32) (P : FVec Ideal S512x4864 .f32) (n : Fin 512) (q : Fin 4864) :
    sdot S P (ix2 n q) = ∑ m : Fin 512, S (ix2 n m) * P (ix2 m q) :=
  Cert.LibPlainDot.dotGeneral_apply _ rfl none S P n q

/-- The second Chebyshev term of a panel. -/
def cheb2 (S : FVec Ideal S512x512 .f32) (P : FVec Ideal S512x4864 .f32) : FVec Ideal S512x4864 .f32 :=
  subf (mulf (broadcastInDim S512x4864 ![] bcast_S_S512x4864 (constant (F := Ideal) S_ .f32 0x40000000#32)) (sdot S (sdot S P))) P

/-- The second Chebyshev term at an index: `2 · (S · (S · P)) − P` there. -/
theorem cheb2_apply (S : FVec Ideal S512x512 .f32) (P : FVec Ideal S512x4864 .f32) (j : S512x4864.Idx) :
    cheb2 S P j = Cert.Spec.two * sdot S (sdot S P) j - P j := rfl

/-! ## The three terms stacked

The three panels `[512, 76·64]` are stacked `[3, 512, 76·64]`, read `[3, 512, 76, 64]`, turned to `[64, 512, 76, 3]` and
merged to `[64·512, 76·3]`: row `b · 512 + n`, column `i · 3 + k` holds term `k` at row `n`, column `i · 64 + b`. -/

/-- The stacked, turned and merged terms. -/
def stack3 (P Q R : FVec Ideal S512x4864 .f32) : FVec Ideal S32768x228 .f32 :=
  shapeCast _ (transpose S64x512x76x3 [3, 1, 2, 0] (shapeCast _ (concatenate S3x512x4864 0 [⟨S1x512x4864, (broadcastInDim S1x512x4864 ![1, 2] bcast_S512x4864_S1x512x4864_1_2 P)⟩, ⟨S1x512x4864, (broadcastInDim S1x512x4864 ![1, 2] bcast_S512x4864_S1x512x4864_1_2 Q)⟩, ⟨S1x512x4864, (broadcastInDim S1x512x4864 ![1, 2] bcast_S512x4864_S1x512x4864_1_2 R)⟩] concatenates_S1x512x4864_S1x512x4864_S1x512x4864_S3x512x4864_d0) shapeCasts_S3x512x4864_S3x512x76x64) transposes_S3x512x76x64_S64x512x76x3_3_1_2_0) shapeCasts_S64x512x76x3_S32768x228

/-- A panel given a leading unit axis reads the panel. -/
theorem unitrow_apply (P : FVec Ideal S512x4864 .f32) (n : Fin 512) (q : Fin 4864) :
    broadcastInDim S1x512x4864 ![1, 2] bcast_S512x4864_S1x512x4864_1_2 P (ix3 (0 : Fin 1) n q) = P (ix2 n q) := by
  refine broadcastInDim_apply _ _ P _ (ix2 n q) fun a => ?_
  match a with
  | ⟨0, _⟩ => rfl
  | ⟨1, _⟩ => rfl

/-- The merged array at row `b · 512 + n`, column `i · 3 + k` is the stack at `(k, n, i · 64 + b)`. -/
theorem stack3_apply_aux (P Q R : FVec Ideal S512x4864 .f32) (b : Fin 64) (n : Fin 512) (i : Fin 76) (k : Fin 3) :
    stack3 P Q R (ix2 ⟨b.val * 512 + n.val, by omega⟩ ⟨i.val * 3 + k.val, by omega⟩)
      = concatenate S3x512x4864 0 [⟨S1x512x4864, (broadcastInDim S1x512x4864 ![1, 2] bcast_S512x4864_S1x512x4864_1_2 P)⟩, ⟨S1x512x4864, (broadcastInDim S1x512x4864 ![1, 2] bcast_S512x4864_S1x512x4864_1_2 Q)⟩, ⟨S1x512x4864, (broadcastInDim S1x512x4864 ![1, 2] bcast_S512x4864_S1x512x4864_1_2 R)⟩] concatenates_S1x512x4864_S1x512x4864_S1x512x4864_S3x512x4864_d0
          (ix3 k n ⟨i.val * 64 + b.val, by omega⟩) := by
  have hb := b.isLt
  have hn := n.isLt
  have hi := i.isLt
  have hk := k.isLt
  unfold stack3
  refine (shapeCast_apply _ _ _ (ix4 b n i k) ?_).trans ?_
  · rw [Shape.rowMajor_val_four, Shape.rowMajor_val_two]
    show ((b.val * 512 + n.val) * 76 + i.val) * 3 + k.val = (b.val * 512 + n.val) * 228 + (i.val * 3 + k.val)
    omega
  refine (transpose_apply _ _ _ _ (ix4 k n i b) fun c => ?_).trans ?_
  · match c with
    | ⟨0, _⟩ => rfl
    | ⟨1, _⟩ => rfl
    | ⟨2, _⟩ => rfl
    | ⟨3, _⟩ => rfl
  refine shapeCast_apply _ _ _ (ix3 k n ⟨i.val * 64 + b.val, by omega⟩) ?_
  rw [Shape.rowMajor_val_three, Shape.rowMajor_val_four]
  show (k.val * 512 + n.val) * 4864 + (i.val * 64 + b.val) = ((k.val * 512 + n.val) * 76 + i.val) * 64 + b.val
  omega

/-- Column `i · 3` holds the first panel. -/
theorem stack3_apply0 (P Q R : FVec Ideal S512x4864 .f32) (b : Fin 64) (n : Fin 512) (i : Fin 76) :
    stack3 P Q R (ix2 ⟨b.val * 512 + n.val, by omega⟩ ⟨i.val * 3 + 0, by omega⟩) = P (ix2 n ⟨i.val * 64 + b.val, by omega⟩) := by
  refine (stack3_apply_aux P Q R b n i 0).trans ?_
  refine (concatenate_apply_piece (t := S3x512x4864) 0 _ _ _ 0 ?_ S1x512x4864 _ ?_ rfl 0 ?_
    (ix3 (0 : Fin 1) n ⟨i.val * 64 + b.val, by omega⟩) (fun c => ?_) ?_).trans (unitrow_apply P n _)
  · show (0 : ℕ) < 3
    omega
  · rfl
  · rfl
  · match c with
    | ⟨0, _⟩ => exact fun hc => absurd rfl hc
    | ⟨1, _⟩ => exact fun _ => rfl
    | ⟨2, _⟩ => exact fun _ => rfl
  · rfl

/-- Column `i · 3 + 1` holds the second panel. -/
theorem stack3_apply1 (P Q R : FVec Ideal S512x4864 .f32) (b : Fin 64) (n : Fin 512) (i : Fin 76) :
    stack3 P Q R (ix2 ⟨b.val * 512 + n.val, by omega⟩ ⟨i.val * 3 + 1, by omega⟩) = Q (ix2 n ⟨i.val * 64 + b.val, by omega⟩) := by
  refine (stack3_apply_aux P Q R b n i 1).trans ?_
  refine (concatenate_apply_piece (t := S3x512x4864) 0 _ _ _ 1 ?_ S1x512x4864 _ ?_ rfl 1 ?_
    (ix3 (0 : Fin 1) n ⟨i.val * 64 + b.val, by omega⟩) (fun c => ?_) ?_).trans (unitrow_apply Q n _)
  · show (1 : ℕ) < 3
    omega
  · rfl
  · rfl
  · match c with
    | ⟨0, _⟩ => exact fun hc => absurd rfl hc
    | ⟨1, _⟩ => exact fun _ => rfl
    | ⟨2, _⟩ => exact fun _ => rfl
  · rfl

/-- Column `i · 3 + 2` holds the third panel. -/
theorem stack3_apply2 (P Q R : FVec Ideal S512x4864 .f32) (b : Fin 64) (n : Fin 512) (i : Fin 76) :
    stack3 P Q R (ix2 ⟨b.val * 512 + n.val, by omega⟩ ⟨i.val * 3 + 2, by omega⟩) = R (ix2 n ⟨i.val * 64 + b.val, by omega⟩) := by
  refine (stack3_apply_aux P Q R b n i 2).trans ?_
  refine (concatenate_apply_piece (t := S3x512x4864) 0 _ _ _ 2 ?_ S1x512x4864 _ ?_ rfl 2 ?_
    (ix3 (0 : Fin 1) n ⟨i.val * 64 + b.val, by omega⟩) (fun c => ?_) ?_).trans (unitrow_apply R n _)
  · show (2 : ℕ) < 3
    omega
  · rfl
  · rfl
  · match c with
    | ⟨0, _⟩ => exact fun hc => absurd rfl hc
    | ⟨1, _⟩ => exact fun _ => rfl
    | ⟨2, _⟩ => exact fun _ => rfl
  · rfl

/-! ## The projection

The stacked terms `[64·512, 76·3]` times the weights `[76·3, out]`, plus the bias broadcast over the rows. -/

/-- The stacked terms times the weights, plus the bias row (128 outputs). -/
def projg (XS : FVec Ideal S32768x228 .f32) (W : FVec Ideal S228x128 .f32) (bias : FVec Ideal S128 .f32) : FVec Ideal S32768x128 .f32 :=
  addf (Host.dotGeneral dot_S32768x228_S228x128_S32768x128_1_0_0_1_n_n none XS W) (broadcastInDim S32768x128 ![0, 1] bcast_S1x128_S32768x128_0_1 (broadcastInDim S1x128 ![1] bcast_S128_S1x128_1 bias))

/-- At `(r, o)`: `∑ c, XS (r, c) * W (c, o)`, plus the bias at `o`. -/
theorem projg_apply (XS : FVec Ideal S32768x228 .f32) (W : FVec Ideal S228x128 .f32) (bias : FVec Ideal S128 .f32)
    (r : Fin 32768) (o : Fin 128) :
    projg XS W bias (ix2 r o) = (∑ c : Fin 228, XS (ix2 r c) * W (ix2 c o)) + bias (ix1 o) := by
  unfold projg
  refine (addf_apply _ _ _).trans (congrArg₂ (· + ·) ?_ ?_)
  · exact Cert.LibPlainDot.dotGeneral_apply _ rfl none XS W r o
  · refine (broadcastInDim_apply _ _ _ _ (ix2 (0 : Fin 1) o) fun a => ?_).trans ?_
    · match a with
      | ⟨0, _⟩ => rfl
      | ⟨1, _⟩ => rfl
    refine broadcastInDim_apply _ _ bias _ (ix1 o) fun a => ?_
    match a with
    | ⟨0, _⟩ => rfl

/-- Over a panel `P` whose columns `i · 64 + b` hold `g · i`, the three stacked terms against the weights, at row
    `b · 512 + n`, are the projection of `g`: the sum over the 228 columns is regrouped by Chebyshev order. -/
theorem projg_stack (S : FVec Ideal S512x512 .f32) (P : FVec Ideal S512x4864 .f32) (W : FVec Ideal S228x128 .f32)
    (bias : FVec Ideal S128 .f32) (g : Fin 512 → Fin 76 → EReal) (b : Fin 64)
    (hP : ∀ (n : Fin 512) (i : Fin 76), P (ix2 n ⟨i.val * 64 + b.val, by omega⟩) = g n i) (n : Fin 512) (o : Fin 128) :
    projg (stack3 P (sdot S P) (cheb2 S P)) W bias (ix2 ⟨b.val * 512 + n.val, by omega⟩ o)
      = Cert.Spec.proj (Cert.Layer.Sup S) g (Cert.Layer.W0g W) (Cert.Layer.Bg bias) n o := by
  have hd : ∀ (n : Fin 512) (i : Fin 76), sdot S P (ix2 n ⟨i.val * 64 + b.val, by omega⟩) = Cert.Spec.diff (Cert.Layer.Sup S) g n i := by
    intro n i
    refine (sdot_apply S P n _).trans ?_
    unfold Cert.Spec.diff
    exact Finset.sum_congr rfl fun m _ => congrArg (S (ix2 n m) * ·) (hP m i)
  have hdd : ∀ (n : Fin 512) (i : Fin 76), sdot S (sdot S P) (ix2 n ⟨i.val * 64 + b.val, by omega⟩)
      = Cert.Spec.diff (Cert.Layer.Sup S) (Cert.Spec.diff (Cert.Layer.Sup S) g) n i := by
    intro n i
    refine (sdot_apply S (sdot S P) n _).trans ?_
    show _ = ∑ m : Fin 512, Cert.Layer.Sup S n m * Cert.Spec.diff (Cert.Layer.Sup S) g m i
    exact Finset.sum_congr rfl fun m _ => congrArg (S (ix2 n m) * ·) (hd m i)
  have hc : ∀ (n : Fin 512) (i : Fin 76), cheb2 S P (ix2 n ⟨i.val * 64 + b.val, by omega⟩) = Cert.Spec.cheb (Cert.Layer.Sup S) g n i := by
    intro n i
    refine (cheb2_apply S P _).trans ?_
    unfold Cert.Spec.cheb
    rw [hdd n i, hP n i]
  refine ((projg_apply _ W bias _ o).trans (congrArg (· + bias (ix1 o)) (Cert.Spec.sum_fin_mul3 76 228 (by norm_num) _))).trans ?_
  unfold Cert.Spec.proj
  refine congrArg₂ (· + ·) (congrArg₂ (· + ·) (congrArg₂ (· + ·) ?_ ?_) ?_) rfl
  · refine Finset.sum_congr rfl fun i _ => ?_
    refine congrArg₂ (· * ·) ((stack3_apply0 _ _ _ b n i).trans (hP n i)) rfl
  · refine Finset.sum_congr rfl fun i _ => ?_
    refine congrArg₂ (· * ·) ((stack3_apply1 _ _ _ b n i).trans (hd n i)) rfl
  · refine Finset.sum_congr rfl fun i _ => ?_
    refine congrArg₂ (· * ·) ((stack3_apply2 _ _ _ b n i).trans (hc n i)) rfl

/-- The stacked terms times the weights, plus the bias row (64 outputs). -/
def projc (XS : FVec Ideal S32768x228 .f32) (W : FVec Ideal S228x64 .f32) (bias : FVec Ideal S64 .f32) : FVec Ideal S32768x64 .f32 :=
  addf (Host.dotGeneral dot_S32768x228_S228x64_S32768x64_1_0_0_1_n_n none XS W) (broadcastInDim S32768x64 ![0, 1] bcast_S1x64_S32768x64_0_1 (broadcastInDim S1x64 ![1] bcast_S64_S1x64_1 bias))

/-- At `(r, o)`: `∑ c, XS (r, c) * W (c, o)`, plus the bias at `o`. -/
theorem projc_apply (XS : FVec Ideal S32768x228 .f32) (W : FVec Ideal S228x64 .f32) (bias : FVec Ideal S64 .f32)
    (r : Fin 32768) (o : Fin 64) :
    projc XS W bias (ix2 r o) = (∑ c : Fin 228, XS (ix2 r c) * W (ix2 c o)) + bias (ix1 o) := by
  unfold projc
  refine (addf_apply _ _ _).trans (congrArg₂ (· + ·) ?_ ?_)
  · exact Cert.LibPlainDot.dotGeneral_apply _ rfl none XS W r o
  · refine (broadcastInDim_apply _ _ _ _ (ix2 (0 : Fin 1) o) fun a => ?_).trans ?_
    · match a with
      | ⟨0, _⟩ => rfl
      | ⟨1, _⟩ => rfl
    refine broadcastInDim_apply _ _ bias _ (ix1 o) fun a => ?_
    match a with
    | ⟨0, _⟩ => rfl

/-- Over a panel `P` whose columns `i · 64 + b` hold `g · i`, the three stacked terms against the weights, at row
    `b · 512 + n`, are the projection of `g`: the sum over the 228 columns is regrouped by Chebyshev order. -/
theorem projc_stack (S : FVec Ideal S512x512 .f32) (P : FVec Ideal S512x4864 .f32) (W : FVec Ideal S228x64 .f32)
    (bias : FVec Ideal S64 .f32) (g : Fin 512 → Fin 76 → EReal) (b : Fin 64)
    (hP : ∀ (n : Fin 512) (i : Fin 76), P (ix2 n ⟨i.val * 64 + b.val, by omega⟩) = g n i) (n : Fin 512) (o : Fin 64) :
    projc (stack3 P (sdot S P) (cheb2 S P)) W bias (ix2 ⟨b.val * 512 + n.val, by omega⟩ o)
      = Cert.Spec.proj (Cert.Layer.Sup S) g (Cert.Layer.W0c W) (Cert.Layer.Bc bias) n o := by
  have hd : ∀ (n : Fin 512) (i : Fin 76), sdot S P (ix2 n ⟨i.val * 64 + b.val, by omega⟩) = Cert.Spec.diff (Cert.Layer.Sup S) g n i := by
    intro n i
    refine (sdot_apply S P n _).trans ?_
    unfold Cert.Spec.diff
    exact Finset.sum_congr rfl fun m _ => congrArg (S (ix2 n m) * ·) (hP m i)
  have hdd : ∀ (n : Fin 512) (i : Fin 76), sdot S (sdot S P) (ix2 n ⟨i.val * 64 + b.val, by omega⟩)
      = Cert.Spec.diff (Cert.Layer.Sup S) (Cert.Spec.diff (Cert.Layer.Sup S) g) n i := by
    intro n i
    refine (sdot_apply S (sdot S P) n _).trans ?_
    show _ = ∑ m : Fin 512, Cert.Layer.Sup S n m * Cert.Spec.diff (Cert.Layer.Sup S) g m i
    exact Finset.sum_congr rfl fun m _ => congrArg (S (ix2 n m) * ·) (hd m i)
  have hc : ∀ (n : Fin 512) (i : Fin 76), cheb2 S P (ix2 n ⟨i.val * 64 + b.val, by omega⟩) = Cert.Spec.cheb (Cert.Layer.Sup S) g n i := by
    intro n i
    refine (cheb2_apply S P _).trans ?_
    unfold Cert.Spec.cheb
    rw [hdd n i, hP n i]
  refine ((projc_apply _ W bias _ o).trans (congrArg (· + bias (ix1 o)) (Cert.Spec.sum_fin_mul3 76 228 (by norm_num) _))).trans ?_
  unfold Cert.Spec.proj
  refine congrArg₂ (· + ·) (congrArg₂ (· + ·) (congrArg₂ (· + ·) ?_ ?_) ?_) rfl
  · refine Finset.sum_congr rfl fun i _ => ?_
    refine congrArg₂ (· * ·) ((stack3_apply0 _ _ _ b n i).trans (hP n i)) rfl
  · refine Finset.sum_congr rfl fun i _ => ?_
    refine congrArg₂ (· * ·) ((stack3_apply1 _ _ _ b n i).trans (hd n i)) rfl
  · refine Finset.sum_congr rfl fun i _ => ?_
    refine congrArg₂ (· * ·) ((stack3_apply2 _ _ _ b n i).trans (hc n i)) rfl

/-! ## The gates

The gate projection passes through `1 / (1 + exp (−·))`, the logistic function, and is read `[64, 512, 128]`; its first
64 outputs are the reset gate, its last 64 the update gate, each flattened `[64, 512·64]`. -/

/-- The logistic quotient of a projection `[64·512, 128]`, read `[64, 512, 128]`. -/
def gatesv (Y : FVec Ideal S32768x128 .f32) : FVec Ideal S64x512x128 .f32 :=
  shapeCast _ (Host.divf (broadcastInDim S32768x128 ![] bcast_S_S32768x128 (constant (F := Ideal) S_ .f32 0x3F800000#32)) (addf (broadcastInDim S32768x128 ![] bcast_S_S32768x128 (constant (F := Ideal) S_ .f32 0x3F800000#32)) (Host.exp (Host.negf Y)))) shapeCasts_S32768x128_S64x512x128

/-- At `(b, n, o)`: the logistic function of the projection at row `b · 512 + n`. -/
theorem gatesv_apply (Y : FVec Ideal S32768x128 .f32) (b : Fin 64) (n : Fin 512) (o : Fin 128) :
    gatesv Y (ix3 b n o) = Ideal.logistic (Y (ix2 ⟨b.val * 512 + n.val, by omega⟩ o)) := by
  unfold gatesv
  refine (shapeCast_apply _ _ _ (ix2 ⟨b.val * 512 + n.val, by omega⟩ o) ?_).trans ?_
  · rw [Shape.rowMajor_val_two, Shape.rowMajor_val_three]
    rfl
  exact Cert.Spec.div_one_add_exp_neg _

/-- The first 64 gate outputs, flattened. -/
def gslice0 (G : FVec Ideal S64x512x128 .f32) : FVec Ideal S64x32768 .f32 :=
  shapeCast _ (extractStridedSlice S64x512x64 ![0, 0, 0] G slices_S64x512x128_S64x512x64_0_0_0) shapeCasts_S64x512x64_S64x32768

/-- The last 64 gate outputs, flattened. -/
def gslice64 (G : FVec Ideal S64x512x128 .f32) : FVec Ideal S64x32768 .f32 :=
  shapeCast _ (extractStridedSlice S64x512x64 ![0, 0, 64] G slices_S64x512x128_S64x512x64_0_0_64) shapeCasts_S64x512x64_S64x32768

/-- Entry `(b, n · 64 + u)` of the first half is gate output `u`. -/
theorem gslice0_apply (G : FVec Ideal S64x512x128 .f32) (b : Fin 64) (n : Fin 512) (u : Fin 64) :
    gslice0 G (ix2 b ⟨n.val * 64 + u.val, by omega⟩) = G (ix3 b n ⟨u.val, by omega⟩) := by
  have hb := b.isLt
  have hn := n.isLt
  have hu := u.isLt
  unfold gslice0
  refine (shapeCast_apply _ _ _ (ix3 b n u) ?_).trans ?_
  · rw [Shape.rowMajor_val_three, Shape.rowMajor_val_two]
    show (b.val * 512 + n.val) * 64 + u.val = b.val * 32768 + (n.val * 64 + u.val)
    omega
  refine extractStridedSlice_apply _ G _ _ (ix3 b n ⟨u.val, by omega⟩) fun a => ?_
  match a with
  | ⟨0, _⟩ => exact (Nat.zero_add _).symm
  | ⟨1, _⟩ => exact (Nat.zero_add _).symm
  | ⟨2, _⟩ => exact (Nat.zero_add _).symm

/-- Entry `(b, n · 64 + u)` of the second half is gate output `64 + u`. -/
theorem gslice64_apply (G : FVec Ideal S64x512x128 .f32) (b : Fin 64) (n : Fin 512) (u : Fin 64) :
    gslice64 G (ix2 b ⟨n.val * 64 + u.val, by omega⟩) = G (ix3 b n ⟨64 + u.val, by omega⟩) := by
  have hb := b.isLt
  have hn := n.isLt
  have hu := u.isLt
  unfold gslice64
  refine (shapeCast_apply _ _ _ (ix3 b n u) ?_).trans ?_
  · rw [Shape.rowMajor_val_three, Shape.rowMajor_val_two]
    show (b.val * 512 + n.val) * 64 + u.val = b.val * 32768 + (n.val * 64 + u.val)
    omega
  refine extractStridedSlice_apply _ G _ _ (ix3 b n ⟨64 + u.val, by omega⟩) fun a => ?_
  match a with
  | ⟨0, _⟩ => exact (Nat.zero_add _).symm
  | ⟨1, _⟩ => exact (Nat.zero_add _).symm
  | ⟨2, _⟩ => rfl

/-! ## Layer 0 over its argument arrays

The gates of the panel built over the incoming state; the candidate panel built over the reset gate times the state;
the new state `z ⊙ h + (1 − z) ⊙ tanh (projection of the candidate panel)`. -/

/-- The three stacked terms of a panel. -/
def terms (S : FVec Ideal S512x512 .f32) (P : FVec Ideal S512x4864 .f32) : FVec Ideal S32768x228 .f32 :=
  stack3 P (sdot S P) (cheb2 S P)

/-- The gates `[64, 512, 128]` of the panel over the flat state `hf`. -/
def gates0 (A0 : FVec Ideal S64x6144 .f32) (hf : FVec Ideal S64x32768 .f32) (S : FVec Ideal S512x512 .f32)
    (Wg : FVec Ideal S228x128 .f32) (bg : FVec Ideal S128 .f32) : FVec Ideal S64x512x128 .f32 :=
  gatesv (projg (terms S (panel A0 hf)) Wg bg)

/-- The gates by coordinates are the cell's gates. -/
theorem gates0_apply (A0 : FVec Ideal S64x6144 .f32) (hf : FVec Ideal S64x32768 .f32) (S : FVec Ideal S512x512 .f32)
    (Wg : FVec Ideal S228x128 .f32) (bg : FVec Ideal S128 .f32) (b : Fin 64) (n : Fin 512) (o : Fin 128) :
    gates0 A0 hf S Wg bg (ix3 b n o)
      = Cert.Spec.gates (Cert.Layer.Sup S) (Cert.Layer.mk0 (Cert.Layer.X0 A0 b)) (hco hf b) (Cert.Layer.W0g Wg) (Cert.Layer.Bg bg) n o := by
  unfold gates0 Cert.Spec.gates terms
  refine (gatesv_apply _ b n o).trans (congrArg Ideal.logistic ?_)
  exact projg_stack S (panel A0 hf) Wg bg (Cert.Layer.mk0 (Cert.Layer.X0 A0 b) (hco hf b)) b (fun n i => panel_apply A0 hf b n i) n o

/-- The update gate, flat, by coordinates. -/
theorem z0_apply (A0 : FVec Ideal S64x6144 .f32) (hf : FVec Ideal S64x32768 .f32) (S : FVec Ideal S512x512 .f32)
    (Wg : FVec Ideal S228x128 .f32) (bg : FVec Ideal S128 .f32) (b : Fin 64) (n : Fin 512) (u : Fin 64) :
    gslice64 (gates0 A0 hf S Wg bg) (ix2 b ⟨n.val * 64 + u.val, by omega⟩)
      = Cert.Spec.zgate (Cert.Layer.Sup S) (Cert.Layer.mk0 (Cert.Layer.X0 A0 b)) (hco hf b) (Cert.Layer.W0g Wg) (Cert.Layer.Bg bg) n u := by
  unfold Cert.Spec.zgate
  exact (gslice64_apply (gates0 A0 hf S Wg bg) b n u).trans (gates0_apply A0 hf S Wg bg b n ⟨64 + u.val, by omega⟩)

/-- The reset gate, flat, by coordinates. -/
theorem r0_apply (A0 : FVec Ideal S64x6144 .f32) (hf : FVec Ideal S64x32768 .f32) (S : FVec Ideal S512x512 .f32)
    (Wg : FVec Ideal S228x128 .f32) (bg : FVec Ideal S128 .f32) (b : Fin 64) (n : Fin 512) (u : Fin 64) :
    gslice0 (gates0 A0 hf S Wg bg) (ix2 b ⟨n.val * 64 + u.val, by omega⟩)
      = Cert.Spec.rgate (Cert.Layer.Sup S) (Cert.Layer.mk0 (Cert.Layer.X0 A0 b)) (hco hf b) (Cert.Layer.W0g Wg) (Cert.Layer.Bg bg) n u := by
  unfold Cert.Spec.rgate
  exact (gslice0_apply (gates0 A0 hf S Wg bg) b n u).trans (gates0_apply A0 hf S Wg bg b n ⟨u.val, by omega⟩)

/-- The candidate panel: the inputs beside the reset gate times the state. -/
def cpanel (A0 : FVec Ideal S64x6144 .f32) (hf : FVec Ideal S64x32768 .f32) (S : FVec Ideal S512x512 .f32)
    (Wg : FVec Ideal S228x128 .f32) (bg : FVec Ideal S128 .f32) : FVec Ideal S512x4864 .f32 :=
  panel A0 (mulf (gslice0 (gates0 A0 hf S Wg bg)) hf)

/-- The candidate panel by coordinates. -/
theorem cpanel_apply (A0 : FVec Ideal S64x6144 .f32) (hf : FVec Ideal S64x32768 .f32) (S : FVec Ideal S512x512 .f32)
    (Wg : FVec Ideal S228x128 .f32) (bg : FVec Ideal S128 .f32) (b : Fin 64) (n : Fin 512) (i : Fin 76) :
    cpanel A0 hf S Wg bg (ix2 n ⟨i.val * 64 + b.val, by omega⟩)
      = Cert.Layer.mk0 (Cert.Layer.X0 A0 b) (fun n' u' =>
          Cert.Spec.rgate (Cert.Layer.Sup S) (Cert.Layer.mk0 (Cert.Layer.X0 A0 b)) (hco hf b) (Cert.Layer.W0g Wg) (Cert.Layer.Bg bg) n' u'
            * hco hf b n' u') n i := by
  have e : hco (mulf (gslice0 (gates0 A0 hf S Wg bg)) hf) b = fun n' u' =>
      Cert.Spec.rgate (Cert.Layer.Sup S) (Cert.Layer.mk0 (Cert.Layer.X0 A0 b)) (hco hf b) (Cert.Layer.W0g Wg) (Cert.Layer.Bg bg) n' u'
        * hco hf b n' u' := by
    funext n' u'
    unfold hco
    refine (mulf_apply _ _ _).trans ?_
    exact congrArg (· * hf (ix2 b ⟨n'.val * 64 + u'.val, by omega⟩)) (r0_apply A0 hf S Wg bg b n' u')
  unfold cpanel
  refine (panel_apply A0 _ b n i).trans ?_
  rw [e]

/-- Layer 0's new state, flat `[64, 512·64]`. -/
def cellv (A0 : FVec Ideal S64x6144 .f32) (hf : FVec Ideal S64x32768 .f32) (S : FVec Ideal S512x512 .f32)
    (Wg : FVec Ideal S228x128 .f32) (bg : FVec Ideal S128 .f32) (Wc : FVec Ideal S228x64 .f32) (bc : FVec Ideal S64 .f32) :
    FVec Ideal S64x32768 .f32 :=
  addf (mulf (gslice64 (gates0 A0 hf S Wg bg)) hf) (mulf (subf (broadcastInDim S64x32768 ![] bcast_S_S64x32768 (constant (F := Ideal) S_ .f32 0x3F800000#32)) (gslice64 (gates0 A0 hf S Wg bg))) (shapeCast _ (Host.tanh (projc (terms S (cpanel A0 hf S Wg bg)) Wc bc)) shapeCasts_S32768x64_S64x32768))

/-- A projection `[64·512, 64]` through `tanh`, flattened `[64, 512·64]`: entry `(b, n · 64 + u)` is `tanh` of the projection at
    row `b · 512 + n`, column `u`. -/
theorem tanhv_apply (Y : FVec Ideal S32768x64 .f32) (b : Fin 64) (n : Fin 512) (u : Fin 64) :
    shapeCast S64x32768 (Host.tanh Y) shapeCasts_S32768x64_S64x32768 (ix2 b ⟨n.val * 64 + u.val, by omega⟩)
      = Ideal.tanh (Y (ix2 ⟨b.val * 512 + n.val, by omega⟩ u)) := by
  have hb := b.isLt
  have hn := n.isLt
  have hu := u.isLt
  refine (shapeCast_apply _ _ _ (ix2 ⟨b.val * 512 + n.val, by omega⟩ u) ?_).trans rfl
  rw [Shape.rowMajor_val_two, Shape.rowMajor_val_two]
  show (b.val * 512 + n.val) * 64 + u.val = b.val * 32768 + (n.val * 64 + u.val)
  omega

/-- The candidate, flat, by coordinates. -/
theorem cand0_apply (A0 : FVec Ideal S64x6144 .f32) (hf : FVec Ideal S64x32768 .f32) (S : FVec Ideal S512x512 .f32)
    (Wg : FVec Ideal S228x128 .f32) (bg : FVec Ideal S128 .f32) (Wc : FVec Ideal S228x64 .f32) (bc : FVec Ideal S64 .f32)
    (b : Fin 64) (n : Fin 512) (u : Fin 64) :
    shapeCast S64x32768 (Host.tanh (projc (terms S (cpanel A0 hf S Wg bg)) Wc bc)) shapeCasts_S32768x64_S64x32768
        (ix2 b ⟨n.val * 64 + u.val, by omega⟩)
      = Cert.Spec.cand (Cert.Layer.Sup S) (Cert.Layer.mk0 (Cert.Layer.X0 A0 b)) (hco hf b) (Cert.Layer.W0g Wg) (Cert.Layer.Bg bg)
          (Cert.Layer.W0c Wc) (Cert.Layer.Bc bc) n u := by
  unfold Cert.Spec.cand terms
  refine (tanhv_apply _ b n u).trans (congrArg Ideal.tanh ?_)
  exact projc_stack S (cpanel A0 hf S Wg bg) Wc bc _ b (fun n i => cpanel_apply A0 hf S Wg bg b n i) n u

/-- The new state by coordinates is the cell of the specification. -/
theorem cellv_apply (A0 : FVec Ideal S64x6144 .f32) (hf : FVec Ideal S64x32768 .f32) (S : FVec Ideal S512x512 .f32)
    (Wg : FVec Ideal S228x128 .f32) (bg : FVec Ideal S128 .f32) (Wc : FVec Ideal S228x64 .f32) (bc : FVec Ideal S64 .f32)
    (b : Fin 64) (n : Fin 512) (u : Fin 64) :
    cellv A0 hf S Wg bg Wc bc (ix2 b ⟨n.val * 64 + u.val, by omega⟩)
      = Cert.Spec.cell (Cert.Layer.Sup S) (Cert.Layer.mk0 (Cert.Layer.X0 A0 b)) (hco hf b) (Cert.Layer.W0g Wg) (Cert.Layer.Bg bg)
          (Cert.Layer.W0c Wc) (Cert.Layer.Bc bc) n u := by
  have hz := z0_apply A0 hf S Wg bg b n u
  have ht := cand0_apply A0 hf S Wg bg Wc bc b n u
  have h1 : broadcastInDim S64x32768 ![] bcast_S_S64x32768 (constant (F := Ideal) S_ .f32 0x3F800000#32)
      (ix2 b ⟨n.val * 64 + u.val, by omega⟩) = Cert.Spec.one := rfl
  unfold cellv Cert.Spec.cell
  refine (addf_apply _ _ _).trans (congrArg₂ (· + ·) ?_ ?_)
  · refine (mulf_apply _ _ _).trans (congrArg₂ (· * ·) hz ?_)
    unfold hco
    rfl
  · refine (mulf_apply _ _ _).trans (congrArg₂ (· * ·) ?_ ht)
    exact (subf_apply _ _ _).trans (congrArg₂ (· - ·) h1 hz)

/-! ## The reference's named terms

Each named term of the reference's run is one of the arrays above over the argument arrays. -/

variable (V0 : Valuation τ sig (Elt Ideal))

/-- The layer's incoming state by coordinates: slab 0 of the states. -/
theorem v1_apply (b : Fin 64) (q : Fin 32768) :
    res_main_v1 (F := Ideal) V0 (ix2 b q) = V0 (Proc.devRef .tc main_arg1) (ix3 (0 : Fin 2) b q) := by
  unfold res_main_v1
  exact slab0_apply _ b q

/-- The gate panel is the panel over the incoming state. -/
theorem v6_eq : res_main_v6 (F := Ideal) V0 = panel (V0 (Proc.devRef .tc main_arg0)) (res_main_v1 (F := Ideal) V0) := rfl

/-- The support matrix times the gate panel. -/
theorem v7_eq : res_main_v7 (F := Ideal) V0
    = sdot (V0 (Proc.devRef .tc main_arg2)) (panel (V0 (Proc.devRef .tc main_arg0)) (res_main_v1 (F := Ideal) V0)) := rfl

/-- The gates. -/
theorem v29_eq : res_main_v29 (F := Ideal) V0
    = gates0 (V0 (Proc.devRef .tc main_arg0)) (res_main_v1 (F := Ideal) V0) (V0 (Proc.devRef .tc main_arg2))
        (V0 (Proc.devRef .tc main_arg3)) (V0 (Proc.devRef .tc main_arg4)) := rfl

/-- The update gate, flat. -/
theorem v33_eq : res_main_v33 (F := Ideal) V0
    = gslice64 (gates0 (V0 (Proc.devRef .tc main_arg0)) (res_main_v1 (F := Ideal) V0) (V0 (Proc.devRef .tc main_arg2))
        (V0 (Proc.devRef .tc main_arg3)) (V0 (Proc.devRef .tc main_arg4))) := rfl

/-- The candidate panel. -/
theorem v39_eq : res_main_v39 (F := Ideal) V0
    = cpanel (V0 (Proc.devRef .tc main_arg0)) (res_main_v1 (F := Ideal) V0) (V0 (Proc.devRef .tc main_arg2))
        (V0 (Proc.devRef .tc main_arg3)) (V0 (Proc.devRef .tc main_arg4)) := rfl

/-- The support matrix times the candidate panel. -/
theorem v40_eq : res_main_v40 (F := Ideal) V0
    = sdot (V0 (Proc.devRef .tc main_arg2)) (cpanel (V0 (Proc.devRef .tc main_arg0)) (res_main_v1 (F := Ideal) V0)
        (V0 (Proc.devRef .tc main_arg2)) (V0 (Proc.devRef .tc main_arg3)) (V0 (Proc.devRef .tc main_arg4))) := rfl

/-- The layer's new state, flat, is the cell array over the argument arrays. -/
theorem v62_cellv : res_main_v62 (F := Ideal) V0
    = cellv (V0 (Proc.devRef .tc main_arg0)) (res_main_v1 (F := Ideal) V0) (V0 (Proc.devRef .tc main_arg2))
        (V0 (Proc.devRef .tc main_arg3)) (V0 (Proc.devRef .tc main_arg4)) (V0 (Proc.devRef .tc main_arg5))
        (V0 (Proc.devRef .tc main_arg6)) := rfl

/-- The incoming state by coordinates is layer 0's state of the argument array. -/
theorem hco_v1 (b : Fin 64) :
    hco (res_main_v1 (F := Ideal) V0) b = Cert.Layer.Hst (V0 (Proc.devRef .tc main_arg1)) 0 b := by
  funext n u
  unfold hco Cert.Layer.Hst
  exact v1_apply V0 b _

/-- THE FIRST LAYER: the reference's new state of layer 0 is the cell of the specification over the argument arrays, laid
    out flat. -/
theorem v62_eq : res_main_v62 (F := Ideal) V0 = Cert.Layer.flat (Cert.Layer.H0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))) := by
  refine (v62_cellv V0).trans (Cert.Layer.flat_eq_of_apply _ _ fun b n u => ?_)
  refine (cellv_apply _ _ _ _ _ _ _ b n u).trans ?_
  unfold Cert.Layer.H0
  rw [hco_v1 V0 b]

/-- Layer 1's incoming state by coordinates: slab 1 of the states. -/
theorem v64_apply (b : Fin 64) (n : Fin 512) (u : Fin 64) : res_main_v64 (F := Ideal) V0 (ix2 b ⟨n.val * 64 + u.val, by omega⟩) = Cert.Layer.Hst (V0 (Proc.devRef .tc main_arg1)) 1 b n u := by
  unfold res_main_v64 Cert.Layer.Hst
  exact slab1_apply _ b _

end Cert.ReferenceIdeal.RefValue0

end
-- ==== Proof.RLayer1.lean ====
/-
  The reference's second layer, read at coordinates.

  The reference's second cell takes the first layer's new state (an array `[64, 512·64]` this module never opens) as its
  input and the second of the two incoming states as its state. Each stretch of its operations is read at an index:
  the panel `[512, 128·64]` (column `i·64 + b`: feature `i` of batch element `b`, the 64 input units beside the 64 state
  units), the support products (sums over the contracted node), the three diffusion terms stacked and laid out
  `[64·512, 128·3]` (row `b·512 + n`, column `i·3 + k`), the projection (a sum over `128·3` columns regrouped by the
  Chebyshev order `k`, plus the bias), the gates `1 / (1 + exp (−·))` and their two halves, the candidate `tanh`, and the
  last line `z ⊙ h + (1 − z) ⊙ c`. Together: the new state, flat, is the cell of `Cert.Spec` over those arrays
  (`Cert.Layer.H1`).
-/
import proofs.«127843_g48979807044056_cont_8to1c4_176_1_alg».proof.Proof.RunDefs
import proofs.«127843_g48979807044056_cont_8to1c4_176_1_alg».proof.Proof.Spec
import proofs.«127843_g48979807044056_cont_8to1c4_176_1_alg».proof.Proof.Layer
import proofs.«127843_g48979807044056_cont_8to1c4_176_1_alg».proof.Proof.LibPlainDot
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

namespace Cert.ReferenceIdeal.RefValue1

open Cert.ReferenceIdeal Cert.ReferenceIdeal.Gen Cert.ReferenceIdeal.Value Idealize.ShloMosaic Idealize.ShloMosaic.TcCoe Idealize.ShloMosaic.ValueIdx Idealize.SL.Sem Idealize.ShloMosaic.StableHlo

/-- A flat state `[64, 512·64]` viewed `[64, 512, 64]`: entry `(b, n, u)` is the flat entry `(b, n·64 + u)`. -/
theorem unflat_apply (xf : FVec Ideal S64x32768 .f32) (b : Fin 64) (n : Fin 512) (u : Fin 64) :
    shapeCast S64x512x64 xf shapeCasts_S64x32768_S64x512x64 (ix3 b n u) = xf (ix2 b ⟨n.val * 64 + u.val, by omega⟩) :=
  shapeCast_apply xf _ _ _ (by
    rw [Shape.rowMajor_val_two, Shape.rowMajor_val_three]
    show b.val * 32768 + (n.val * 64 + u.val) = (b.val * 512 + n.val) * 64 + u.val
    omega)

/-- The panel, left half: feature `i < 64` of node `n`, batch element `b`, is the first array's unit `i`. -/
theorem panel_apply_left (xf hf : FVec Ideal S64x32768 .f32) (n : Fin 512) (i : Fin 128) (b : Fin 64) (hi : i.val < 64) :
    shapeCast S512x8192 (transpose S512x128x64 [1, 2, 0] (concatenate S64x512x128 2 [⟨S64x512x64, shapeCast S64x512x64 xf shapeCasts_S64x32768_S64x512x64⟩, ⟨S64x512x64, shapeCast S64x512x64 hf shapeCasts_S64x32768_S64x512x64⟩] concatenates_S64x512x64_S64x512x64_S64x512x128_d2) transposes_S64x512x128_S512x128x64_1_2_0) shapeCasts_S512x128x64_S512x8192 (ix2 n ⟨i.val * 64 + b.val, by omega⟩)
      = xf (ix2 b ⟨n.val * 64 + i.val, by omega⟩) := by
  refine (shapeCast_apply _ _ _ (ix3 n i b) (by
    rw [Shape.rowMajor_val_two, Shape.rowMajor_val_three]
    show (n.val * 128 + i.val) * 64 + b.val = n.val * 8192 + (i.val * 64 + b.val)
    omega)).trans ?_
  refine (transpose_apply _ _ _ _ (ix3 b n i) (fun c => match c with | ⟨0, _⟩ => rfl | ⟨1, _⟩ => rfl | ⟨2, _⟩ => rfl)).trans ?_
  refine (concatenate_pair_apply_left (t := S64x512x128) (s₁ := S64x512x64) (s₂ := S64x512x64) 2 _ _ _ (ix3 b n i) rfl (ix3 b n (⟨i.val, hi⟩ : Fin 64))
    (fun c => match c with | ⟨0, _⟩ => rfl | ⟨1, _⟩ => rfl | ⟨2, _⟩ => rfl)).trans ?_
  exact unflat_apply xf b n ⟨i.val, hi⟩

/-- The panel, right half: feature `i ≥ 64` is the second array's unit `i − 64`. -/
theorem panel_apply_right (xf hf : FVec Ideal S64x32768 .f32) (n : Fin 512) (i : Fin 128) (b : Fin 64) (hi : ¬ i.val < 64) :
    shapeCast S512x8192 (transpose S512x128x64 [1, 2, 0] (concatenate S64x512x128 2 [⟨S64x512x64, shapeCast S64x512x64 xf shapeCasts_S64x32768_S64x512x64⟩, ⟨S64x512x64, shapeCast S64x512x64 hf shapeCasts_S64x32768_S64x512x64⟩] concatenates_S64x512x64_S64x512x64_S64x512x128_d2) transposes_S64x512x128_S512x128x64_1_2_0) shapeCasts_S512x128x64_S512x8192 (ix2 n ⟨i.val * 64 + b.val, by omega⟩)
      = hf (ix2 b ⟨n.val * 64 + (i.val - 64), by omega⟩) := by
  refine (shapeCast_apply _ _ _ (ix3 n i b) (by
    rw [Shape.rowMajor_val_two, Shape.rowMajor_val_three]
    show (n.val * 128 + i.val) * 64 + b.val = n.val * 8192 + (i.val * 64 + b.val)
    omega)).trans ?_
  refine (transpose_apply _ _ _ _ (ix3 b n i) (fun c => match c with | ⟨0, _⟩ => rfl | ⟨1, _⟩ => rfl | ⟨2, _⟩ => rfl)).trans ?_
  refine (concatenate_pair_apply_right (t := S64x512x128) (s₁ := S64x512x64) (s₂ := S64x512x64) 2 _ _ _ (ix3 b n i) rfl rfl (ix3 b n (⟨i.val - 64, by omega⟩ : Fin 64))
    (fun c => match c with | ⟨0, _⟩ => fun _ => rfl | ⟨1, _⟩ => fun _ => rfl | ⟨2, _⟩ => fun h => absurd rfl h)
    (by show (i.val - 64) + 64 = i.val; omega)).trans ?_
  exact unflat_apply hf b n ⟨i.val - 64, by omega⟩

/-- The support product at `(n, q)`: the sum over the contracted node `m`. -/
theorem sdot_apply (S : FVec Ideal S512x512 .f32) (P : FVec Ideal S512x8192 .f32) (n : Fin 512) (q : Fin 8192) :
    Host.dotGeneral (F := Ideal) dot_S512x512_S512x8192_S512x8192_1_0_0_1_n_n none S P (ix2 n q) = ∑ m : Fin 512, S (ix2 n m) * P (ix2 m q) :=
  Cert.LibPlainDot.dotGeneral_apply dot_S512x512_S512x8192_S512x8192_1_0_0_1_n_n rfl none S P n q

/-- The panel at `(n, i·64 + b)`: the panel builder over the two arrays' rows of batch element `b`. -/
theorem panel_apply (xf hf : FVec Ideal S64x32768 .f32) (n : Fin 512) (i : Fin 128) (b : Fin 64) :
    shapeCast S512x8192 (transpose S512x128x64 [1, 2, 0] (concatenate S64x512x128 2 [⟨S64x512x64, shapeCast S64x512x64 xf shapeCasts_S64x32768_S64x512x64⟩, ⟨S64x512x64, shapeCast S64x512x64 hf shapeCasts_S64x32768_S64x512x64⟩] concatenates_S64x512x64_S64x512x64_S64x512x128_d2) transposes_S64x512x128_S512x128x64_1_2_0) shapeCasts_S512x128x64_S512x8192 (ix2 n ⟨i.val * 64 + b.val, by omega⟩)
      = Cert.Layer.mk1 (fun n f => xf (ix2 b ⟨n.val * 64 + f.val, by omega⟩)) (fun n u => hf (ix2 b ⟨n.val * 64 + u.val, by omega⟩)) n i := by
  unfold Cert.Layer.mk1
  by_cases hi : i.val < 64
  · rw [dif_pos hi]; exact panel_apply_left xf hf n i b hi
  · rw [dif_neg hi]; exact panel_apply_right xf hf n i b hi

/-- The three stacked arrays at `(k, n, q)`: the `k`-th array at `(n, q)`. -/
theorem stack3_apply (P Q R : FVec Ideal S512x8192 .f32) (k : Fin 3) (n : Fin 512) (q : Fin 8192) :
    concatenate S3x512x8192 0 [⟨S1x512x8192, broadcastInDim S1x512x8192 ![1, 2] bcast_S512x8192_S1x512x8192_1_2 P⟩, ⟨S1x512x8192, broadcastInDim S1x512x8192 ![1, 2] bcast_S512x8192_S1x512x8192_1_2 Q⟩, ⟨S1x512x8192, broadcastInDim S1x512x8192 ![1, 2] bcast_S512x8192_S1x512x8192_1_2 R⟩] concatenates_S1x512x8192_S1x512x8192_S1x512x8192_S3x512x8192_d0 (ix3 k n q)
      = ![P, Q, R] k (ix2 n q) := by
  have hb : ∀ X : FVec Ideal S512x8192 .f32, broadcastInDim S1x512x8192 ![1, 2] bcast_S512x8192_S1x512x8192_1_2 X (ix3 (0 : Fin 1) n q) = X (ix2 n q) := fun X =>
    broadcastInDim_apply _ _ X _ (ix2 n q) (fun a => match a with | ⟨0, _⟩ => rfl | ⟨1, _⟩ => rfl)
  match k with
  | ⟨0, _⟩ =>
    exact (concatenate_apply_piece (t := S3x512x8192) 0 _ _ (ix3 (⟨0, by omega⟩ : Fin 3) n q) 0 (by show (0 : Nat) < 3; omega) S1x512x8192 _ rfl rfl 0 rfl (ix3 (0 : Fin 1) n q)
      (fun c => match c with | ⟨0, _⟩ => fun h => absurd rfl h | ⟨1, _⟩ => fun _ => rfl | ⟨2, _⟩ => fun _ => rfl) rfl).trans (hb P)
  | ⟨1, _⟩ =>
    exact (concatenate_apply_piece (t := S3x512x8192) 0 _ _ (ix3 (⟨1, by omega⟩ : Fin 3) n q) 1 (by show (1 : Nat) < 3; omega) S1x512x8192 _ rfl rfl 1 rfl (ix3 (0 : Fin 1) n q)
      (fun c => match c with | ⟨0, _⟩ => fun h => absurd rfl h | ⟨1, _⟩ => fun _ => rfl | ⟨2, _⟩ => fun _ => rfl) rfl).trans (hb Q)
  | ⟨2, _⟩ =>
    exact (concatenate_apply_piece (t := S3x512x8192) 0 _ _ (ix3 (⟨2, by omega⟩ : Fin 3) n q) 2 (by show (2 : Nat) < 3; omega) S1x512x8192 _ rfl rfl 2 rfl (ix3 (0 : Fin 1) n q)
      (fun c => match c with | ⟨0, _⟩ => fun h => absurd rfl h | ⟨1, _⟩ => fun _ => rfl | ⟨2, _⟩ => fun _ => rfl) rfl).trans (hb R)

/-- The stack viewed `[3, 512, 128, 64]`, transposed to `[64, 512, 128, 3]` and flattened `[64·512, 128·3]`: row `b·512 + n`,
    column `i·3 + k` is the `k`-th array at `(n, i·64 + b)`. -/
theorem stack_apply (P Q R : FVec Ideal S512x8192 .f32) (b : Fin 64) (n : Fin 512) (i : Fin 128) (k : Fin 3) :
    shapeCast S32768x384 (transpose S64x512x128x3 [3, 1, 2, 0] (shapeCast S3x512x128x64 (concatenate S3x512x8192 0 [⟨S1x512x8192, broadcastInDim S1x512x8192 ![1, 2] bcast_S512x8192_S1x512x8192_1_2 P⟩, ⟨S1x512x8192, broadcastInDim S1x512x8192 ![1, 2] bcast_S512x8192_S1x512x8192_1_2 Q⟩, ⟨S1x512x8192, broadcastInDim S1x512x8192 ![1, 2] bcast_S512x8192_S1x512x8192_1_2 R⟩] concatenates_S1x512x8192_S1x512x8192_S1x512x8192_S3x512x8192_d0) shapeCasts_S3x512x8192_S3x512x128x64) transposes_S3x512x128x64_S64x512x128x3_3_1_2_0) shapeCasts_S64x512x128x3_S32768x384 (ix2 ⟨b.val * 512 + n.val, by omega⟩ ⟨i.val * 3 + k.val, by omega⟩)
      = ![P, Q, R] k (ix2 n ⟨i.val * 64 + b.val, by omega⟩) := by
  refine (shapeCast_apply _ _ _ (ix4 b n i k) (by
    rw [Shape.rowMajor_val_two, Shape.rowMajor_val_four]
    show ((b.val * 512 + n.val) * 128 + i.val) * 3 + k.val = (b.val * 512 + n.val) * 384 + (i.val * 3 + k.val)
    omega)).trans ?_
  refine (transpose_apply _ _ _ _ (ix4 k n i b) (fun c => match c with | ⟨0, _⟩ => rfl | ⟨1, _⟩ => rfl | ⟨2, _⟩ => rfl | ⟨3, _⟩ => rfl)).trans ?_
  refine (shapeCast_apply _ _ _ (ix3 k n (⟨i.val * 64 + b.val, by omega⟩ : Fin 8192)) (by
    rw [Shape.rowMajor_val_three, Shape.rowMajor_val_four]
    show (k.val * 512 + n.val) * 8192 + (i.val * 64 + b.val) = ((k.val * 512 + n.val) * 128 + i.val) * 64 + b.val
    omega)).trans ?_
  exact stack3_apply P Q R k n _

/-- The logistic gate as the programs spell it, `1 / (1 + exp (−y))`, at an index. -/
theorem sigmoid_apply {s : Shape} (hs : S_.BroadcastsInDim s ![]) (Y : FVec Ideal s .f32) (j : s.Idx) :
    Host.divf (broadcastInDim s ![] hs (constant (F := Ideal) S_ .f32 0x3F800000#32)) (addf (broadcastInDim s ![] hs (constant (F := Ideal) S_ .f32 0x3F800000#32)) (Host.exp (Host.negf Y))) j
      = Ideal.logistic (Y j) := by
  rw [hostDivf_apply, addf_apply, broadcastInDim_scalar_apply, constant_apply]
  exact Cert.Spec.div_one_add_exp_neg (Y j)

/-- The host's hyperbolic tangent at an index. -/
theorem host_tanh_apply {s : Shape} (Y : FVec Ideal s .f32) (j : s.Idx) : Host.tanh Y j = Ideal.tanh (Y j) := rfl

/-- A gate bias `[128]` broadcast to a row `[1, 128]` and down the rows: at `(r, o)` it is the bias at `o`. -/
theorem biasg_apply (bias : FVec Ideal S128 .f32) (r : Fin 32768) (o : Fin 128) :
    broadcastInDim S32768x128 ![0, 1] bcast_S1x128_S32768x128_0_1 (broadcastInDim S1x128 ![1] bcast_S128_S1x128_1 bias) (ix2 r o) = bias (ix1 o) := by
  refine (broadcastInDim_apply _ _ _ _ (ix2 (0 : Fin 1) o) (fun a => match a with | ⟨0, _⟩ => rfl | ⟨1, _⟩ => rfl)).trans ?_
  exact broadcastInDim_apply _ _ _ _ (ix1 o) (fun a => match a with | ⟨0, _⟩ => rfl)

/-- The same for a candidate bias `[64]`. -/
theorem biasc_apply (bias : FVec Ideal S64 .f32) (r : Fin 32768) (o : Fin 64) :
    broadcastInDim S32768x64 ![0, 1] bcast_S1x64_S32768x64_0_1 (broadcastInDim S1x64 ![1] bcast_S64_S1x64_1 bias) (ix2 r o) = bias (ix1 o) := by
  refine (broadcastInDim_apply _ _ _ _ (ix2 (0 : Fin 1) o) (fun a => match a with | ⟨0, _⟩ => rfl | ⟨1, _⟩ => rfl)).trans ?_
  exact broadcastInDim_apply _ _ _ _ (ix1 o) (fun a => match a with | ⟨0, _⟩ => rfl)

/-- Layer 1's incoming state, flat: entry `(b, q)` is the states' entry `(1, b, q)`. -/
theorem hstate_apply (A1 : FVec Ideal S2x64x32768 .f32) (b : Fin 64) (q : Fin 32768) :
    shapeCast S64x32768 (extractStridedSlice S1x64x32768 ![1, 0, 0] A1 slices_S2x64x32768_S1x64x32768_1_0_0) shapeCasts_S1x64x32768_S64x32768 (ix2 b q)
      = A1 (ix3 (1 : Fin 2) b q) := by
  refine (shapeCast_apply _ _ _ (ix3 (0 : Fin 1) b q) (by
    rw [Shape.rowMajor_val_three, Shape.rowMajor_val_two]
    show (0 * 64 + b.val) * 32768 + q.val = b.val * 32768 + q.val
    omega)).trans ?_
  exact extractStridedSlice_apply _ _ _ _ (ix3 (1 : Fin 2) b q) (fun a => match a with
    | ⟨0, _⟩ => rfl | ⟨1, _⟩ => (Nat.zero_add _).symm | ⟨2, _⟩ => (Nat.zero_add _).symm)

/-- The three diffusion terms of a panel `P` (with `Q` standing for `S · P`): `P`, `Q` and `2 · (S · Q) − P`, stacked, viewed
    `[3, 512, 128, 64]`, transposed to `[64, 512, 128, 3]` and flattened `[64·512, 128·3]`. -/
def xs (A2 : FVec Ideal S512x512 .f32) (P Q : FVec Ideal S512x8192 .f32) : FVec Ideal S32768x384 .f32 :=
  shapeCast S32768x384 (transpose S64x512x128x3 [3, 1, 2, 0] (shapeCast S3x512x128x64 (concatenate S3x512x8192 0 [⟨S1x512x8192, broadcastInDim S1x512x8192 ![1, 2] bcast_S512x8192_S1x512x8192_1_2 P⟩, ⟨S1x512x8192, broadcastInDim S1x512x8192 ![1, 2] bcast_S512x8192_S1x512x8192_1_2 Q⟩, ⟨S1x512x8192, broadcastInDim S1x512x8192 ![1, 2] bcast_S512x8192_S1x512x8192_1_2 (subf (mulf (broadcastInDim S512x8192 ![] bcast_S_S512x8192 (constant S_ .f32 0x40000000#32)) (Host.dotGeneral dot_S512x512_S512x8192_S512x8192_1_0_0_1_n_n none A2 Q)) P)⟩] concatenates_S1x512x8192_S1x512x8192_S1x512x8192_S3x512x8192_d0) shapeCasts_S3x512x8192_S3x512x128x64) transposes_S3x512x128x64_S64x512x128x3_3_1_2_0) shapeCasts_S64x512x128x3_S32768x384

section Conv
variable (A2 : FVec Ideal S512x512 .f32) (P Q : FVec Ideal S512x8192 .f32)
  (hQ : ∀ (n : Fin 512) (q : Fin 8192), Q (ix2 n q) = ∑ m : Fin 512, A2 (ix2 n m) * P (ix2 m q))
  (b : Fin 64) (g : Fin 512 → Fin 128 → EReal)
  (hP : ∀ (n : Fin 512) (i : Fin 128), P (ix2 n ⟨i.val * 64 + b.val, by omega⟩) = g n i)
include hQ hP

/-- `Q` at `(n, i·64 + b)` is one diffusion step of the panel `g`. -/
theorem q_apply (n : Fin 512) (i : Fin 128) :
    Q (ix2 n ⟨i.val * 64 + b.val, by omega⟩) = Cert.Spec.diff (Cert.Layer.Sup A2) g n i := by
  rw [hQ]; unfold Cert.Spec.diff Cert.Layer.Sup
  exact Finset.sum_congr rfl fun m _ => congrArg (A2 (ix2 n m) * ·) (hP m i)

/-- Column `i·3` of the flattened stack, row `b·512 + n`: the panel. -/
theorem xs_apply0 (n : Fin 512) (i : Fin 128) :
    xs A2 P Q (ix2 ⟨b.val * 512 + n.val, by omega⟩ ⟨i.val * 3 + 0, by omega⟩) = g n i :=
  (stack_apply P Q _ b n i 0).trans (hP n i)

/-- Column `i·3 + 1`: one diffusion step. -/
theorem xs_apply1 (n : Fin 512) (i : Fin 128) :
    xs A2 P Q (ix2 ⟨b.val * 512 + n.val, by omega⟩ ⟨i.val * 3 + 1, by omega⟩) = Cert.Spec.diff (Cert.Layer.Sup A2) g n i :=
  (stack_apply P Q _ b n i 1).trans (q_apply A2 P Q hQ b g hP n i)

/-- Column `i·3 + 2`: the second Chebyshev term. -/
theorem xs_apply2 (n : Fin 512) (i : Fin 128) :
    xs A2 P Q (ix2 ⟨b.val * 512 + n.val, by omega⟩ ⟨i.val * 3 + 2, by omega⟩) = Cert.Spec.cheb (Cert.Layer.Sup A2) g n i := by
  refine (stack_apply P Q _ b n i 2).trans ?_
  show (subf (mulf (broadcastInDim S512x8192 ![] bcast_S_S512x8192 (constant (F := Ideal) S_ .f32 0x40000000#32)) (Host.dotGeneral dot_S512x512_S512x8192_S512x8192_1_0_0_1_n_n none A2 Q)) P) (ix2 n ⟨i.val * 64 + b.val, by omega⟩) = _
  rw [subf_apply, mulf_apply, broadcastInDim_scalar_apply, constant_apply, sdot_apply, hP]
  unfold Cert.Spec.cheb
  congr 2
  show _ = Cert.Spec.diff (Cert.Layer.Sup A2) (Cert.Spec.diff (Cert.Layer.Sup A2) g) n i
  conv_rhs => unfold Cert.Spec.diff
  exact Finset.sum_congr rfl fun m _ => congrArg (A2 (ix2 n m) * ·) (q_apply A2 P Q hQ b g hP m i)

/-- The gates' projection at row `b·512 + n`, output `o`. -/
theorem gproj_apply (W : FVec Ideal S384x128 .f32) (bias : FVec Ideal S128 .f32) (n : Fin 512) (o : Fin 128) :
    addf (Host.dotGeneral dot_S32768x384_S384x128_S32768x128_1_0_0_1_n_n none (xs A2 P Q) W) (broadcastInDim S32768x128 ![0, 1] bcast_S1x128_S32768x128_0_1 (broadcastInDim S1x128 ![1] bcast_S128_S1x128_1 bias)) (ix2 ⟨b.val * 512 + n.val, by omega⟩ o)
      = Cert.Spec.proj (Cert.Layer.Sup A2) g (Cert.Layer.W1g W) (Cert.Layer.Bg bias) n o := by
  rw [addf_apply, biasg_apply, Cert.LibPlainDot.dotGeneral_apply dot_S32768x384_S384x128_S32768x128_1_0_0_1_n_n rfl, Cert.Spec.sum_fin_mul3 128 384 (by norm_num)]
  unfold Cert.Spec.proj Cert.Layer.Bg
  congr 1; congr 1; congr 1
  · exact Finset.sum_congr rfl fun i _ => congrArg (· * _) (xs_apply0 A2 P Q hQ b g hP n i)
  · exact Finset.sum_congr rfl fun i _ => congrArg (· * _) (xs_apply1 A2 P Q hQ b g hP n i)
  · exact Finset.sum_congr rfl fun i _ => congrArg (· * _) (xs_apply2 A2 P Q hQ b g hP n i)

/-- The candidate's projection at row `b·512 + n`, output `o`. -/
theorem cproj_apply (W : FVec Ideal S384x64 .f32) (bias : FVec Ideal S64 .f32) (n : Fin 512) (o : Fin 64) :
    addf (Host.dotGeneral dot_S32768x384_S384x64_S32768x64_1_0_0_1_n_n none (xs A2 P Q) W) (broadcastInDim S32768x64 ![0, 1] bcast_S1x64_S32768x64_0_1 (broadcastInDim S1x64 ![1] bcast_S64_S1x64_1 bias)) (ix2 ⟨b.val * 512 + n.val, by omega⟩ o)
      = Cert.Spec.proj (Cert.Layer.Sup A2) g (Cert.Layer.W1c W) (Cert.Layer.Bc bias) n o := by
  rw [addf_apply, biasc_apply, Cert.LibPlainDot.dotGeneral_apply dot_S32768x384_S384x64_S32768x64_1_0_0_1_n_n rfl, Cert.Spec.sum_fin_mul3 128 384 (by norm_num)]
  unfold Cert.Spec.proj Cert.Layer.Bc
  congr 1; congr 1; congr 1
  · exact Finset.sum_congr rfl fun i _ => congrArg (· * _) (xs_apply0 A2 P Q hQ b g hP n i)
  · exact Finset.sum_congr rfl fun i _ => congrArg (· * _) (xs_apply1 A2 P Q hQ b g hP n i)
  · exact Finset.sum_congr rfl fun i _ => congrArg (· * _) (xs_apply2 A2 P Q hQ b g hP n i)

/-- The gates `[64·512, 128]` viewed `[64, 512, 128]`, at `(b, n, o)`: the logistic function of the projection. -/
theorem gates_apply (W : FVec Ideal S384x128 .f32) (bias : FVec Ideal S128 .f32) (n : Fin 512) (o : Fin 128) :
    shapeCast S64x512x128 (Host.divf (broadcastInDim S32768x128 ![] bcast_S_S32768x128 (constant (F := Ideal) S_ .f32 0x3F800000#32)) (addf (broadcastInDim S32768x128 ![] bcast_S_S32768x128 (constant (F := Ideal) S_ .f32 0x3F800000#32)) (Host.exp (Host.negf (addf (Host.dotGeneral dot_S32768x384_S384x128_S32768x128_1_0_0_1_n_n none (xs A2 P Q) W) (broadcastInDim S32768x128 ![0, 1] bcast_S1x128_S32768x128_0_1 (broadcastInDim S1x128 ![1] bcast_S128_S1x128_1 bias))))))) shapeCasts_S32768x128_S64x512x128 (ix3 b n o)
      = Ideal.logistic (Cert.Spec.proj (Cert.Layer.Sup A2) g (Cert.Layer.W1g W) (Cert.Layer.Bg bias) n o) := by
  refine (shapeCast_apply _ _ _ (ix2 (⟨b.val * 512 + n.val, by omega⟩ : Fin 32768) o) (by
    rw [Shape.rowMajor_val_two, Shape.rowMajor_val_three]
    show (b.val * 512 + n.val) * 128 + o.val = (b.val * 512 + n.val) * 128 + o.val
    rfl)).trans ?_
  refine (sigmoid_apply _ _ _).trans ?_
  exact congrArg Ideal.logistic (gproj_apply A2 P Q hQ b g hP W bias n o)

/-- The candidate `[64·512, 64]` laid out `[64, 512·64]`, at `(b, n·64 + u)`: the hyperbolic tangent of the projection. -/
theorem cand_apply (W : FVec Ideal S384x64 .f32) (bias : FVec Ideal S64 .f32) (n : Fin 512) (u : Fin 64) :
    shapeCast S64x32768 (Host.tanh (addf (Host.dotGeneral dot_S32768x384_S384x64_S32768x64_1_0_0_1_n_n none (xs A2 P Q) W) (broadcastInDim S32768x64 ![0, 1] bcast_S1x64_S32768x64_0_1 (broadcastInDim S1x64 ![1] bcast_S64_S1x64_1 bias)))) shapeCasts_S32768x64_S64x32768 (ix2 b ⟨n.val * 64 + u.val, by omega⟩)
      = Ideal.tanh (Cert.Spec.proj (Cert.Layer.Sup A2) g (Cert.Layer.W1c W) (Cert.Layer.Bc bias) n u) := by
  refine (shapeCast_apply _ _ _ (ix2 (⟨b.val * 512 + n.val, by omega⟩ : Fin 32768) u) (by
    rw [Shape.rowMajor_val_two, Shape.rowMajor_val_two]
    show (b.val * 512 + n.val) * 64 + u.val = b.val * 32768 + (n.val * 64 + u.val)
    omega)).trans ?_
  refine (host_tanh_apply _ _).trans ?_
  exact congrArg Ideal.tanh (cproj_apply A2 P Q hQ b g hP W bias n u)

end Conv

/-- The last 64 gate outputs, laid out `[64, 512·64]`: entry `(b, n·64 + u)` is gate output `64 + u` of node `n`. -/
theorem zslice_apply (G : FVec Ideal S64x512x128 .f32) (b : Fin 64) (n : Fin 512) (u : Fin 64) :
    shapeCast S64x32768 (extractStridedSlice S64x512x64 ![0, 0, 64] G slices_S64x512x128_S64x512x64_0_0_64) shapeCasts_S64x512x64_S64x32768 (ix2 b ⟨n.val * 64 + u.val, by omega⟩)
      = G (ix3 b n ⟨64 + u.val, by omega⟩) := by
  refine (shapeCast_apply _ _ _ (ix3 b n u) (by
    rw [Shape.rowMajor_val_three, Shape.rowMajor_val_two]
    show (b.val * 512 + n.val) * 64 + u.val = b.val * 32768 + (n.val * 64 + u.val)
    omega)).trans ?_
  exact extractStridedSlice_apply _ _ _ _ (ix3 b n (⟨64 + u.val, by omega⟩ : Fin 128)) (fun a => match a with
    | ⟨0, _⟩ => (Nat.zero_add _).symm | ⟨1, _⟩ => (Nat.zero_add _).symm | ⟨2, _⟩ => rfl)

/-- The first 64 gate outputs, laid out `[64, 512·64]`: entry `(b, n·64 + u)` is gate output `u` of node `n`. -/
theorem rslice_apply (G : FVec Ideal S64x512x128 .f32) (b : Fin 64) (n : Fin 512) (u : Fin 64) :
    shapeCast S64x32768 (extractStridedSlice S64x512x64 ![0, 0, 0] G slices_S64x512x128_S64x512x64_0_0_0) shapeCasts_S64x512x64_S64x32768 (ix2 b ⟨n.val * 64 + u.val, by omega⟩)
      = G (ix3 b n ⟨u.val, by omega⟩) := by
  refine (shapeCast_apply _ _ _ (ix3 b n u) (by
    rw [Shape.rowMajor_val_three, Shape.rowMajor_val_two]
    show (b.val * 512 + n.val) * 64 + u.val = b.val * 32768 + (n.val * 64 + u.val)
    omega)).trans ?_
  exact extractStridedSlice_apply _ _ _ _ (ix3 b n (⟨u.val, by omega⟩ : Fin 128)) (fun a => match a with
    | ⟨0, _⟩ => (Nat.zero_add _).symm | ⟨1, _⟩ => (Nat.zero_add _).symm | ⟨2, _⟩ => (Nat.zero_add _).symm)

/-- The cell's last line `z ⊙ h + (1 − z) ⊙ c` at an index. -/
theorem out_apply (Z H C : FVec Ideal S64x32768 .f32) (j : S64x32768.Idx) :
    addf (mulf Z H) (mulf (subf (broadcastInDim S64x32768 ![] bcast_S_S64x32768 (constant (F := Ideal) S_ .f32 0x3F800000#32)) Z) C) j
      = Z j * H j + (Cert.Spec.one - Z j) * C j := by
  rw [addf_apply, mulf_apply, mulf_apply, subf_apply, broadcastInDim_scalar_apply, constant_apply]

section Named
variable (V0 : Valuation τ sig (Elt Ideal))

/-- Layer 0's new state — an array this module never opens — by coordinates: unit `u` of node `n` of batch element `b`. -/
def hx (b : Fin 64) (n : Fin 512) (u : Fin 64) : EReal :=
  res_main_v62 (F := Ideal) V0 (ix2 b ⟨n.val * 64 + u.val, by omega⟩)

/-- Layer 1's incoming state, flat, is the second of the two states. -/
theorem v64_apply (b : Fin 64) (q : Fin 32768) :
    res_main_v64 (F := Ideal) V0 (ix2 b q) = (V0 (Proc.devRef .tc main_arg1)) (ix3 (1 : Fin 2) b q) := by
  unfold res_main_v64
  exact hstate_apply _ b q

/-- The gates' panel: layer 0's new state beside the incoming state. -/
theorem v69_apply (n : Fin 512) (i : Fin 128) (b : Fin 64) :
    res_main_v69 (F := Ideal) V0 (ix2 n ⟨i.val * 64 + b.val, by omega⟩)
      = Cert.Layer.mk1 (hx V0 b) (Cert.Layer.Hst (V0 (Proc.devRef .tc main_arg1)) 1 b) n i := by
  unfold res_main_v69
  refine (panel_apply _ _ n i b).trans ?_
  exact congrArg (fun h => Cert.Layer.mk1 (hx V0 b) h n i)
    (funext fun n' => funext fun u' => v64_apply V0 b ⟨n'.val * 64 + u'.val, by omega⟩)

/-- The gates at `(b, n, o)`. -/
theorem v92_apply (b : Fin 64) (n : Fin 512) (o : Fin 128) :
    res_main_v92 (F := Ideal) V0 (ix3 b n o) = Cert.Spec.gates (Cert.Layer.Sup (V0 (Proc.devRef .tc main_arg2))) (Cert.Layer.mk1 (hx V0 b)) (Cert.Layer.Hst (V0 (Proc.devRef .tc main_arg1)) 1 b) (Cert.Layer.W1g (V0 (Proc.devRef .tc main_arg7))) (Cert.Layer.Bg (V0 (Proc.devRef .tc main_arg8))) n o := by
  unfold res_main_v92 Cert.Spec.gates
  exact gates_apply (V0 (Proc.devRef .tc main_arg2)) (res_main_v69 (F := Ideal) V0) (res_main_v70 (F := Ideal) V0) (fun n' q' => by unfold res_main_v70; exact sdot_apply _ _ n' q') b _
    (fun n' i' => v69_apply V0 n' i' b) (V0 (Proc.devRef .tc main_arg7)) (V0 (Proc.devRef .tc main_arg8)) n o

/-- The update gate, flat. -/
theorem v96_apply (b : Fin 64) (n : Fin 512) (u : Fin 64) :
    res_main_v96 (F := Ideal) V0 (ix2 b ⟨n.val * 64 + u.val, by omega⟩) = Cert.Spec.zgate (Cert.Layer.Sup (V0 (Proc.devRef .tc main_arg2))) (Cert.Layer.mk1 (hx V0 b)) (Cert.Layer.Hst (V0 (Proc.devRef .tc main_arg1)) 1 b) (Cert.Layer.W1g (V0 (Proc.devRef .tc main_arg7))) (Cert.Layer.Bg (V0 (Proc.devRef .tc main_arg8))) n u := by
  unfold res_main_v96 Cert.Spec.zgate
  exact (zslice_apply _ b n u).trans (v92_apply V0 b n _)

/-- The reset gate, flat. -/
theorem r_apply (b : Fin 64) (n : Fin 512) (u : Fin 64) :
    shapeCast S64x32768 (extractStridedSlice S64x512x64 ![0, 0, 0] (res_main_v92 (F := Ideal) V0) slices_S64x512x128_S64x512x64_0_0_0) shapeCasts_S64x512x64_S64x32768 (ix2 b ⟨n.val * 64 + u.val, by omega⟩) = Cert.Spec.rgate (Cert.Layer.Sup (V0 (Proc.devRef .tc main_arg2))) (Cert.Layer.mk1 (hx V0 b)) (Cert.Layer.Hst (V0 (Proc.devRef .tc main_arg1)) 1 b) (Cert.Layer.W1g (V0 (Proc.devRef .tc main_arg7))) (Cert.Layer.Bg (V0 (Proc.devRef .tc main_arg8))) n u := by
  unfold Cert.Spec.rgate
  exact (rslice_apply _ b n u).trans (v92_apply V0 b n _)

/-- The candidate's panel: layer 0's new state beside `r ⊙ h`. -/
theorem v102_apply (n : Fin 512) (i : Fin 128) (b : Fin 64) :
    res_main_v102 (F := Ideal) V0 (ix2 n ⟨i.val * 64 + b.val, by omega⟩)
      = Cert.Layer.mk1 (hx V0 b) (fun n' u' => Cert.Spec.rgate (Cert.Layer.Sup (V0 (Proc.devRef .tc main_arg2))) (Cert.Layer.mk1 (hx V0 b)) (Cert.Layer.Hst (V0 (Proc.devRef .tc main_arg1)) 1 b) (Cert.Layer.W1g (V0 (Proc.devRef .tc main_arg7))) (Cert.Layer.Bg (V0 (Proc.devRef .tc main_arg8))) n' u' * Cert.Layer.Hst (V0 (Proc.devRef .tc main_arg1)) 1 b n' u') n i := by
  unfold res_main_v102
  refine (panel_apply _ _ n i b).trans ?_
  exact congrArg (fun h => Cert.Layer.mk1 (hx V0 b) h n i)
    (funext fun n' => funext fun u' => (mulf_apply _ _ _).trans
      (congrArg₂ (· * ·) (r_apply V0 b n' u') (v64_apply V0 b ⟨n'.val * 64 + u'.val, by omega⟩)))

/-- Layer 1's new state at `(b, n·64 + u)` is the cell. -/
theorem v125_apply (b : Fin 64) (n : Fin 512) (u : Fin 64) :
    (addf (mulf (res_main_v96 (F := Ideal) V0) (res_main_v64 (F := Ideal) V0)) (mulf (subf (broadcastInDim S64x32768 ![] bcast_S_S64x32768 (constant (F := Ideal) S_ .f32 0x3F800000#32)) (res_main_v96 (F := Ideal) V0)) (shapeCast _ (Host.tanh (addf (Host.dotGeneral (F := Ideal) (φ₁ := .f32) (φ₂ := .f32) dot_S32768x384_S384x64_S32768x64_1_0_0_1_n_n none (shapeCast _ (transpose S64x512x128x3 [3, 1, 2, 0] (shapeCast _ (concatenate S3x512x8192 0 [⟨S1x512x8192, (broadcastInDim S1x512x8192 ![1, 2] bcast_S512x8192_S1x512x8192_1_2 (res_main_v102 (F := Ideal) V0))⟩, ⟨S1x512x8192, (broadcastInDim S1x512x8192 ![1, 2] bcast_S512x8192_S1x512x8192_1_2 (res_main_v103 (F := Ideal) V0))⟩, ⟨S1x512x8192, (broadcastInDim S1x512x8192 ![1, 2] bcast_S512x8192_S1x512x8192_1_2 (subf (mulf (broadcastInDim S512x8192 ![] bcast_S_S512x8192 (constant (F := Ideal) S_ .f32 0x40000000#32)) (Host.dotGeneral (F := Ideal) (φ₁ := .f32) (φ₂ := .f32) dot_S512x512_S512x8192_S512x8192_1_0_0_1_n_n none (V0 (Proc.devRef .tc main_arg2)) (res_main_v103 (F := Ideal) V0))) (res_main_v102 (F := Ideal) V0)))⟩] concatenates_S1x512x8192_S1x512x8192_S1x512x8192_S3x512x8192_d0) shapeCasts_S3x512x8192_S3x512x128x64) transposes_S3x512x128x64_S64x512x128x3_3_1_2_0) shapeCasts_S64x512x128x3_S32768x384) (V0 (Proc.devRef .tc main_arg9))) (broadcastInDim S32768x64 ![0, 1] bcast_S1x64_S32768x64_0_1 (broadcastInDim S1x64 ![1] bcast_S64_S1x64_1 (V0 (Proc.devRef .tc main_arg10)))))) shapeCasts_S32768x64_S64x32768))) (ix2 b ⟨n.val * 64 + u.val, by omega⟩)
      = Cert.Layer.H1 (hx V0) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) b n u := by
  refine (out_apply _ _ _ _).trans ?_
  unfold Cert.Layer.H1 Cert.Spec.cell
  have hz := v96_apply V0 b n u
  have hh : res_main_v64 (F := Ideal) V0 (ix2 b ⟨n.val * 64 + u.val, by omega⟩) = Cert.Layer.Hst (V0 (Proc.devRef .tc main_arg1)) 1 b n u :=
    v64_apply V0 b _
  refine congrArg₂ (· + ·) (congrArg₂ (· * ·) hz hh) (congrArg₂ (· * ·) (congrArg (Cert.Spec.one - ·) hz) ?_)
  unfold Cert.Spec.cand
  exact cand_apply (V0 (Proc.devRef .tc main_arg2)) (res_main_v102 (F := Ideal) V0) (res_main_v103 (F := Ideal) V0) (fun n' q' => by unfold res_main_v103; exact sdot_apply _ _ n' q') b _
    (fun n' i' => v102_apply V0 n' i' b) (V0 (Proc.devRef .tc main_arg9)) (V0 (Proc.devRef .tc main_arg10)) n u

/-- The reference's second layer is the cell of the specification over the first layer's result. -/
theorem v125_eq :
    addf (mulf (res_main_v96 (F := Ideal) V0) (res_main_v64 (F := Ideal) V0)) (mulf (subf (broadcastInDim S64x32768 ![] bcast_S_S64x32768 (constant (F := Ideal) S_ .f32 0x3F800000#32)) (res_main_v96 (F := Ideal) V0)) (shapeCast _ (Host.tanh (addf (Host.dotGeneral (F := Ideal) (φ₁ := .f32) (φ₂ := .f32) dot_S32768x384_S384x64_S32768x64_1_0_0_1_n_n none (shapeCast _ (transpose S64x512x128x3 [3, 1, 2, 0] (shapeCast _ (concatenate S3x512x8192 0 [⟨S1x512x8192, (broadcastInDim S1x512x8192 ![1, 2] bcast_S512x8192_S1x512x8192_1_2 (res_main_v102 (F := Ideal) V0))⟩, ⟨S1x512x8192, (broadcastInDim S1x512x8192 ![1, 2] bcast_S512x8192_S1x512x8192_1_2 (res_main_v103 (F := Ideal) V0))⟩, ⟨S1x512x8192, (broadcastInDim S1x512x8192 ![1, 2] bcast_S512x8192_S1x512x8192_1_2 (subf (mulf (broadcastInDim S512x8192 ![] bcast_S_S512x8192 (constant (F := Ideal) S_ .f32 0x40000000#32)) (Host.dotGeneral (F := Ideal) (φ₁ := .f32) (φ₂ := .f32) dot_S512x512_S512x8192_S512x8192_1_0_0_1_n_n none (V0 (Proc.devRef .tc main_arg2)) (res_main_v103 (F := Ideal) V0))) (res_main_v102 (F := Ideal) V0)))⟩] concatenates_S1x512x8192_S1x512x8192_S1x512x8192_S3x512x8192_d0) shapeCasts_S3x512x8192_S3x512x128x64) transposes_S3x512x128x64_S64x512x128x3_3_1_2_0) shapeCasts_S64x512x128x3_S32768x384) (V0 (Proc.devRef .tc main_arg9))) (broadcastInDim S32768x64 ![0, 1] bcast_S1x64_S32768x64_0_1 (broadcastInDim S1x64 ![1] bcast_S64_S1x64_1 (V0 (Proc.devRef .tc main_arg10)))))) shapeCasts_S32768x64_S64x32768))
      = Cert.Layer.flat (Cert.Layer.H1 (fun b n u => res_main_v62 (F := Ideal) V0 (ix2 b ⟨n.val * 64 + u.val, by omega⟩)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10))) :=
  Cert.Layer.flat_eq_of_apply _ _ (fun b n u => v125_apply V0 b n u)

end Named

end Cert.ReferenceIdeal.RefValue1

end
-- ==== Proof.RValue.lean ====
/-
  The idealized reference's two results, as the layers' functions of the argument arrays: its first layer's new state is
  `Cert.Layer.H0` laid out flat, its second layer's `Cert.Layer.H1` over the first's.
-/
import proofs.«127843_g48979807044056_cont_8to1c4_176_1_alg».proof.Proof.RunP
import proofs.«127843_g48979807044056_cont_8to1c4_176_1_alg».proof.Proof.Spec
import proofs.«127843_g48979807044056_cont_8to1c4_176_1_alg».proof.Proof.Layer
import proofs.«127843_g48979807044056_cont_8to1c4_176_1_alg».proof.Proof.RLayer0
import proofs.«127843_g48979807044056_cont_8to1c4_176_1_alg».proof.Proof.RLayer1
import Idealize.ShloMosaic.Lib.ValueIdx

set_option maxRecDepth 16384

noncomputable section

namespace Cert.ReferenceIdeal.RValue

open Cert.ReferenceIdeal Cert.ReferenceIdeal.Gen Cert.ReferenceIdeal.Value Idealize.ShloMosaic Idealize.ShloMosaic.TcCoe Idealize.ShloMosaic.ValueIdx Idealize.SL.Sem Idealize.ShloMosaic.StableHlo

variable (V0 : Valuation τ sig (Elt Ideal))

/-- Layer 0's new state over the reference's argument arrays. -/
abbrev L0 : Fin 64 → Fin 512 → Fin 64 → EReal :=
  Cert.Layer.H0 (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))

/-- Layer 1's new state over layer 0's. -/
abbrev L1 : Fin 64 → Fin 512 → Fin 64 → EReal :=
  Cert.Layer.H1 (L0 V0) (V0 (Proc.devRef .tc main_arg1)) (V0 (Proc.devRef .tc main_arg2)) (V0 (Proc.devRef .tc main_arg7))
    (V0 (Proc.devRef .tc main_arg8)) (V0 (Proc.devRef .tc main_arg9)) (V0 (Proc.devRef .tc main_arg10))

/-- The first layer's result array is layer 0's new state, flat. -/
theorem h0 : res_main_v62 (F := Ideal) V0 = Cert.Layer.flat (L0 V0) := RefValue0.v62_eq V0

/-- Read by coordinates, the first layer's result is layer 0's new state. -/
theorem h0_coords : (fun (b : Fin 64) (n : Fin 512) (u : Fin 64) => res_main_v62 (F := Ideal) V0 (ix2 b ⟨n.val * 64 + u.val, by omega⟩)) = L0 V0 := by
  funext b n u
  rw [h0 V0]
  exact Cert.Layer.flat_apply _ b n u

/-- An array that is layer 1's new state over the first layer's result read by coordinates is layer 1's new state. -/
theorem h1_of (T : (⟨2, ![64, 32768]⟩ : Shape).Idx → EReal)
    (hT : T = Cert.Layer.flat (Cert.Layer.H1 (fun (b : Fin 64) (n : Fin 512) (u : Fin 64) => res_main_v62 (F := Ideal) V0 (ix2 b ⟨n.val * 64 + u.val, by omega⟩))
      (V0 (Proc.devRef .tc main_arg1)) (V0 (Proc.devRef .tc main_arg2)) (V0 (Proc.devRef .tc main_arg7))
      (V0 (Proc.devRef .tc main_arg8)) (V0 (Proc.devRef .tc main_arg9)) (V0 (Proc.devRef .tc main_arg10)))) :
    T = Cert.Layer.flat (L1 V0) := by
  rw [hT, h0_coords V0]

end Cert.ReferenceIdeal.RValue

end
-- ==== Proof.lean ====
/- The proof of `Cert.Claim`: the two-layer diffusion-convolution GRU step computed by two kernel launches equals its
   array-level reference on the extended reals.

   Both programs compute, per batch element, the cell of Proof/Spec.lean twice (Proof/Layer.lean names the two layers'
   results `H0`, `H1` as functions of the eleven argument arrays): the kernel per grid point on a `[512, ·]` panel with the
   weights' Chebyshev orders as three separate products (Proof/KPay0, KPay1: the bodies' arithmetic at an index; Proof/KBlocks0,
   KBlocks1: from blocks to the output arrays; Proof/KHost: the host operations around the two calls; Proof/KValue: the two
   results), the reference on all batch elements at once, the batch axis folded into the support product's columns and the
   three orders into one product of `(features · 3)` terms (Proof/RLayer0, RLayer1, RValue).  The two agree by regrouping
   that one sum into three (commutativity and associativity of the extended reals' sum only: no input need be finite), and
   the logistic function's two spellings agree at every extended real.  The frames are the generated ones (the reference's is
   its run with the results dropped); no operation was rewritten by the idealization, so `preserves` is trivial. -/
import proofs.«127843_g48979807044056_cont_8to1c4_176_1_alg».proof.Defs
import proofs.«127843_g48979807044056_cont_8to1c4_176_1_alg».proof.Proof.Gen.Kernel
import proofs.«127843_g48979807044056_cont_8to1c4_176_1_alg».proof.Proof.Gen.Kernel.Skeleton
import proofs.«127843_g48979807044056_cont_8to1c4_176_1_alg».proof.Proof.Gen.Kernel.Launch
import proofs.«127843_g48979807044056_cont_8to1c4_176_1_alg».proof.Proof.Gen.Kernel.Points
import proofs.«127843_g48979807044056_cont_8to1c4_176_1_alg».proof.Proof.Gen.Kernel.Frame
import proofs.«127843_g48979807044056_cont_8to1c4_176_1_alg».proof.Proof.Gen.KernelIdeal
import proofs.«127843_g48979807044056_cont_8to1c4_176_1_alg».proof.Proof.Gen.KernelIdeal.Skeleton
import proofs.«127843_g48979807044056_cont_8to1c4_176_1_alg».proof.Proof.Gen.KernelIdeal.Launch
import proofs.«127843_g48979807044056_cont_8to1c4_176_1_alg».proof.Proof.Gen.KernelIdeal.Points
import proofs.«127843_g48979807044056_cont_8to1c4_176_1_alg».proof.Proof.Gen.KernelIdeal.Frame
import proofs.«127843_g48979807044056_cont_8to1c4_176_1_alg».proof.Proof.Gen.ReferenceIdeal
import proofs.«127843_g48979807044056_cont_8to1c4_176_1_alg».proof.Proof.RunP
import proofs.«127843_g48979807044056_cont_8to1c4_176_1_alg».proof.Proof.Gen.Pre_finite_inputs
import proofs.«127843_g48979807044056_cont_8to1c4_176_1_alg».proof.Proof.KRun
import proofs.«127843_g48979807044056_cont_8to1c4_176_1_alg».proof.Proof.KValue
import proofs.«127843_g48979807044056_cont_8to1c4_176_1_alg».proof.Proof.RValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Over memories that agree on the arguments the two layers' functions of the argument arrays agree. -/
theorem layers_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RValue.L0 (launchContents m' c) = Cert.KernelIdeal.KValue.L0 m c
      ∧ Cert.ReferenceIdeal.RValue.L1 (launchContents m' c) = Cert.KernelIdeal.KValue.L1 m c := by
  have e0 : Cert.ReferenceIdeal.RValue.L0 (launchContents m' c) = Cert.KernelIdeal.KValue.L0 m c := by
    show Cert.Layer.H0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = Cert.Layer.H0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    rw [h0, h1, h2, h3, h4, h5, h6]
  refine ⟨e0, ?_⟩
  show Cert.Layer.H1 (Cert.ReferenceIdeal.RValue.L0 (launchContents m' c)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
    = Cert.Layer.H1 (Cert.KernelIdeal.KValue.L0 m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
  rw [e0, h1, h2, h7, h8, h9, h10]

/-- Both idealized programs end with the second layer's new state, flat, and with the two layers' new states stacked. -/
theorem algebraic : Cert.algebraic_KernelIdeal_ReferenceIdeal := by
  intro m ρ m' ρ' _ hagree
  refine ⟨fun c => Cert.Layer.flat (Cert.KernelIdeal.KValue.L1 m c),
    fun c => Cert.KernelIdeal.KValue.stacked m c, ?_, ?_⟩
  · exact (θ_run Cert.KernelIdeal.defs _ _).mono
      (fun r h c => ⟨(h c).1.trans (Cert.KernelIdeal.KValue.out0 m ρ c), (h c).2.1.trans (Cert.KernelIdeal.KValue.out1 m ρ c), (h c).2.2⟩)
      (Cert.KernelIdeal.RunP.run_results (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9, a10⟩ := hagree c
    obtain ⟨eL0, eL1⟩ := layers_agree m m' c a0 a1 a2 a3 a4 a5 a6 a7 a8 a9 a10
    have r0 := Cert.ReferenceIdeal.RValue.h0 (launchContents m' c)
    have r1 := Cert.ReferenceIdeal.RValue.h1_of (launchContents m' c) _ (Cert.ReferenceIdeal.RefValue1.v125_eq (launchContents m' c))
    rw [eL0] at r0
    rw [eL1] at r1
    have key : ∀ (a b : (⟨2, ![64, 32768]⟩ : Shape).Idx → EReal),
        a = Cert.Layer.flat (Cert.KernelIdeal.KValue.L0 m c) → b = Cert.Layer.flat (Cert.KernelIdeal.KValue.L1 m c) →
        concatenate Cert.ReferenceIdeal.S2x64x32768 0
          [⟨Cert.ReferenceIdeal.S1x64x32768, broadcastInDim Cert.ReferenceIdeal.S1x64x32768 ![1, 2] Cert.ReferenceIdeal.Gen.bcast_S64x32768_S1x64x32768_1_2 a⟩,
           ⟨Cert.ReferenceIdeal.S1x64x32768, broadcastInDim Cert.ReferenceIdeal.S1x64x32768 ![1, 2] Cert.ReferenceIdeal.Gen.bcast_S64x32768_S1x64x32768_1_2 b⟩]
          Cert.ReferenceIdeal.Gen.concatenates_S1x64x32768_S1x64x32768_S2x64x32768_d0 = Cert.KernelIdeal.KValue.stacked m c := by
      intro a b ha hb
      subst ha
      subst hb
      rfl
    exact ⟨(h c).1.trans r1, (h c).2.1.trans (key _ _ r0 r1), (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
